-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S500000x128 : Shape := ⟨2, ![500000, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S512x512 : Shape := ⟨2, ![512, 512]⟩
abbrev S256x512 : Shape := ⟨2, ![256, 512]⟩
abbrev S2x500000 : Shape := ⟨2, ![2, 500000]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_arg11 : FVec F S512 .f32) (main_arg12 : FVec F S256x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  main_v63

def fn_part2 {F : FTy → Type} [FloatOps F] (main_arg7 : FVec F S512 .f32) (main_arg8 : FVec F S512x128 .f32) (main_arg9 : FVec F S512 .f32) (main_arg10 : FVec F S512x512 .f32) (main_arg11 : FVec F S512 .f32) (main_arg12 : FVec F S256x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_v48 main_v49 main_v50

def fn_part1 {F : FTy → Type} [FloatOps F] (main_arg4 : FVec F S128x128 .f32) (main_arg5 : FVec F S128 .f32) (main_arg6 : FVec F S512x128 .f32) (main_arg7 : FVec F S512 .f32) (main_arg8 : FVec F S512x128 .f32) (main_arg9 : FVec F S512 .f32) (main_arg10 : FVec F S512x512 .f32) (main_arg11 : FVec F S512 .f32) (main_arg12 : FVec F S256x512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S25000x128 .f32) (main_arg1 : FVec F S500000x128 .f32) (main_arg2 : FVec F S128 .f32) (main_arg3 : FVec F S128 .f32) (main_arg4 : FVec F S128x128 .f32) (main_arg5 : FVec F S128 .f32) (main_arg6 : FVec F S512x128 .f32) (main_arg7 : FVec F S512 .f32) (main_arg8 : FVec F S512x128 .f32) (main_arg9 : FVec F S512 .f32) (main_arg10 : FVec F S512x512 .f32) (main_arg11 : FVec F S512 .f32) (main_arg12 : FVec F S256x512 .f32) (main_arg13 : IVec S2x500000 32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S25000x128 : Shape := ⟨2, ![25000, 128]⟩
abbrev S500000x128 : Shape := ⟨2, ![500000, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S512x512 : Shape := ⟨2, ![512, 512]⟩
abbrev S256x512 : Shape := ⟨2, ![256, 512]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S1x128 : Shape := ⟨2, ![1, 128]⟩
abbrev S128x512 : Shape := ⟨2, ![128, 512]⟩
abbrev S512x256 : Shape := ⟨2, ![512, 256]⟩
abbrev S10000x128 : Shape := ⟨2, ![10000, 128]⟩
abbrev S500000x1 : Shape := ⟨2, ![500000, 1]⟩
abbrev S25000x512 : Shape := ⟨2, ![25000, 512]⟩
abbrev S1000x128 : Shape := ⟨2, ![1000, 128]⟩
abbrev S1000x512 : Shape := ⟨2, ![1000, 512]⟩
abbrev S1x512 : Shape := ⟨2, ![1, 512]⟩
abbrev S500000x512 : Shape := ⟨2, ![500000, 512]⟩
abbrev S5000x128 : Shape := ⟨2, ![5000, 128]⟩
abbrev S5000x512 : Shape := ⟨2, ![5000, 512]⟩
abbrev S25000x256 : Shape := ⟨2, ![25000, 256]⟩
abbrev S1000x256 : Shape := ⟨2, ![1000, 256]⟩
abbrev S25000x1280 : Shape := ⟨2, ![25000, 1280]⟩

abbrev nBuf : Space → Nat
  | .hbm => 112
  | .vmem => 33
  | .smem => 0
  | _ => 0

abbrev bufTy : (tb : Table) → Fin (tcTables nBuf tb) → BufTy
  | .hbm, ⟨0, _⟩ => ⟨S25000x128, .f32⟩
  | .hbm, ⟨1, _⟩ => ⟨S500000x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S512x128, .f32⟩
  | .hbm, ⟨7, _⟩ => ⟨S512, .f32⟩
  | .hbm, ⟨8, _⟩ => ⟨S512x128, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S256x512, .f32⟩
  | .hbm, ⟨13, _⟩ => ⟨S2x500000, .i32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S25000x128, .f32⟩
  | .hbm, ⟨31, _⟩ => ⟨S25000x128, .f32⟩
  | .hbm, ⟨32, _⟩ => ⟨S25000x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S25000x128, .f32⟩
  | .hbm, ⟨48, _⟩ => ⟨S25000x128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S25000x128, .f32⟩
  | .hbm, ⟨55, _⟩ => ⟨S25000x128, .f32⟩
  | .hbm, ⟨56, _⟩ => ⟨S1x128, .f32⟩
  | .hbm, ⟨57, _⟩ => ⟨S25000x128, .f32⟩
  | .hbm, ⟨58, _⟩ => ⟨S25000x128, .f32⟩
  | .hbm, ⟨59, _⟩ => ⟨S1x128, .f32⟩
  | .hbm, ⟨60, _⟩ => ⟨S25000x128, .f32⟩
  | .hbm, ⟨61, _⟩ => ⟨S25000x128, .f32⟩
  | .hbm, ⟨62, _⟩ => ⟨S128x128, .f32⟩
  | .hbm, ⟨63, _⟩ => ⟨S128x128, .bf16⟩
  | .hbm, ⟨64, _⟩ => ⟨S128x512, .f32⟩
  | .hbm, ⟨65, _⟩ => ⟨S128x512, .bf16⟩
  | .hbm, ⟨66, _⟩ => ⟨S128x512, .f32⟩
  | .hbm, ⟨67, _⟩ => ⟨S128x512, .bf16⟩
  | .hbm, ⟨68, _⟩ => ⟨S512x512, .f32⟩
  | .hbm, ⟨69, _⟩ => ⟨S512x512, .bf16⟩
  | .hbm, ⟨70, _⟩ => ⟨S512x256, .f32⟩
  | .hbm, ⟨71, _⟩ => ⟨S512x256, .bf16⟩
  | .hbm, ⟨72, _⟩ => ⟨S500000x128, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S500000x128, .f32⟩
  | .hbm, ⟨85, _⟩ => ⟨S500000x128, .f32⟩
  | .hbm, ⟨86, _⟩ => ⟨S_, .f32⟩
  | .hbm, ⟨87, _⟩ => ⟨S25000x128, .f32⟩
  | .hbm, ⟨88, _⟩ => ⟨S500000x1, .i32⟩
  | .hbm, ⟨89, _⟩ => ⟨S25000x128, .f32⟩
  | .hbm, ⟨90, _⟩ => ⟨S25000x512, .f32⟩
  | .hbm, ⟨91, _⟩ => ⟨S500000x512, .f32⟩
  | .hbm, ⟨92, _⟩ => ⟨S_, .i32⟩
  | .hbm, ⟨93, _⟩ => ⟨S500000, .i32⟩
  | .hbm, ⟨94, _⟩ => ⟨S500000, .i1⟩
  | .hbm, ⟨95, _⟩ => ⟨S_, .i32⟩
  | .hbm, ⟨96, _⟩ => ⟨S500000, .i32⟩
  | .hbm, ⟨97, _⟩ => ⟨S500000, .i32⟩
  | .hbm, ⟨98, _⟩ => ⟨S500000, .i32⟩
  | .hbm, ⟨99, _⟩ => ⟨S500000x1, .i32⟩
  | .hbm, ⟨100, _⟩ => ⟨S500000x512, .f32⟩
  | .hbm, ⟨101, _⟩ => ⟨S500000x512, .f32⟩
  | .hbm, ⟨102, _⟩ => ⟨S_, .f32⟩
  | .hbm, ⟨103, _⟩ => ⟨S500000x512, .f32⟩
  | .hbm, ⟨104, _⟩ => ⟨S500000x512, .f32⟩
  | .hbm, ⟨105, _⟩ => ⟨S_, .f32⟩
  | .hbm, ⟨106, _⟩ => ⟨S25000x512, .f32⟩
  | .hbm, ⟨107, _⟩ => ⟨S500000x1, .i32⟩
  | .hbm, ⟨108, _⟩ => ⟨S25000x512, .f32⟩
  | .hbm, ⟨109, _⟩ => ⟨S25000x512, .f32⟩
  | .hbm, ⟨110, _⟩ => ⟨S25000x256, .f32⟩
  | .hbm, ⟨111, _⟩ => ⟨S25000x1280, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x512, .bf16⟩
  | .local _ .vmem, ⟨11, _⟩ => ⟨S512, .f32⟩
  | .local _ .vmem, ⟨12, _⟩ => ⟨S1000x512, .f32⟩
  | .local _ .vmem, ⟨13, _⟩ => ⟨S1000x512, .f32⟩
  | .local _ .vmem, ⟨14, _⟩ => ⟨S5000x128, .f32⟩
  | .local _ .vmem, ⟨15, _⟩ => ⟨S5000x128, .f32⟩
  | .local _ .vmem, ⟨16, _⟩ => ⟨S128x512, .bf16⟩
  | .local _ .vmem, ⟨17, _⟩ => ⟨S512, .f32⟩
  | .local _ .vmem, ⟨18, _⟩ => ⟨S5000x512, .f32⟩
  | .local _ .vmem, ⟨19, _⟩ => ⟨S5000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S512x512, .bf16⟩
  | .local _ .vmem, ⟨25, _⟩ => ⟨S512, .f32⟩
  | .local _ .vmem, ⟨26, _⟩ => ⟨S1000x512, .f32⟩
  | .local _ .vmem, ⟨27, _⟩ => ⟨S1000x512, .f32⟩
  | .local _ .vmem, ⟨28, _⟩ => ⟨S1000x512, .f32⟩
  | .local _ .vmem, ⟨29, _⟩ => ⟨S1000x512, .f32⟩
  | .local _ .vmem, ⟨30, _⟩ => ⟨S512x256, .bf16⟩
  | .local _ .vmem, ⟨31, _⟩ => ⟨S1000x256, .f32⟩
  | .local _ .vmem, ⟨32, _⟩ => ⟨S1000x256, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_2 : Ref sig .tc := ⟨.hbm, 73, rfl⟩
abbrev main_v34 : Ref sig .tc := ⟨.hbm, 74, rfl⟩
abbrev main_v35 : Ref sig .tc := ⟨.hbm, 75, rfl⟩
abbrev main_c_3 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_4 : Ref sig .tc := ⟨.hbm, 83, rfl⟩
abbrev main_v42 : Ref sig .tc := ⟨.hbm, 84, rfl⟩
abbrev main_v43 : Ref sig .tc := ⟨.hbm, 85, rfl⟩
abbrev main_cst_5 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_6 : Ref sig .tc := ⟨.hbm, 92, rfl⟩
abbrev main_v49 : Ref sig .tc := ⟨.hbm, 93, rfl⟩
abbrev main_v50 : Ref sig .tc := ⟨.hbm, 94, rfl⟩
abbrev main_c_7 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_8 : Ref sig .tc := ⟨.hbm, 102, rfl⟩
abbrev main_v57 : Ref sig .tc := ⟨.hbm, 103, rfl⟩
abbrev main_v58 : Ref sig .tc := ⟨.hbm, 104, rfl⟩
abbrev main_cst_9 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  reducesTo_S25000x128_S128_d0 : S25000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S25000x128_0_1 : S1x128.BroadcastsInDim S25000x128 (![0, 1] : Fin 2 → Fin S25000x128.rank)
  transposes_S128x128_S128x128_1_0 : S128x128.Transposes [1, 0] S128x128
  bitsLt_bf16_f32 : FTy.bits .bf16 < FTy.bits .f32
  transposes_S512x128_S128x512_1_0 : S512x128.Transposes [1, 0] S128x512
  transposes_S512x512_S512x512_1_0 : S512x512.Transposes [1, 0] S512x512
  transposes_S256x512_S512x256_1_0 : S256x512.Transposes [1, 0] S512x256
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S25000x128 : S_.BroadcastsInDim S25000x128 (![] : Fin 0 → Fin S25000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  inb_S5000x128_S5000x128_0_0 : ∀ a, (![0, 0] : Fin 2 → Nat) a + S5000x128.size a ≤ S5000x128.size a
  h_S5000x128 : 0 < S5000x128.numel
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  bcast_S_S500000x512 : S_.BroadcastsInDim S500000x512 (![] : Fin 0 → Fin S500000x512.rank)
  bcast_S_S25000x512 : S_.BroadcastsInDim S25000x512 (![] : Fin 0 → Fin S25000x512.rank)
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x256_S1000x256_0_0 : ∀ a, (![0, 0] : Fin 2 → Nat) a + S1000x256.size a ≤ S1000x256.size a
  h_S1000x256 : 0 < S1000x256.numel
  concatenates_S25000x512_S25000x512_S25000x256_S25000x1280_d1 : Shape.Concatenates [S25000x512, S25000x512, S25000x256] S25000x1280 1
  dot_S10000x128_S128x128_S10000x128_1_0_0_1_n_n_wf : DotDims.WF S10000x128 S128x128 S10000x128 [1] [0] [0] [1] [] []
  gather_S25000x128_S500000x1_S500000x128_1_0_n_n_0_1_1128_wf : GatherDims.WF S25000x128 S500000x1 S500000x128 [1] [0] [] [0] [] 1 ![1, 128]
  scatter_S25000x128_S500000x1_S500000x128_1_0_0_1_wf : ScatterDims.WF S25000x128 S500000x1 S500000x128 [1] [0] [0] 1
  dot_S1000x128_S128x512_S1000x512_1_0_0_1_n_n_wf : DotDims.WF S1000x128 S128x512 S1000x512 [1] [0] [0] [1] [] []
  dot_S5000x128_S128x512_S5000x512_1_0_0_1_n_n_wf : DotDims.WF S5000x128 S128x512 S5000x512 [1] [0] [0] [1] [] []
  gather_S25000x512_S500000x1_S500000x512_1_0_n_n_0_1_1512_wf : GatherDims.WF S25000x512 S500000x1 S500000x512 [1] [0] [] [0] [] 1 ![1, 512]
  scatter_S25000x512_S500000x1_S500000x512_1_0_0_1_wf : ScatterDims.WF S25000x512 S500000x1 S500000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S25000x128.size a
  hwx1_0 : ∀ i : grid1.Coords, EltTy.bits .f32 = 32 ∨ (Rect.block (s := S25000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S25000x128.size a
  hwx1_1 : ∀ i : grid1.Coords, EltTy.bits .f32 = 32 ∨ (Rect.block (s := S25000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .bf16 = 32 ∨ (Rect.block (s := S128x512) S128x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S25000x512.size a
  hwx1_4 : ∀ i : grid1.Coords, EltTy.bits .f32 = 32 ∨ (Rect.block (s := S25000x512) S1000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .bf16 = 32 ∨ (Rect.block (s := S128x512) S128x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x512.size a ≤ S500000x512.size a
  hwx2_3 : ∀ i : grid2.Coords, EltTy.bits .f32 = 32 ∨ (Rect.block (s := S500000x512) S5000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S25000x512.size a
  hwx3_0 : ∀ i : grid3.Coords, EltTy.bits .f32 = 32 ∨ (Rect.block (s := S25000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S25000x512.size a
  hwx3_1 : ∀ i : grid3.Coords, EltTy.bits .f32 = 32 ∨ (Rect.block (s := S25000x512) S1000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .bf16 = 32 ∨ (Rect.block (s := S512x512) S512x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x512.size a ≤ S25000x512.size a
  hwx3_4 : ∀ i : grid3.Coords, EltTy.bits .f32 = 32 ∨ (Rect.block (s := S25000x512) S1000x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S25000x512.size a
  hwx4_0 : ∀ i : grid4.Coords, EltTy.bits .f32 = 32 ∨ (Rect.block (s := S25000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .bf16 = 32 ∨ (Rect.block (s := S512x256) S512x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S25000x256.size a
  hwx4_2 : ∀ i : grid4.Coords, EltTy.bits .f32 = 32 ∨ (Rect.block (s := S25000x256) S1000x256.size (cc4_transform_2 i) (hinb4_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S25000x128_S500000x1_S500000x128_1_0_n_n_0_1_1128 : GatherDims S25000x128 S500000x1 S500000x128 where
  offsetDims := [1]
  collapsedSliceDims := [0]
  operandBatchingDims := []
  startIndicesBatchingDims := []
  startIndexMap := [0]
  indexVectorDim := 1
  sliceSizes := ![1, 128]
  wf := gather_S25000x128_S500000x1_S500000x128_1_0_n_n_0_1_1128_wf
def scatter_S25000x128_S500000x1_S500000x128_1_0_0_1 : ScatterDims S25000x128 S500000x1 S500000x128 where
  updateWindowDims := [1]
  insertedWindowDims := [0]
  scatterDimsToOperandDims := [0]
  indexVectorDim := 1
  wf := scatter_S25000x128_S500000x1_S500000x128_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S25000x512_S500000x1_S500000x512_1_0_n_n_0_1_1512 : GatherDims S25000x512 S500000x1 S500000x512 where
  offsetDims := [1]
  collapsedSliceDims := [0]
  operandBatchingDims := []
  startIndicesBatchingDims := []
  startIndexMap := [0]
  indexVectorDim := 1
  sliceSizes := ![1, 512]
  wf := gather_S25000x512_S500000x1_S500000x512_1_0_n_n_0_1_1512_wf
def scatter_S25000x512_S500000x1_S500000x512_1_0_0_1 : ScatterDims S25000x512 S500000x1 S500000x512 where
  updateWindowDims := [1]
  insertedWindowDims := [0]
  scatterDimsToOperandDims := [0]
  indexVectorDim := 1
  wf := scatter_S25000x512_S500000x1_S500000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1000x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S25000x128 : Shape := ⟨2, ![25000, 128]⟩
abbrev S500000x128 : Shape := ⟨2, ![500000, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S512x512 : Shape := ⟨2, ![512, 512]⟩
abbrev S256x512 : Shape := ⟨2, ![256, 512]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S1x128 : Shape := ⟨2, ![1, 128]⟩
abbrev S500000x1 : Shape := ⟨2, ![500000, 1]⟩
abbrev S128x512 : Shape := ⟨2, ![128, 512]⟩
abbrev S25000x512 : Shape := ⟨2, ![25000, 512]⟩
abbrev S1x512 : Shape := ⟨2, ![1, 512]⟩
abbrev S500000x512 : Shape := ⟨2, ![500000, 512]⟩
abbrev S512x256 : Shape := ⟨2, ![512, 256]⟩
abbrev S25000x256 : Shape := ⟨2, ![25000, 256]⟩
abbrev S25000x1280 : Shape := ⟨2, ![25000, 1280]⟩

abbrev nBuf : Space → Nat
  | .hbm => 124
  | .vmem => 0
  | .smem => 0
  | _ => 0

abbrev bufTy : (tb : Table) → Fin (tcTables nBuf tb) → BufTy
  | .hbm, ⟨0, _⟩ => ⟨S25000x128, .f32⟩
  | .hbm, ⟨1, _⟩ => ⟨S500000x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S512x128, .f32⟩
  | .hbm, ⟨7, _⟩ => ⟨S512, .f32⟩
  | .hbm, ⟨8, _⟩ => ⟨S512x128, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S256x512, .f32⟩
  | .hbm, ⟨13, _⟩ => ⟨S2x500000, .i32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S25000x128, .f32⟩
  | .hbm, ⟨31, _⟩ => ⟨S25000x128, .f32⟩
  | .hbm, ⟨32, _⟩ => ⟨S25000x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S25000x128, .f32⟩
  | .hbm, ⟨48, _⟩ => ⟨S25000x128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S25000x128, .f32⟩
  | .hbm, ⟨55, _⟩ => ⟨S25000x128, .f32⟩
  | .hbm, ⟨56, _⟩ => ⟨S1x128, .f32⟩
  | .hbm, ⟨57, _⟩ => ⟨S25000x128, .f32⟩
  | .hbm, ⟨58, _⟩ => ⟨S25000x128, .f32⟩
  | .hbm, ⟨59, _⟩ => ⟨S1x128, .f32⟩
  | .hbm, ⟨60, _⟩ => ⟨S25000x128, .f32⟩
  | .hbm, ⟨61, _⟩ => ⟨S25000x128, .f32⟩
  | .hbm, ⟨62, _⟩ => ⟨S_, .i32⟩
  | .hbm, ⟨63, _⟩ => ⟨S500000, .i32⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S500000, .i32⟩
  | .hbm, ⟨69, _⟩ => ⟨S500000x1, .i32⟩
  | .hbm, ⟨70, _⟩ => ⟨S500000x128, .f32⟩
  | .hbm, ⟨71, _⟩ => ⟨S128x128, .f32⟩
  | .hbm, ⟨72, _⟩ => ⟨S500000x128, .f32⟩
  | .hbm, ⟨73, _⟩ => ⟨S500000x128, .f32⟩
  | .hbm, ⟨74, _⟩ => ⟨S1x128, .f32⟩
  | .hbm, ⟨75, _⟩ => ⟨S500000x128, .f32⟩
  | .hbm, ⟨76, _⟩ => ⟨S500000x128, .f32⟩
  | .hbm, ⟨77, _⟩ => ⟨S_, .f32⟩
  | .hbm, ⟨78, _⟩ => ⟨S500000x128, .f32⟩
  | .hbm, ⟨79, _⟩ => ⟨S500000x128, .f32⟩
  | .hbm, ⟨80, _⟩ => ⟨S_, .f32⟩
  | .hbm, ⟨81, _⟩ => ⟨S25000x128, .f32⟩
  | .hbm, ⟨82, _⟩ => ⟨S500000x1, .i32⟩
  | .hbm, ⟨83, _⟩ => ⟨S25000x128, .f32⟩
  | .hbm, ⟨84, _⟩ => ⟨S25000x128, .f32⟩
  | .hbm, ⟨85, _⟩ => ⟨S128x512, .f32⟩
  | .hbm, ⟨86, _⟩ => ⟨S25000x512, .f32⟩
  | .hbm, ⟨87, _⟩ => ⟨S1x512, .f32⟩
  | .hbm, ⟨88, _⟩ => ⟨S25000x512, .f32⟩
  | .hbm, ⟨89, _⟩ => ⟨S25000x512, .f32⟩
  | .hbm, ⟨90, _⟩ => ⟨S25000x512, .f32⟩
  | .hbm, ⟨91, _⟩ => ⟨S_, .i32⟩
  | .hbm, ⟨92, _⟩ => ⟨S500000, .i32⟩
  | .hbm, ⟨93, _⟩ => ⟨S500000, .i1⟩
  | .hbm, ⟨94, _⟩ => ⟨S_, .i32⟩
  | .hbm, ⟨95, _⟩ => ⟨S500000, .i32⟩
  | .hbm, ⟨96, _⟩ => ⟨S500000, .i32⟩
  | .hbm, ⟨97, _⟩ => ⟨S500000, .i32⟩
  | .hbm, ⟨98, _⟩ => ⟨S500000x1, .i32⟩
  | .hbm, ⟨99, _⟩ => ⟨S500000x512, .f32⟩
  | .hbm, ⟨100, _⟩ => ⟨S128x512, .f32⟩
  | .hbm, ⟨101, _⟩ => ⟨S500000x512, .f32⟩
  | .hbm, ⟨102, _⟩ => ⟨S500000x512, .f32⟩
  | .hbm, ⟨103, _⟩ => ⟨S1x512, .f32⟩
  | .hbm, ⟨104, _⟩ => ⟨S500000x512, .f32⟩
  | .hbm, ⟨105, _⟩ => ⟨S500000x512, .f32⟩
  | .hbm, ⟨106, _⟩ => ⟨S_, .f32⟩
  | .hbm, ⟨107, _⟩ => ⟨S500000x512, .f32⟩
  | .hbm, ⟨108, _⟩ => ⟨S500000x512, .f32⟩
  | .hbm, ⟨109, _⟩ => ⟨S_, .f32⟩
  | .hbm, ⟨110, _⟩ => ⟨S25000x512, .f32⟩
  | .hbm, ⟨111, _⟩ => ⟨S500000x1, .i32⟩
  | .hbm, ⟨112, _⟩ => ⟨S25000x512, .f32⟩
  | .hbm, ⟨113, _⟩ => ⟨S25000x512, .f32⟩
  | .hbm, ⟨114, _⟩ => ⟨S512x512, .f32⟩
  | .hbm, ⟨115, _⟩ => ⟨S25000x512, .f32⟩
  | .hbm, ⟨116, _⟩ => ⟨S1x512, .f32⟩
  | .hbm, ⟨117, _⟩ => ⟨S25000x512, .f32⟩
  | .hbm, ⟨118, _⟩ => ⟨S25000x512, .f32⟩
  | .hbm, ⟨119, _⟩ => ⟨S25000x512, .f32⟩
  | .hbm, ⟨120, _⟩ => ⟨S512x256, .f32⟩
  | .hbm, ⟨121, _⟩ => ⟨S25000x256, .f32⟩
  | .hbm, ⟨122, _⟩ => ⟨S25000x256, .f32⟩
  | .hbm, ⟨123, _⟩ => ⟨S25000x1280, .f32⟩
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_c_2 : Ref sig .tc := ⟨.hbm, 62, rfl⟩
abbrev main_v23 : Ref sig .tc := ⟨.hbm, 63, rfl⟩
abbrev main_v24 : Ref sig .tc := ⟨.hbm, 64, rfl⟩
abbrev main_c_3 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_call1_cst : Ref sig .tc := ⟨.hbm, 77, rfl⟩
abbrev main_call1_v0 : Ref sig .tc := ⟨.hbm, 78, rfl⟩
abbrev main_v36 : Ref sig .tc := ⟨.hbm, 79, rfl⟩
abbrev main_cst_4 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_5 : Ref sig .tc := ⟨.hbm, 91, rfl⟩
abbrev main_v47 : Ref sig .tc := ⟨.hbm, 92, rfl⟩
abbrev main_v48 : Ref sig .tc := ⟨.hbm, 93, rfl⟩
abbrev main_c_6 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_call2_cst : Ref sig .tc := ⟨.hbm, 106, rfl⟩
abbrev main_call2_v0 : Ref sig .tc := ⟨.hbm, 107, rfl⟩
abbrev main_v60 : Ref sig .tc := ⟨.hbm, 108, rfl⟩
abbrev main_cst_7 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  reducesTo_S25000x128_S128_d0 : S25000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S25000x128_0_1 : S1x128.BroadcastsInDim S25000x128 (![0, 1] : Fin 2 → Fin S25000x128.rank)
  bcast_S_S500000 : S_.BroadcastsInDim S500000 (![] : Fin 0 → Fin S500000.rank)
  bcast_S500000_S500000x1_0 : S500000.BroadcastsInDim S500000x1 (![0] : Fin 1 → Fin S500000x1.rank)
  transposes_S128x128_S128x128_1_0 : S128x128.Transposes [1, 0] S128x128
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S25000x128 : S_.BroadcastsInDim S25000x128 (![] : Fin 0 → Fin S25000x128.rank)
  transposes_S512x128_S128x512_1_0 : S512x128.Transposes [1, 0] S128x512
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S_S25000x512 : S_.BroadcastsInDim S25000x512 (![] : Fin 0 → Fin S25000x512.rank)
  transposes_S512x512_S512x512_1_0 : S512x512.Transposes [1, 0] S512x512
  transposes_S256x512_S512x256_1_0 : S256x512.Transposes [1, 0] S512x256
  concatenates_S25000x512_S25000x512_S25000x256_S25000x1280_d1 : Shape.Concatenates [S25000x512, S25000x512, S25000x256] S25000x1280 1
  gather_S25000x128_S500000x1_S500000x128_1_0_n_n_0_1_1128_wf : GatherDims.WF S25000x128 S500000x1 S500000x128 [1] [0] [] [0] [] 1 ![1, 128]
  dot_S500000x128_S128x128_S500000x128_1_0_0_1_n_n_wf : DotDims.WF S500000x128 S128x128 S500000x128 [1] [0] [0] [1] [] []
  scatter_S25000x128_S500000x1_S500000x128_1_0_0_1_wf : ScatterDims.WF S25000x128 S500000x1 S500000x128 [1] [0] [0] 1
  dot_S25000x128_S128x512_S25000x512_1_0_0_1_n_n_wf : DotDims.WF S25000x128 S128x512 S25000x512 [1] [0] [0] [1] [] []
  gather_S25000x512_S500000x1_S500000x512_1_0_n_n_0_1_1512_wf : GatherDims.WF S25000x512 S500000x1 S500000x512 [1] [0] [] [0] [] 1 ![1, 512]
  dot_S500000x128_S128x512_S500000x512_1_0_0_1_n_n_wf : DotDims.WF S500000x128 S128x512 S500000x512 [1] [0] [0] [1] [] []
  scatter_S25000x512_S500000x1_S500000x512_1_0_0_1_wf : ScatterDims.WF S25000x512 S500000x1 S500000x512 [1] [0] [0] 1
  dot_S25000x512_S512x512_S25000x512_1_0_0_1_n_n_wf : DotDims.WF S25000x512 S512x512 S25000x512 [1] [0] [0] [1] [] []
  dot_S25000x512_S512x256_S25000x256_1_0_0_1_n_n_wf : DotDims.WF S25000x512 S512x256 S25000x256 [1] [0] [0] [1] [] []

variable [Facts₀]

def gather_S25000x128_S500000x1_S500000x128_1_0_n_n_0_1_1128 : GatherDims S25000x128 S500000x1 S500000x128 where
  offsetDims := [1]
  collapsedSliceDims := [0]
  operandBatchingDims := []
  startIndicesBatchingDims := []
  startIndexMap := [0]
  indexVectorDim := 1
  sliceSizes := ![1, 128]
  wf := gather_S25000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S25000x128_S500000x1_S500000x128_1_0_0_1 : ScatterDims S25000x128 S500000x1 S500000x128 where
  updateWindowDims := [1]
  insertedWindowDims := [0]
  scatterDimsToOperandDims := [0]
  indexVectorDim := 1
  wf := scatter_S25000x128_S500000x1_S500000x128_1_0_0_1_wf
def dot_S25000x128_S128x512_S25000x512_1_0_0_1_n_n : DotDims S25000x128 S128x512 S25000x512 where
  lhsContracting := [1]
  rhsContracting := [0]
  lhsNonContracting := [0]
  rhsNonContracting := [1]
  lhsBatch := []
  rhsBatch := []
  wf := dot_S25000x128_S128x512_S25000x512_1_0_0_1_n_n_wf
def gather_S25000x512_S500000x1_S500000x512_1_0_n_n_0_1_1512 : GatherDims S25000x512 S500000x1 S500000x512 where
  offsetDims := [1]
  collapsedSliceDims := [0]
  operandBatchingDims := []
  startIndicesBatchingDims := []
  startIndexMap := [0]
  indexVectorDim := 1
  sliceSizes := ![1, 512]
  wf := gather_S25000x512_S500000x1_S500000x512_1_0_n_n_0_1_1512_wf
def dot_S500000x128_S128x512_S500000x512_1_0_0_1_n_n : DotDims S500000x128 S128x512 S500000x512 where
  lhsContracting := [1]
  rhsContracting := [0]
  lhsNonContracting := [0]
  rhsNonContracting := [1]
  lhsBatch := []
  rhsBatch := []
  wf := dot_S500000x128_S128x512_S500000x512_1_0_0_1_n_n_wf
def scatter_S25000x512_S500000x1_S500000x512_1_0_0_1 : ScatterDims S25000x512 S500000x1 S500000x512 where
  updateWindowDims := [1]
  insertedWindowDims := [0]
  scatterDimsToOperandDims := [0]
  indexVectorDim := 1
  wf := scatter_S25000x512_S500000x1_S500000x512_1_0_0_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def dot_S25000x512_S512x256_S25000x256_1_0_0_1_n_n : DotDims S25000x512 S512x256 S25000x256 where
  lhsContracting := [1]
  rhsContracting := [0]
  lhsNonContracting := [0]
  rhsNonContracting := [1]
  lhsBatch := []
  rhsBatch := []
  wf := dot_S25000x512_S512x256_S25000x256_1_0_0_1_n_n_wf

class Facts : Prop extends Facts₀ where

variable [Facts]
-- ==== Proof.K.Reg0.lean ====
/-
  Region 0 of the kernel's @main: the first edge projection, one row block of 10000 edges per grid point.
  At a parameter `V` (the TensorCore's buffer contents when the region is entered) this module gives the blocks the
  pipeline stages at each point, what the body leaves in the output block (the one store's payload of the three
  loaded blocks), the body's triple, the proof data of the pipeline and the body obligation the launch theorem takes.
-/
import proofs.«118637_j37658273251987_1_alg».proof.Proof.Gen.Kernel.Launch
import proofs.«118637_j37658273251987_1_alg».proof.Proof.Gen.Kernel.Skeleton
import proofs.«118637_j37658273251987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the pipeline
    does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: each load and the store take the whole staging buffer. -/
abbrev r0_x : Rect S10000x128 := Rect.unit (s := S10000x128) ![0, 0] S10000x128.size inb_S10000x128_S10000x128_0_0
abbrev r0_w : Rect S128x128 := Rect.unit (s := S128x128) ![0, 0] S128x128.size inb_S128x128_S128x128_0_0
abbrev r0_b : Rect S128 := Rect.unit (s := S128) ![0] S128.size inb_S128_S128_0
abbrev r0_o : Rect S10000x128 := Rect.unit (s := S10000x128) ![0, 0] S10000x128.size inb_S10000x128_S10000x128_0_0

/-- The output block after the body, from the three input blocks: its one store as a piece. -/
def out0_3 (x0 : Vec F S10000x128 .f32) (x1 : Vec F S128x128 .bf16) (x2 : Vec F S128 .f32) : Vec F S10000x128 .f32 :=
  View.canon [⟨r0_o, k0_pay1 (View.ld x0 r0_x) (View.ld x1 r0_w) (View.ld x2 r0_b)⟩]

/-- The store covers the buffer. -/
theorem cover0_3 (p0 : Vec F S10000x128 .f32) (y : S10000x128.Idx) :
    ∃ pc ∈ ([⟨r0_o, p0⟩] : List (View.Piece (Elt F) S10000x128 .f32)), y ∈ pc.1.set :=
  View.cover_of_tiled [⟨r0_o, p0⟩] S10000x128.size (by rfl) y

set_option maxHeartbeats 1000000 in
/-- The kernel body on whole staging memrefs, the inputs' at contents `x0 x1 x2` and the output's at anything, runs to a
    state holding the inputs' as they were and the output's at `out0_3` of them. -/
theorem sound_kernel0 (c : Dev nD) (E : Set ℕ) (i : grid0.Coords) (arg1 : Memref sig .tc .vmem S10000x128 .f32) (harg1 : arg1.IsWhole)
    (arg2 : Memref sig .tc .vmem S128x128 .bf16) (harg2 : arg2.IsWhole) (arg3 : Memref sig .tc .vmem S128 .f32) (harg3 : arg3.IsWhole)
    (arg4 : Memref sig .tc .vmem S10000x128 .f32) (harg4 : arg4.IsWhole)
    (x0 : Vec F S10000x128 .f32) (x1 : Vec F S128x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel's @main: the first node update, one row block of 1000 nodes per grid point.
  At a parameter `V` (the TensorCore's buffer contents when the region is entered) this module gives the blocks the
  pipeline stages at each point, what the body leaves in the output block (the one store's payload of the loaded
  blocks), the body's triple, the proof data of the pipeline and the body obligation the launch theorem takes.
-/
import proofs.«118637_j37658273251987_1_alg».proof.Proof.Gen.Kernel.Launch
import proofs.«118637_j37658273251987_1_alg».proof.Proof.Gen.Kernel.Skeleton
import proofs.«118637_j37658273251987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the pipeline
    does not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: each load and the store take the whole staging buffer. -/
abbrev r1_x : Rect S1000x128 := Rect.unit (s := S1000x128) ![0, 0] S1000x128.size inb_S1000x128_S1000x128_0_0
abbrev r1_w : Rect S128x512 := Rect.unit (s := S128x512) ![0, 0] S128x512.size inb_S128x512_S128x512_0_0
abbrev r1_b : Rect S512 := Rect.unit (s := S512) ![0] S512.size inb_S512_S512_0
abbrev r1_o : Rect S1000x512 := Rect.unit (s := S1000x512) ![0, 0] S1000x512.size inb_S1000x512_S1000x512_0_0

/-- The output block after the body, from the four input blocks: its one store as a piece. -/
def out1_4 (x0 : Vec F S1000x128 .f32) (x1 : Vec F S1000x128 .f32) (x2 : Vec F S128x512 .bf16) (x3 : Vec F S512 .f32) : Vec F S1000x512 .f32 :=
  View.canon [⟨r1_o, k1_pay1 (View.ld x0 r1_x) (View.ld x1 r1_x) (View.ld x2 r1_w) (View.ld x3 r1_b)⟩]

/-- The store covers the buffer. -/
theorem cover1_4 (p0 : Vec F S1000x512 .f32) (y : S1000x512.Idx) :
    ∃ pc ∈ ([⟨r1_o, p0⟩] : List (View.Piece (Elt F) S1000x512 .f32)), y ∈ pc.1.set :=
  View.cover_of_tiled [⟨r1_o, p0⟩] S1000x512.size (by rfl) y

set_option maxHeartbeats 1000000 in
/-- The kernel body on whole staging memrefs, the inputs' at contents `x0 … x3` and the output's at anything, runs to a
    state holding the inputs' as they were and the output's at `out1_4` of them. -/
theorem sound_kernel1 (c : Dev nD) (E : Set ℕ) (i : grid1.Coords) (arg1 : Memref sig .tc .vmem S1000x128 .f32) (harg1 : arg1.IsWhole)
    (arg2 : Memref sig .tc .vmem S1000x128 .f32) (harg2 : arg2.IsWhole)
    (arg3 : Memref sig .tc .vmem S128x512 .bf16) (harg3 : arg3.IsWhole) (arg4 : Memref sig .tc .vmem S512 .f32) (harg4 : arg4.IsWhole)
    (arg5 : Memref sig .tc .vmem S1000x512 .f32) (harg5 : arg5.IsWhole)
    (x0 : Vec F S1000x128 .f32) (x1 : Vec F S1000x128 .f32) (x2 : Vec F S128x512 .bf16) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__node_update_kernel i arg1 harg1 arg2 harg2 arg3 harg3 arg4 harg4 arg5 harg5) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The proof data of pipeline 1 on core `c`: the arrays as the region finds them; after the body at point `t` each
    input's buffer at its block and the output's at `out1_4` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel's @main: the second edge projection, one row block of 5000 edges per grid point.
  At a parameter `V` (the TensorCore's buffer contents when the region is entered) this module gives the blocks the
  pipeline stages at each point, what the body leaves in the output block (the one store's payload of the three
  loaded blocks), the body's triple, the proof data of the pipeline and the body obligation the launch theorem takes.
-/
import proofs.«118637_j37658273251987_1_alg».proof.Proof.Gen.Kernel.Launch
import proofs.«118637_j37658273251987_1_alg».proof.Proof.Gen.Kernel.Skeleton
import proofs.«118637_j37658273251987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the pipeline
    does not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's rectangles: each load and the store take the whole staging buffer. -/
abbrev r2_x : Rect S5000x128 := Rect.unit (s := S5000x128) ![0, 0] S5000x128.size inb_S5000x128_S5000x128_0_0
abbrev r2_w : Rect S128x512 := Rect.unit (s := S128x512) ![0, 0] S128x512.size inb_S128x512_S128x512_0_0
abbrev r2_b : Rect S512 := Rect.unit (s := S512) ![0] S512.size inb_S512_S512_0
abbrev r2_o : Rect S5000x512 := Rect.unit (s := S5000x512) ![0, 0] S5000x512.size inb_S5000x512_S5000x512_0_0

/-- The output block after the body, from the three input blocks: its one store as a piece. -/
def out2_3 (x0 : Vec F S5000x128 .f32) (x1 : Vec F S128x512 .bf16) (x2 : Vec F S512 .f32) : Vec F S5000x512 .f32 :=
  View.canon [⟨r2_o, k2_pay1 (View.ld x0 r2_x) (View.ld x1 r2_w) (View.ld x2 r2_b)⟩]

/-- The store covers the buffer. -/
theorem cover2_3 (p0 : Vec F S5000x512 .f32) (y : S5000x512.Idx) :
    ∃ pc ∈ ([⟨r2_o, p0⟩] : List (View.Piece (Elt F) S5000x512 .f32)), y ∈ pc.1.set :=
  View.cover_of_tiled [⟨r2_o, p0⟩] S5000x512.size (by rfl) y

set_option maxHeartbeats 1000000 in
/-- The kernel body on whole staging memrefs, the inputs' at contents `x0 x1 x2` and the output's at anything, runs to a
    state holding the inputs' as they were and the output's at `out2_3` of them. -/
theorem sound_kernel2 (c : Dev nD) (E : Set ℕ) (i : grid2.Coords) (arg1 : Memref sig .tc .vmem S5000x128 .f32) (harg1 : arg1.IsWhole)
    (arg2 : Memref sig .tc .vmem S128x512 .bf16) (harg2 : arg2.IsWhole) (arg3 : Memref sig .tc .vmem S512 .f32) (harg3 : arg3.IsWhole)
    (arg4 : Memref sig .tc .vmem S5000x512 .f32) (harg4 : arg4.IsWhole)
    (x0 : Vec F S5000x128 .f32) (x1 : Vec F S128x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the kernel's @main: the second node update, one row block of 1000 nodes per grid point.
  At a parameter `V` (the TensorCore's buffer contents when the region is entered) this module gives the blocks the
  pipeline stages at each point, what the body leaves in the output block (the one store's payload of the loaded
  blocks), the body's triple, the proof data of the pipeline and the body obligation the launch theorem takes.
-/
import proofs.«118637_j37658273251987_1_alg».proof.Proof.Gen.Kernel.Launch
import proofs.«118637_j37658273251987_1_alg».proof.Proof.Gen.Kernel.Skeleton
import proofs.«118637_j37658273251987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where the pipeline
    does not fetch, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The body's rectangles: each load and the store take the whole staging buffer. -/
abbrev r3_x : Rect S1000x512 := Rect.unit (s := S1000x512) ![0, 0] S1000x512.size inb_S1000x512_S1000x512_0_0
abbrev r3_w : Rect S512x512 := Rect.unit (s := S512x512) ![0, 0] S512x512.size inb_S512x512_S512x512_0_0
abbrev r3_b : Rect S512 := Rect.unit (s := S512) ![0] S512.size inb_S512_S512_0
abbrev r3_o : Rect S1000x512 := Rect.unit (s := S1000x512) ![0, 0] S1000x512.size inb_S1000x512_S1000x512_0_0

/-- The output block after the body, from the four input blocks: its one store as a piece. -/
def out3_4 (x0 : Vec F S1000x512 .f32) (x1 : Vec F S1000x512 .f32) (x2 : Vec F S512x512 .bf16) (x3 : Vec F S512 .f32) : Vec F S1000x512 .f32 :=
  View.canon [⟨r3_o, k3_pay1 (View.ld x0 r3_x) (View.ld x1 r3_x) (View.ld x2 r3_w) (View.ld x3 r3_b)⟩]

/-- The store covers the buffer. -/
theorem cover3_4 (p0 : Vec F S1000x512 .f32) (y : S1000x512.Idx) :
    ∃ pc ∈ ([⟨r3_o, p0⟩] : List (View.Piece (Elt F) S1000x512 .f32)), y ∈ pc.1.set :=
  View.cover_of_tiled [⟨r3_o, p0⟩] S1000x512.size (by rfl) y

set_option maxHeartbeats 1000000 in
/-- The kernel body on whole staging memrefs, the inputs' at contents `x0 … x3` and the output's at anything, runs to a
    state holding the inputs' as they were and the output's at `out3_4` of them. -/
theorem sound_kernel3 (c : Dev nD) (E : Set ℕ) (i : grid3.Coords) (arg1 : Memref sig .tc .vmem S1000x512 .f32) (harg1 : arg1.IsWhole)
    (arg2 : Memref sig .tc .vmem S1000x512 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S1000x512 .f32) (harg5 : arg5.IsWhole)
    (x0 : Vec F S1000x512 .f32) (x1 : Vec F S1000x512 .f32) (x2 : Vec F S512x512 .bf16) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__node_update_kernel i arg1 harg1 arg2 harg2 arg3 harg3 arg4 harg4 arg5 harg5) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-- The proof data of pipeline 3 on core `c`: the arrays as the region finds them; after the body at point `t` each
    input's buffer at its block and the output's at `out3_4` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the kernel's @main: the final projection, one row block of 1000 nodes per grid point.
  At a parameter `V` (the TensorCore's buffer contents when the region is entered) this module gives the blocks the
  pipeline stages at each point, what the body leaves in the output block (the one store's payload of the loaded
  blocks), the body's triple, the proof data of the pipeline and the body obligation the launch theorem takes.
-/
import proofs.«118637_j37658273251987_1_alg».proof.Proof.Gen.Kernel.Launch
import proofs.«118637_j37658273251987_1_alg».proof.Proof.Gen.Kernel.Skeleton
import proofs.«118637_j37658273251987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: where the pipeline
    does not fetch, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's rectangles: each load and the store take the whole staging buffer. -/
abbrev r4_x : Rect S1000x512 := Rect.unit (s := S1000x512) ![0, 0] S1000x512.size inb_S1000x512_S1000x512_0_0
abbrev r4_w : Rect S512x256 := Rect.unit (s := S512x256) ![0, 0] S512x256.size inb_S512x256_S512x256_0_0
abbrev r4_o : Rect S1000x256 := Rect.unit (s := S1000x256) ![0, 0] S1000x256.size inb_S1000x256_S1000x256_0_0

/-- The output block after the body, from the two input blocks: its one store as a piece. -/
def out4_2 (x0 : Vec F S1000x512 .f32) (x1 : Vec F S512x256 .bf16) : Vec F S1000x256 .f32 :=
  View.canon [⟨r4_o, k4_pay1 (View.ld x0 r4_x) (View.ld x1 r4_w)⟩]

/-- The store covers the buffer. -/
theorem cover4_2 (p0 : Vec F S1000x256 .f32) (y : S1000x256.Idx) :
    ∃ pc ∈ ([⟨r4_o, p0⟩] : List (View.Piece (Elt F) S1000x256 .f32)), y ∈ pc.1.set :=
  View.cover_of_tiled [⟨r4_o, p0⟩] S1000x256.size (by rfl) y

set_option maxHeartbeats 1000000 in
/-- The kernel body on whole staging memrefs, the inputs' at contents `x0 x1` and the output's at anything, runs to a
    state holding the inputs' as they were and the output's at `out4_2` of them. -/
theorem sound_kernel4 (c : Dev nD) (E : Set ℕ) (i : grid4.Coords) (arg1 : Memref sig .tc .vmem S1000x512 .f32) (harg1 : arg1.IsWhole)
    (arg2 : Memref sig .tc .vmem S512x256 .bf16) (harg2 : arg2.IsWhole)
    (arg3 : Memref sig .tc .vmem S1000x256 .f32) (harg3 : arg3.IsWhole)
    (x0 : Vec F S1000x512 .f32) (x1 : Vec F S512x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__fc_tanh_kernel i arg1 harg1 arg2 harg2 arg3 harg3) K := by
  simp only [cc4__fc_tanh_kernel_eq_skeleton]; unfold cc4__fc_tanh_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _)

/-- The proof data of pipeline 4 on core `c`: the arrays as the region finds them; after the body at point `t` each
    input's buffer at its block and the output's at `out4_2` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The kernel's @main from the launch to the return, at any float instance: the contents of the TensorCore's
  unscoped buffers at every boundary between two items of @main (a stretch of host operations folds its operations over
  the contents before it; a kernel region leaves its arrays at what its pipeline's write-backs leave and every other
  buffer as it was), every pipeline's proof data at its region's entry contents, each item as a segment of the
  several-regions launch theorem, and the run: every weakly fair execution terminates, without a fault, with every
  unscoped buffer at the last boundary's contents.
-/
import proofs.«118637_j37658273251987_1_alg».proof.Proof.K.Reg0
import proofs.«118637_j37658273251987_1_alg».proof.Proof.K.Reg1
import proofs.«118637_j37658273251987_1_alg».proof.Proof.K.Reg2
import proofs.«118637_j37658273251987_1_alg».proof.Proof.K.Reg3
import proofs.«118637_j37658273251987_1_alg».proof.Proof.K.Reg4
import proofs.«118637_j37658273251987_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: the edge index rows and the column means. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After `hostOps0_1`: the column variances. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After `hostOps0_2`: the normalised nodes and the transposed weights (region 0's entry). -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`: the first messages gathered, rectified and summed per node (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, the output's write-backs
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3`: the second messages gathered, rectified and summed per node (region 3's entry). -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- At region 3's exit: its arrays at what the pipeline leaves (the inputs as entered, the output's write-backs
    folded), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves (the inputs as entered, the output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`: the three results side by side. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W3`, left at `W4`. Its arrays are
    split out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are
    split out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. Its arrays are
    split out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are
    split out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)) ]

/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.Kernel.Hand

end
-- ==== Proof.K.Keep.lean ====
/-
  What each item of the kernel's @main leaves unchanged: a stretch of host operations writes only its own
  results, and a kernel region only its output array. Hence every buffer that no item writes — each argument array among
  them — holds its launch contents at the end.
-/
import proofs.«118637_j37658273251987_1_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The stretch `hostOps0` writes only its own results. -/
theorem W1_of (c : Dev nD) (r : Ref sig .tc) (h : r ∉ hostOps0_W) : W1 m ρ c r = W0 m ρ c r :=
  StableHlo.after_of_writes_sub hostOps0 _ hostOps0_writes h

/-- The stretch `hostOps0_1` writes only its own results. -/
theorem W2_of (c : Dev nD) (r : Ref sig .tc) (h : r ∉ hostOps0_1_W) : W2 m ρ c r = W1 m ρ c r :=
  StableHlo.after_of_writes_sub hostOps0_1 _ hostOps0_1_writes h

/-- The stretch `hostOps0_2` writes only its own results. -/
theorem W3_of (c : Dev nD) (r : Ref sig .tc) (h : r ∉ hostOps0_2_W) : W3 m ρ c r = W2 m ρ c r :=
  StableHlo.after_of_writes_sub hostOps0_2 _ hostOps0_2_writes h

/-- Region 0 changes no unscoped buffer but its output array: an input window's array ends as entered, and a buffer no
    window stages is not touched. -/
theorem W4_keep (c : Dev nD) (r : Ref sig .tc) (h : r ≠ main_v33) : W4 m ρ c r = W3 m ρ c r := by
  by_cases h0 : r = main_arg1
  · subst h0; exact (W4_arr m ρ c 0).trans (((dat0 (V3 m ρ) c).arrAt_in 0 rfl _).trans (A_eq0 (V3 m ρ) c 0))
  by_cases h1 : r = main_v24
  · subst h1; exact (W4_arr m ρ c 1).trans (((dat0 (V3 m ρ) c).arrAt_in 1 rfl _).trans (A_eq0 (V3 m ρ) c 1))
  by_cases h2 : r = main_arg5
  · subst h2; exact (W4_arr m ρ c 2).trans (((dat0 (V3 m ρ) c).arrAt_in 2 rfl _).trans (A_eq0 (V3 m ρ) c 2))
  exact W4_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h e.symm)
/-- Region 0's output array ends at what its pipeline's write-backs leave. -/
theorem W4_out (c : Dev nD) : W4 m ρ c main_v33 = (dat0 (V3 m ρ) c).arrAt 3 cfg0.N :=
  W4_arr m ρ c 3

/-- The stretch `hostOps1` writes only its own results. -/
theorem W5_of (c : Dev nD) (r : Ref sig .tc) (h : r ∉ hostOps1_W) : W5 m ρ c r = W4 m ρ c r :=
  StableHlo.after_of_writes_sub hostOps1 _ hostOps1_writes h

/-- Region 1 changes no unscoped buffer but its output array: an input window's array ends as entered, and a buffer no
    window stages is not touched. -/
theorem W6_keep (c : Dev nD) (r : Ref sig .tc) (h : r ≠ main_v47) : W6 m ρ c r = W5 m ρ c r := by
  by_cases h0 : r = main_v22
  · subst h0; exact (W6_arr m ρ c 0).trans (((dat1 (V5 m ρ) c).arrAt_in 0 rfl _).trans (A_eq1 (V5 m ρ) c 0))
  by_cases h1 : r = main_v46
  · subst h1; exact (W6_arr m ρ c 1).trans (((dat1 (V5 m ρ) c).arrAt_in 1 rfl _).trans (A_eq1 (V5 m ρ) c 1))
  by_cases h2 : r = main_v26
  · subst h2; exact (W6_arr m ρ c 2).trans (((dat1 (V5 m ρ) c).arrAt_in 2 rfl _).trans (A_eq1 (V5 m ρ) c 2))
  by_cases h3 : r = main_arg7
  · subst h3; exact (W6_arr m ρ c 3).trans (((dat1 (V5 m ρ) c).arrAt_in 3 rfl _).trans (A_eq1 (V5 m ρ) c 3))
  exact W6_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm)
/-- Region 1's output array ends at what its pipeline's write-backs leave. -/
theorem W6_out (c : Dev nD) : W6 m ρ c main_v47 = (dat1 (V5 m ρ) c).arrAt 4 cfg1.N :=
  W6_arr m ρ c 4

/-- Region 2 changes no unscoped buffer but its output array: an input window's array ends as entered, and a buffer no
    window stages is not touched. -/
theorem W7_keep (c : Dev nD) (r : Ref sig .tc) (h : r ≠ main_v48) : W7 m ρ c r = W6 m ρ c r := by
  by_cases h0 : r = main_arg1
  · subst h0; exact (W7_arr m ρ c 0).trans (((dat2 (V6 m ρ) c).arrAt_in 0 rfl _).trans (A_eq2 (V6 m ρ) c 0))
  by_cases h1 : r = main_v28
  · subst h1; exact (W7_arr m ρ c 1).trans (((dat2 (V6 m ρ) c).arrAt_in 1 rfl _).trans (A_eq2 (V6 m ρ) c 1))
  by_cases h2 : r = main_arg9
  · subst h2; exact (W7_arr m ρ c 2).trans (((dat2 (V6 m ρ) c).arrAt_in 2 rfl _).trans (A_eq2 (V6 m ρ) c 2))
  exact W7_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h e.symm)
/-- Region 2's output array ends at what its pipeline's write-backs leave. -/
theorem W7_out (c : Dev nD) : W7 m ρ c main_v48 = (dat2 (V6 m ρ) c).arrAt 3 cfg2.N :=
  W7_arr m ρ c 3

/-- The stretch `hostOps3` writes only its own results. -/
theorem W8_of (c : Dev nD) (r : Ref sig .tc) (h : r ∉ hostOps3_W) : W8 m ρ c r = W7 m ρ c r :=
  StableHlo.after_of_writes_sub hostOps3 _ hostOps3_writes h

/-- Region 3 changes no unscoped buffer but its output array: an input window's array ends as entered, and a buffer no
    window stages is not touched. -/
theorem W9_keep (c : Dev nD) (r : Ref sig .tc) (h : r ≠ main_v62) : W9 m ρ c r = W8 m ρ c r := by
  by_cases h0 : r = main_v47
  · subst h0; exact (W9_arr m ρ c 0).trans (((dat3 (V8 m ρ) c).arrAt_in 0 rfl _).trans (A_eq3 (V8 m ρ) c 0))
  by_cases h1 : r = main_v61
  · subst h1; exact (W9_arr m ρ c 1).trans (((dat3 (V8 m ρ) c).arrAt_in 1 rfl _).trans (A_eq3 (V8 m ρ) c 1))
  by_cases h2 : r = main_v30
  · subst h2; exact (W9_arr m ρ c 2).trans (((dat3 (V8 m ρ) c).arrAt_in 2 rfl _).trans (A_eq3 (V8 m ρ) c 2))
  by_cases h3 : r = main_arg11
  · subst h3; exact (W9_arr m ρ c 3).trans (((dat3 (V8 m ρ) c).arrAt_in 3 rfl _).trans (A_eq3 (V8 m ρ) c 3))
  exact W9_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm)
/-- Region 3's output array ends at what its pipeline's write-backs leave. -/
theorem W9_out (c : Dev nD) : W9 m ρ c main_v62 = (dat3 (V8 m ρ) c).arrAt 4 cfg3.N :=
  W9_arr m ρ c 4

/-- Region 4 changes no unscoped buffer but its output array: an input window's array ends as entered, and a buffer no
    window stages is not touched. -/
theorem W10_keep (c : Dev nD) (r : Ref sig .tc) (h : r ≠ main_v63) : W10 m ρ c r = W9 m ρ c r := by
  by_cases h0 : r = main_v62
  · subst h0; exact (W10_arr m ρ c 0).trans (((dat4 (V9 m ρ) c).arrAt_in 0 rfl _).trans (A_eq4 (V9 m ρ) c 0))
  by_cases h1 : r = main_v32
  · subst h1; exact (W10_arr m ρ c 1).trans (((dat4 (V9 m ρ) c).arrAt_in 1 rfl _).trans (A_eq4 (V9 m ρ) c 1))
  exact W10_of_ne m ρ c r (fun w => by
    match w with
    | ⟨0, _⟩ => exact fun e => h0 e.symm
    | ⟨1, _⟩ => exact fun e => h1 e.symm
    | ⟨2, _⟩ => exact fun e => h e.symm)
/-- Region 4's output array ends at what its pipeline's write-backs leave. -/
theorem W10_out (c : Dev nD) : W10 m ρ c main_v63 = (dat4 (V9 m ρ) c).arrAt 2 cfg4.N :=
  W10_arr m ρ c 2

/-- The stretch `hostOps5` writes only its own results. -/
theorem W11_of (c : Dev nD) (r : Ref sig .tc) (h : r ∉ hostOps5_W) : W11 m ρ c r = W10 m ρ c r :=
  StableHlo.after_of_writes_sub hostOps5 _ hostOps5_writes h

/-- A buffer that no item of @main writes holds its launch contents at the end. -/
theorem W11_kept (c : Dev nD) (r : Ref sig .tc) (h1 : r ∉ hostOps0_W) (h2 : r ∉ hostOps0_1_W) (h3 : r ∉ hostOps0_2_W) (h4 : r ≠ main_v33)
    (h5 : r ∉ hostOps1_W) (h6 : r ≠ main_v47) (h7 : r ≠ main_v48) (h8 : r ∉ hostOps3_W) (h9 : r ≠ main_v62) (h10 : r ≠ main_v63)
    (h11 : r ∉ hostOps5_W) : W11 m ρ c r = m ((c : Thread nD τ).loc r) :=
  (W11_of m ρ c r h11).trans <| (W10_keep m ρ c r h10).trans <| (W9_keep m ρ c r h9).trans <| (W8_of m ρ c r h8).trans <|
    (W7_keep m ρ c r h7).trans <| (W6_keep m ρ c r h6).trans <| (W5_of m ρ c r h5).trans <| (W4_keep m ρ c r h4).trans <|
    (W3_of m ρ c r h3).trans <| (W2_of m ρ c r h2).trans <| (W1_of m ρ c r h1)

/-- THE FRAME: every weakly fair execution of @main terminates, nothing faulting, with every argument array as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W11_kept m ρ c main_arg0 (by decide) (by decide) (by decide) (by decide) (by decide) (by decide) (by decide) (by decide) (by decide) (by decide) (by decide)),
      (h c _ (mem_uc main_arg1 (by decide))).trans (W11_kept m ρ c main_arg1 (by decide) (by decide) (by decide) (by decide) (by decide) (by decide) (by decide) (by decide) (by decide) (by decide) (by decide)),
      (h c _ (mem_uc main_arg2 (by decide))).trans (W11_kept m ρ c main_arg2 (by decide) (by decide) (by decide) (by decide) (by decide) (by decide) (by decide) (by decide) (by decide) (by decide) (by decide)),
      (h c _ (mem_uc main_arg3 (by decide))).trans (W11_kept m ρ c main_arg3 (by decide) (by decide) (by decide) (by decide) (by decide) (by decide) (by decide) (by decide) (by decide) (by decide) (by decide)),
      (h c _ (mem_uc main_arg4 (by decide))).trans (W11_kept m ρ c main_arg4 (by decide) (by decide) (by decide) (by decide) (by decide) (by decide) (by decide) (by decide) (by decide) (by decide) (by decide)),
      (h c _ (mem_uc main_arg5 (by decide))).trans (W11_kept m ρ c main_arg5 (by decide) (by decide) (by decide) (by decide) (by decide) (by decide) (by decide) (by decide) (by decide) (by decide) (by decide)),
      (h c _ (mem_uc main_arg6 (by decide))).trans (W11_kept m ρ c main_arg6 (by decide) (by decide) (by decide) (by decide) (by decide) (by decide) (by decide) (by decide) (by decide) (by decide) (by decide)),
      (h c _ (mem_uc main_arg7 (by decide))).trans (W11_kept m ρ c main_arg7 (by decide) (by decide) (by decide) (by decide) (by decide) (by decide) (by decide) (by decide) (by decide) (by decide) (by decide)),
      (h c _ (mem_uc main_arg8 (by decide))).trans (W11_kept m ρ c main_arg8 (by decide) (by decide) (by decide) (by decide) (by decide) (by decide) (by decide) (by decide) (by decide) (by decide) (by decide)),
      (h c _ (mem_uc main_arg9 (by decide))).trans (W11_kept m ρ c main_arg9 (by decide) (by decide) (by decide) (by decide) (by decide) (by decide) (by decide) (by decide) (by decide) (by decide) (by decide)),
      (h c _ (mem_uc main_arg10 (by decide))).trans (W11_kept m ρ c main_arg10 (by decide) (by decide) (by decide) (by decide) (by decide) (by decide) (by decide) (by decide) (by decide) (by decide) (by decide)),
      (h c _ (mem_uc main_arg11 (by decide))).trans (W11_kept m ρ c main_arg11 (by decide) (by decide) (by decide) (by decide) (by decide) (by decide) (by decide) (by decide) (by decide) (by decide) (by decide)),
      (h c _ (mem_uc main_arg12 (by decide))).trans (W11_kept m ρ c main_arg12 (by decide) (by decide) (by decide) (by decide) (by decide) (by decide) (by decide) (by decide) (by decide) (by decide) (by decide)),
      (h c _ (mem_uc main_arg13 (by decide))).trans (W11_kept m ρ c main_arg13 (by decide) (by decide) (by decide) (by decide) (by decide) (by decide) (by decide) (by decide) (by decide) (by decide) (by decide))⟩)
    (run_all m ρ)

end Cert.Kernel.Hand

end
-- ==== Proof.KI.Reg0.lean ====
/-
  Region 0 of the idealized kernel's @main: the first edge projection, one row block of 10000 edges per grid point.
  At a parameter `V` (the TensorCore's buffer contents when the region is entered) this module gives the blocks the
  pipeline stages at each point, what the body leaves in the output block (the one store's payload of the three
  loaded blocks), the body's triple, the proof data of the pipeline and the body obligation the launch theorem takes.
-/
import proofs.«118637_j37658273251987_1_alg».proof.Proof.Gen.KernelIdeal.Launch
import proofs.«118637_j37658273251987_1_alg».proof.Proof.Gen.KernelIdeal.Skeleton
import proofs.«118637_j37658273251987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the pipeline
    does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: each load and the store take the whole staging buffer. -/
abbrev r0_x : Rect S10000x128 := Rect.unit (s := S10000x128) ![0, 0] S10000x128.size inb_S10000x128_S10000x128_0_0
abbrev r0_w : Rect S128x128 := Rect.unit (s := S128x128) ![0, 0] S128x128.size inb_S128x128_S128x128_0_0
abbrev r0_b : Rect S128 := Rect.unit (s := S128) ![0] S128.size inb_S128_S128_0
abbrev r0_o : Rect S10000x128 := Rect.unit (s := S10000x128) ![0, 0] S10000x128.size inb_S10000x128_S10000x128_0_0

/-- The output block after the body, from the three input blocks: its one store as a piece. -/
def out0_3 (x0 : Vec F S10000x128 .f32) (x1 : Vec F S128x128 .bf16) (x2 : Vec F S128 .f32) : Vec F S10000x128 .f32 :=
  View.canon [⟨r0_o, k0_pay1 (View.ld x0 r0_x) (View.ld x1 r0_w) (View.ld x2 r0_b)⟩]

/-- The store covers the buffer. -/
theorem cover0_3 (p0 : Vec F S10000x128 .f32) (y : S10000x128.Idx) :
    ∃ pc ∈ ([⟨r0_o, p0⟩] : List (View.Piece (Elt F) S10000x128 .f32)), y ∈ pc.1.set :=
  View.cover_of_tiled [⟨r0_o, p0⟩] S10000x128.size (by rfl) y

set_option maxHeartbeats 1000000 in
/-- The kernel body on whole staging memrefs, the inputs' at contents `x0 x1 x2` and the output's at anything, runs to a
    state holding the inputs' as they were and the output's at `out0_3` of them. -/
theorem sound_kernel0 (c : Dev nD) (E : Set ℕ) (i : grid0.Coords) (arg1 : Memref sig .tc .vmem S10000x128 .f32) (harg1 : arg1.IsWhole)
    (arg2 : Memref sig .tc .vmem S128x128 .bf16) (harg2 : arg2.IsWhole) (arg3 : Memref sig .tc .vmem S128 .f32) (harg3 : arg3.IsWhole)
    (arg4 : Memref sig .tc .vmem S10000x128 .f32) (harg4 : arg4.IsWhole)
    (x0 : Vec F S10000x128 .f32) (x1 : Vec F S128x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the idealized kernel's @main: the first node update, one row block of 1000 nodes per grid point.
  At a parameter `V` (the TensorCore's buffer contents when the region is entered) this module gives the blocks the
  pipeline stages at each point, what the body leaves in the output block (the one store's payload of the loaded
  blocks), the body's triple, the proof data of the pipeline and the body obligation the launch theorem takes.
-/
import proofs.«118637_j37658273251987_1_alg».proof.Proof.Gen.KernelIdeal.Launch
import proofs.«118637_j37658273251987_1_alg».proof.Proof.Gen.KernelIdeal.Skeleton
import proofs.«118637_j37658273251987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the pipeline
    does not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: each load and the store take the whole staging buffer. -/
abbrev r1_x : Rect S1000x128 := Rect.unit (s := S1000x128) ![0, 0] S1000x128.size inb_S1000x128_S1000x128_0_0
abbrev r1_w : Rect S128x512 := Rect.unit (s := S128x512) ![0, 0] S128x512.size inb_S128x512_S128x512_0_0
abbrev r1_b : Rect S512 := Rect.unit (s := S512) ![0] S512.size inb_S512_S512_0
abbrev r1_o : Rect S1000x512 := Rect.unit (s := S1000x512) ![0, 0] S1000x512.size inb_S1000x512_S1000x512_0_0

/-- The output block after the body, from the four input blocks: its one store as a piece. -/
def out1_4 (x0 : Vec F S1000x128 .f32) (x1 : Vec F S1000x128 .f32) (x2 : Vec F S128x512 .bf16) (x3 : Vec F S512 .f32) : Vec F S1000x512 .f32 :=
  View.canon [⟨r1_o, k1_pay1 (View.ld x0 r1_x) (View.ld x1 r1_x) (View.ld x2 r1_w) (View.ld x3 r1_b)⟩]

/-- The store covers the buffer. -/
theorem cover1_4 (p0 : Vec F S1000x512 .f32) (y : S1000x512.Idx) :
    ∃ pc ∈ ([⟨r1_o, p0⟩] : List (View.Piece (Elt F) S1000x512 .f32)), y ∈ pc.1.set :=
  View.cover_of_tiled [⟨r1_o, p0⟩] S1000x512.size (by rfl) y

set_option maxHeartbeats 1000000 in
/-- The kernel body on whole staging memrefs, the inputs' at contents `x0 … x3` and the output's at anything, runs to a
    state holding the inputs' as they were and the output's at `out1_4` of them. -/
theorem sound_kernel1 (c : Dev nD) (E : Set ℕ) (i : grid1.Coords) (arg1 : Memref sig .tc .vmem S1000x128 .f32) (harg1 : arg1.IsWhole)
    (arg2 : Memref sig .tc .vmem S1000x128 .f32) (harg2 : arg2.IsWhole)
    (arg3 : Memref sig .tc .vmem S128x512 .bf16) (harg3 : arg3.IsWhole) (arg4 : Memref sig .tc .vmem S512 .f32) (harg4 : arg4.IsWhole)
    (arg5 : Memref sig .tc .vmem S1000x512 .f32) (harg5 : arg5.IsWhole)
    (x0 : Vec F S1000x128 .f32) (x1 : Vec F S1000x128 .f32) (x2 : Vec F S128x512 .bf16) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__node_update_kernel i arg1 harg1 arg2 harg2 arg3 harg3 arg4 harg4 arg5 harg5) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The proof data of pipeline 1 on core `c`: the arrays as the region finds them; after the body at point `t` each
    input's buffer at its block and the output's at `out1_4` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the idealized kernel's @main: the second edge projection, one row block of 5000 edges per grid point.
  At a parameter `V` (the TensorCore's buffer contents when the region is entered) this module gives the blocks the
  pipeline stages at each point, what the body leaves in the output block (the one store's payload of the three
  loaded blocks), the body's triple, the proof data of the pipeline and the body obligation the launch theorem takes.
-/
import proofs.«118637_j37658273251987_1_alg».proof.Proof.Gen.KernelIdeal.Launch
import proofs.«118637_j37658273251987_1_alg».proof.Proof.Gen.KernelIdeal.Skeleton
import proofs.«118637_j37658273251987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the pipeline
    does not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's rectangles: each load and the store take the whole staging buffer. -/
abbrev r2_x : Rect S5000x128 := Rect.unit (s := S5000x128) ![0, 0] S5000x128.size inb_S5000x128_S5000x128_0_0
abbrev r2_w : Rect S128x512 := Rect.unit (s := S128x512) ![0, 0] S128x512.size inb_S128x512_S128x512_0_0
abbrev r2_b : Rect S512 := Rect.unit (s := S512) ![0] S512.size inb_S512_S512_0
abbrev r2_o : Rect S5000x512 := Rect.unit (s := S5000x512) ![0, 0] S5000x512.size inb_S5000x512_S5000x512_0_0

/-- The output block after the body, from the three input blocks: its one store as a piece. -/
def out2_3 (x0 : Vec F S5000x128 .f32) (x1 : Vec F S128x512 .bf16) (x2 : Vec F S512 .f32) : Vec F S5000x512 .f32 :=
  View.canon [⟨r2_o, k2_pay1 (View.ld x0 r2_x) (View.ld x1 r2_w) (View.ld x2 r2_b)⟩]

/-- The store covers the buffer. -/
theorem cover2_3 (p0 : Vec F S5000x512 .f32) (y : S5000x512.Idx) :
    ∃ pc ∈ ([⟨r2_o, p0⟩] : List (View.Piece (Elt F) S5000x512 .f32)), y ∈ pc.1.set :=
  View.cover_of_tiled [⟨r2_o, p0⟩] S5000x512.size (by rfl) y

set_option maxHeartbeats 1000000 in
/-- The kernel body on whole staging memrefs, the inputs' at contents `x0 x1 x2` and the output's at anything, runs to a
    state holding the inputs' as they were and the output's at `out2_3` of them. -/
theorem sound_kernel2 (c : Dev nD) (E : Set ℕ) (i : grid2.Coords) (arg1 : Memref sig .tc .vmem S5000x128 .f32) (harg1 : arg1.IsWhole)
    (arg2 : Memref sig .tc .vmem S128x512 .bf16) (harg2 : arg2.IsWhole) (arg3 : Memref sig .tc .vmem S512 .f32) (harg3 : arg3.IsWhole)
    (arg4 : Memref sig .tc .vmem S5000x512 .f32) (harg4 : arg4.IsWhole)
    (x0 : Vec F S5000x128 .f32) (x1 : Vec F S128x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the idealized kernel's @main: the second node update, one row block of 1000 nodes per grid point.
  At a parameter `V` (the TensorCore's buffer contents when the region is entered) this module gives the blocks the
  pipeline stages at each point, what the body leaves in the output block (the one store's payload of the loaded
  blocks), the body's triple, the proof data of the pipeline and the body obligation the launch theorem takes.
-/
import proofs.«118637_j37658273251987_1_alg».proof.Proof.Gen.KernelIdeal.Launch
import proofs.«118637_j37658273251987_1_alg».proof.Proof.Gen.KernelIdeal.Skeleton
import proofs.«118637_j37658273251987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where the pipeline
    does not fetch, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The body's rectangles: each load and the store take the whole staging buffer. -/
abbrev r3_x : Rect S1000x512 := Rect.unit (s := S1000x512) ![0, 0] S1000x512.size inb_S1000x512_S1000x512_0_0
abbrev r3_w : Rect S512x512 := Rect.unit (s := S512x512) ![0, 0] S512x512.size inb_S512x512_S512x512_0_0
abbrev r3_b : Rect S512 := Rect.unit (s := S512) ![0] S512.size inb_S512_S512_0
abbrev r3_o : Rect S1000x512 := Rect.unit (s := S1000x512) ![0, 0] S1000x512.size inb_S1000x512_S1000x512_0_0

/-- The output block after the body, from the four input blocks: its one store as a piece. -/
def out3_4 (x0 : Vec F S1000x512 .f32) (x1 : Vec F S1000x512 .f32) (x2 : Vec F S512x512 .bf16) (x3 : Vec F S512 .f32) : Vec F S1000x512 .f32 :=
  View.canon [⟨r3_o, k3_pay1 (View.ld x0 r3_x) (View.ld x1 r3_x) (View.ld x2 r3_w) (View.ld x3 r3_b)⟩]

/-- The store covers the buffer. -/
theorem cover3_4 (p0 : Vec F S1000x512 .f32) (y : S1000x512.Idx) :
    ∃ pc ∈ ([⟨r3_o, p0⟩] : List (View.Piece (Elt F) S1000x512 .f32)), y ∈ pc.1.set :=
  View.cover_of_tiled [⟨r3_o, p0⟩] S1000x512.size (by rfl) y

set_option maxHeartbeats 1000000 in
/-- The kernel body on whole staging memrefs, the inputs' at contents `x0 … x3` and the output's at anything, runs to a
    state holding the inputs' as they were and the output's at `out3_4` of them. -/
theorem sound_kernel3 (c : Dev nD) (E : Set ℕ) (i : grid3.Coords) (arg1 : Memref sig .tc .vmem S1000x512 .f32) (harg1 : arg1.IsWhole)
    (arg2 : Memref sig .tc .vmem S1000x512 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S1000x512 .f32) (harg5 : arg5.IsWhole)
    (x0 : Vec F S1000x512 .f32) (x1 : Vec F S1000x512 .f32) (x2 : Vec F S512x512 .bf16) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__node_update_kernel i arg1 harg1 arg2 harg2 arg3 harg3 arg4 harg4 arg5 harg5) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-- The proof data of pipeline 3 on core `c`: the arrays as the region finds them; after the body at point `t` each
    input's buffer at its block and the output's at `out3_4` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the idealized kernel's @main: the final projection, one row block of 1000 nodes per grid point.
  At a parameter `V` (the TensorCore's buffer contents when the region is entered) this module gives the blocks the
  pipeline stages at each point, what the body leaves in the output block (the one store's payload of the loaded
  blocks), the body's triple, the proof data of the pipeline and the body obligation the launch theorem takes.
-/
import proofs.«118637_j37658273251987_1_alg».proof.Proof.Gen.KernelIdeal.Launch
import proofs.«118637_j37658273251987_1_alg».proof.Proof.Gen.KernelIdeal.Skeleton
import proofs.«118637_j37658273251987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: where the pipeline
    does not fetch, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's rectangles: each load and the store take the whole staging buffer. -/
abbrev r4_x : Rect S1000x512 := Rect.unit (s := S1000x512) ![0, 0] S1000x512.size inb_S1000x512_S1000x512_0_0
abbrev r4_w : Rect S512x256 := Rect.unit (s := S512x256) ![0, 0] S512x256.size inb_S512x256_S512x256_0_0
abbrev r4_o : Rect S1000x256 := Rect.unit (s := S1000x256) ![0, 0] S1000x256.size inb_S1000x256_S1000x256_0_0

/-- The output block after the body, from the two input blocks: its one store as a piece. -/
def out4_2 (x0 : Vec F S1000x512 .f32) (x1 : Vec F S512x256 .bf16) : Vec F S1000x256 .f32 :=
  View.canon [⟨r4_o, k4_pay1 (View.ld x0 r4_x) (View.ld x1 r4_w)⟩]

/-- The store covers the buffer. -/
theorem cover4_2 (p0 : Vec F S1000x256 .f32) (y : S1000x256.Idx) :
    ∃ pc ∈ ([⟨r4_o, p0⟩] : List (View.Piece (Elt F) S1000x256 .f32)), y ∈ pc.1.set :=
  View.cover_of_tiled [⟨r4_o, p0⟩] S1000x256.size (by rfl) y

set_option maxHeartbeats 1000000 in
/-- The kernel body on whole staging memrefs, the inputs' at contents `x0 x1` and the output's at anything, runs to a
    state holding the inputs' as they were and the output's at `out4_2` of them. -/
theorem sound_kernel4 (c : Dev nD) (E : Set ℕ) (i : grid4.Coords) (arg1 : Memref sig .tc .vmem S1000x512 .f32) (harg1 : arg1.IsWhole)
    (arg2 : Memref sig .tc .vmem S512x256 .bf16) (harg2 : arg2.IsWhole)
    (arg3 : Memref sig .tc .vmem S1000x256 .f32) (harg3 : arg3.IsWhole)
    (x0 : Vec F S1000x512 .f32) (x1 : Vec F S512x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__fc_tanh_kernel i arg1 harg1 arg2 harg2 arg3 harg3) K := by
  simp only [cc4__fc_tanh_kernel_eq_skeleton]; unfold cc4__fc_tanh_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _)

/-- The proof data of pipeline 4 on core `c`: the arrays as the region finds them; after the body at point `t` each
    input's buffer at its block and the output's at `out4_2` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The idealized kernel's @main from the launch to the return, at any float instance: the contents of the TensorCore's
  unscoped buffers at every boundary between two items of @main (a stretch of host operations folds its operations over
  the contents before it; a kernel region leaves its arrays at what its pipeline's write-backs leave and every other
  buffer as it was), every pipeline's proof data at its region's entry contents, each item as a segment of the
  several-regions launch theorem, and the run: every weakly fair execution terminates, without a fault, with every
  unscoped buffer at the last boundary's contents.
-/
import proofs.«118637_j37658273251987_1_alg».proof.Proof.KI.Reg0
import proofs.«118637_j37658273251987_1_alg».proof.Proof.KI.Reg1
import proofs.«118637_j37658273251987_1_alg».proof.Proof.KI.Reg2
import proofs.«118637_j37658273251987_1_alg».proof.Proof.KI.Reg3
import proofs.«118637_j37658273251987_1_alg».proof.Proof.KI.Reg4
import proofs.«118637_j37658273251987_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: the edge index rows and the column means. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After `hostOps0_1`: the column variances. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- After `hostOps0_2`: the normalised nodes and the transposed weights (region 0's entry). -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`: the first messages gathered, rectified and summed per node (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, the output's write-backs
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3`: the second messages gathered, rectified and summed per node (region 3's entry). -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- At region 3's exit: its arrays at what the pipeline leaves (the inputs as entered, the output's write-backs
    folded), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves (the inputs as entered, the output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`: the three results side by side. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W3`, left at `W4`. Its arrays are
    split out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are
    split out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. Its arrays are
    split out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are
    split out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)) ]

/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last boundary's
    contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Hand

end
-- ==== Proof.KI.Keep.lean ====
/-
  What each item of the idealized kernel's @main leaves unchanged: a stretch of host operations writes only its own
  results, and a kernel region only its output array. Hence every buffer that no item writes — each argument array among
  them — holds its launch contents at the end.
-/
import proofs.«118637_j37658273251987_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The stretch `hostOps0` writes only its own results. -/
theorem W1_of (c : Dev nD) (r : Ref sig .tc) (h : r ∉ hostOps0_W) : W1 m ρ c r = W0 m ρ c r :=
  StableHlo.after_of_writes_sub hostOps0 _ hostOps0_writes h

/-- The stretch `hostOps0_1` writes only its own results. -/
theorem W2_of (c : Dev nD) (r : Ref sig .tc) (h : r ∉ hostOps0_1_W) : W2 m ρ c r = W1 m ρ c r :=
  StableHlo.after_of_writes_sub hostOps0_1 _ hostOps0_1_writes h

/-- The stretch `hostOps0_2` writes only its own results. -/
theorem W3_of (c : Dev nD) (r : Ref sig .tc) (h : r ∉ hostOps0_2_W) : W3 m ρ c r = W2 m ρ c r :=
  StableHlo.after_of_writes_sub hostOps0_2 _ hostOps0_2_writes h

/-- Region 0 changes no unscoped buffer but its output array: an input window's array ends as entered, and a buffer no
    window stages is not touched. -/
theorem W4_keep (c : Dev nD) (r : Ref sig .tc) (h : r ≠ main_v33) : W4 m ρ c r = W3 m ρ c r := by
  by_cases h0 : r = main_arg1
  · subst h0; exact (W4_arr m ρ c 0).trans (((dat0 (V3 m ρ) c).arrAt_in 0 rfl _).trans (A_eq0 (V3 m ρ) c 0))
  by_cases h1 : r = main_v24
  · subst h1; exact (W4_arr m ρ c 1).trans (((dat0 (V3 m ρ) c).arrAt_in 1 rfl _).trans (A_eq0 (V3 m ρ) c 1))
  by_cases h2 : r = main_arg5
  · subst h2; exact (W4_arr m ρ c 2).trans (((dat0 (V3 m ρ) c).arrAt_in 2 rfl _).trans (A_eq0 (V3 m ρ) c 2))
  exact W4_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h e.symm)
/-- Region 0's output array ends at what its pipeline's write-backs leave. -/
theorem W4_out (c : Dev nD) : W4 m ρ c main_v33 = (dat0 (V3 m ρ) c).arrAt 3 cfg0.N :=
  W4_arr m ρ c 3

/-- The stretch `hostOps1` writes only its own results. -/
theorem W5_of (c : Dev nD) (r : Ref sig .tc) (h : r ∉ hostOps1_W) : W5 m ρ c r = W4 m ρ c r :=
  StableHlo.after_of_writes_sub hostOps1 _ hostOps1_writes h

/-- Region 1 changes no unscoped buffer but its output array: an input window's array ends as entered, and a buffer no
    window stages is not touched. -/
theorem W6_keep (c : Dev nD) (r : Ref sig .tc) (h : r ≠ main_v47) : W6 m ρ c r = W5 m ρ c r := by
  by_cases h0 : r = main_v22
  · subst h0; exact (W6_arr m ρ c 0).trans (((dat1 (V5 m ρ) c).arrAt_in 0 rfl _).trans (A_eq1 (V5 m ρ) c 0))
  by_cases h1 : r = main_v46
  · subst h1; exact (W6_arr m ρ c 1).trans (((dat1 (V5 m ρ) c).arrAt_in 1 rfl _).trans (A_eq1 (V5 m ρ) c 1))
  by_cases h2 : r = main_v26
  · subst h2; exact (W6_arr m ρ c 2).trans (((dat1 (V5 m ρ) c).arrAt_in 2 rfl _).trans (A_eq1 (V5 m ρ) c 2))
  by_cases h3 : r = main_arg7
  · subst h3; exact (W6_arr m ρ c 3).trans (((dat1 (V5 m ρ) c).arrAt_in 3 rfl _).trans (A_eq1 (V5 m ρ) c 3))
  exact W6_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm)
/-- Region 1's output array ends at what its pipeline's write-backs leave. -/
theorem W6_out (c : Dev nD) : W6 m ρ c main_v47 = (dat1 (V5 m ρ) c).arrAt 4 cfg1.N :=
  W6_arr m ρ c 4

/-- Region 2 changes no unscoped buffer but its output array: an input window's array ends as entered, and a buffer no
    window stages is not touched. -/
theorem W7_keep (c : Dev nD) (r : Ref sig .tc) (h : r ≠ main_v48) : W7 m ρ c r = W6 m ρ c r := by
  by_cases h0 : r = main_arg1
  · subst h0; exact (W7_arr m ρ c 0).trans (((dat2 (V6 m ρ) c).arrAt_in 0 rfl _).trans (A_eq2 (V6 m ρ) c 0))
  by_cases h1 : r = main_v28
  · subst h1; exact (W7_arr m ρ c 1).trans (((dat2 (V6 m ρ) c).arrAt_in 1 rfl _).trans (A_eq2 (V6 m ρ) c 1))
  by_cases h2 : r = main_arg9
  · subst h2; exact (W7_arr m ρ c 2).trans (((dat2 (V6 m ρ) c).arrAt_in 2 rfl _).trans (A_eq2 (V6 m ρ) c 2))
  exact W7_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h e.symm)
/-- Region 2's output array ends at what its pipeline's write-backs leave. -/
theorem W7_out (c : Dev nD) : W7 m ρ c main_v48 = (dat2 (V6 m ρ) c).arrAt 3 cfg2.N :=
  W7_arr m ρ c 3

/-- The stretch `hostOps3` writes only its own results. -/
theorem W8_of (c : Dev nD) (r : Ref sig .tc) (h : r ∉ hostOps3_W) : W8 m ρ c r = W7 m ρ c r :=
  StableHlo.after_of_writes_sub hostOps3 _ hostOps3_writes h

/-- Region 3 changes no unscoped buffer but its output array: an input window's array ends as entered, and a buffer no
    window stages is not touched. -/
theorem W9_keep (c : Dev nD) (r : Ref sig .tc) (h : r ≠ main_v62) : W9 m ρ c r = W8 m ρ c r := by
  by_cases h0 : r = main_v47
  · subst h0; exact (W9_arr m ρ c 0).trans (((dat3 (V8 m ρ) c).arrAt_in 0 rfl _).trans (A_eq3 (V8 m ρ) c 0))
  by_cases h1 : r = main_v61
  · subst h1; exact (W9_arr m ρ c 1).trans (((dat3 (V8 m ρ) c).arrAt_in 1 rfl _).trans (A_eq3 (V8 m ρ) c 1))
  by_cases h2 : r = main_v30
  · subst h2; exact (W9_arr m ρ c 2).trans (((dat3 (V8 m ρ) c).arrAt_in 2 rfl _).trans (A_eq3 (V8 m ρ) c 2))
  by_cases h3 : r = main_arg11
  · subst h3; exact (W9_arr m ρ c 3).trans (((dat3 (V8 m ρ) c).arrAt_in 3 rfl _).trans (A_eq3 (V8 m ρ) c 3))
  exact W9_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm)
/-- Region 3's output array ends at what its pipeline's write-backs leave. -/
theorem W9_out (c : Dev nD) : W9 m ρ c main_v62 = (dat3 (V8 m ρ) c).arrAt 4 cfg3.N :=
  W9_arr m ρ c 4

/-- Region 4 changes no unscoped buffer but its output array: an input window's array ends as entered, and a buffer no
    window stages is not touched. -/
theorem W10_keep (c : Dev nD) (r : Ref sig .tc) (h : r ≠ main_v63) : W10 m ρ c r = W9 m ρ c r := by
  by_cases h0 : r = main_v62
  · subst h0; exact (W10_arr m ρ c 0).trans (((dat4 (V9 m ρ) c).arrAt_in 0 rfl _).trans (A_eq4 (V9 m ρ) c 0))
  by_cases h1 : r = main_v32
  · subst h1; exact (W10_arr m ρ c 1).trans (((dat4 (V9 m ρ) c).arrAt_in 1 rfl _).trans (A_eq4 (V9 m ρ) c 1))
  exact W10_of_ne m ρ c r (fun w => by
    match w with
    | ⟨0, _⟩ => exact fun e => h0 e.symm
    | ⟨1, _⟩ => exact fun e => h1 e.symm
    | ⟨2, _⟩ => exact fun e => h e.symm)
/-- Region 4's output array ends at what its pipeline's write-backs leave. -/
theorem W10_out (c : Dev nD) : W10 m ρ c main_v63 = (dat4 (V9 m ρ) c).arrAt 2 cfg4.N :=
  W10_arr m ρ c 2

/-- The stretch `hostOps5` writes only its own results. -/
theorem W11_of (c : Dev nD) (r : Ref sig .tc) (h : r ∉ hostOps5_W) : W11 m ρ c r = W10 m ρ c r :=
  StableHlo.after_of_writes_sub hostOps5 _ hostOps5_writes h

/-- A buffer that no item of @main writes holds its launch contents at the end. -/
theorem W11_kept (c : Dev nD) (r : Ref sig .tc) (h1 : r ∉ hostOps0_W) (h2 : r ∉ hostOps0_1_W) (h3 : r ∉ hostOps0_2_W) (h4 : r ≠ main_v33)
    (h5 : r ∉ hostOps1_W) (h6 : r ≠ main_v47) (h7 : r ≠ main_v48) (h8 : r ∉ hostOps3_W) (h9 : r ≠ main_v62) (h10 : r ≠ main_v63)
    (h11 : r ∉ hostOps5_W) : W11 m ρ c r = m ((c : Thread nD τ).loc r) :=
  (W11_of m ρ c r h11).trans <| (W10_keep m ρ c r h10).trans <| (W9_keep m ρ c r h9).trans <| (W8_of m ρ c r h8).trans <|
    (W7_keep m ρ c r h7).trans <| (W6_keep m ρ c r h6).trans <| (W5_of m ρ c r h5).trans <| (W4_keep m ρ c r h4).trans <|
    (W3_of m ρ c r h3).trans <| (W2_of m ρ c r h2).trans <| (W1_of m ρ c r h1)

/-- THE FRAME: every weakly fair execution of @main terminates, nothing faulting, with every argument array as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W11_kept m ρ c main_arg0 (by decide) (by decide) (by decide) (by decide) (by decide) (by decide) (by decide) (by decide) (by decide) (by decide) (by decide)),
      (h c _ (mem_uc main_arg1 (by decide))).trans (W11_kept m ρ c main_arg1 (by decide) (by decide) (by decide) (by decide) (by decide) (by decide) (by decide) (by decide) (by decide) (by decide) (by decide)),
      (h c _ (mem_uc main_arg2 (by decide))).trans (W11_kept m ρ c main_arg2 (by decide) (by decide) (by decide) (by decide) (by decide) (by decide) (by decide) (by decide) (by decide) (by decide) (by decide)),
      (h c _ (mem_uc main_arg3 (by decide))).trans (W11_kept m ρ c main_arg3 (by decide) (by decide) (by decide) (by decide) (by decide) (by decide) (by decide) (by decide) (by decide) (by decide) (by decide)),
      (h c _ (mem_uc main_arg4 (by decide))).trans (W11_kept m ρ c main_arg4 (by decide) (by decide) (by decide) (by decide) (by decide) (by decide) (by decide) (by decide) (by decide) (by decide) (by decide)),
      (h c _ (mem_uc main_arg5 (by decide))).trans (W11_kept m ρ c main_arg5 (by decide) (by decide) (by decide) (by decide) (by decide) (by decide) (by decide) (by decide) (by decide) (by decide) (by decide)),
      (h c _ (mem_uc main_arg6 (by decide))).trans (W11_kept m ρ c main_arg6 (by decide) (by decide) (by decide) (by decide) (by decide) (by decide) (by decide) (by decide) (by decide) (by decide) (by decide)),
      (h c _ (mem_uc main_arg7 (by decide))).trans (W11_kept m ρ c main_arg7 (by decide) (by decide) (by decide) (by decide) (by decide) (by decide) (by decide) (by decide) (by decide) (by decide) (by decide)),
      (h c _ (mem_uc main_arg8 (by decide))).trans (W11_kept m ρ c main_arg8 (by decide) (by decide) (by decide) (by decide) (by decide) (by decide) (by decide) (by decide) (by decide) (by decide) (by decide)),
      (h c _ (mem_uc main_arg9 (by decide))).trans (W11_kept m ρ c main_arg9 (by decide) (by decide) (by decide) (by decide) (by decide) (by decide) (by decide) (by decide) (by decide) (by decide) (by decide)),
      (h c _ (mem_uc main_arg10 (by decide))).trans (W11_kept m ρ c main_arg10 (by decide) (by decide) (by decide) (by decide) (by decide) (by decide) (by decide) (by decide) (by decide) (by decide) (by decide)),
      (h c _ (mem_uc main_arg11 (by decide))).trans (W11_kept m ρ c main_arg11 (by decide) (by decide) (by decide) (by decide) (by decide) (by decide) (by decide) (by decide) (by decide) (by decide) (by decide)),
      (h c _ (mem_uc main_arg12 (by decide))).trans (W11_kept m ρ c main_arg12 (by decide) (by decide) (by decide) (by decide) (by decide) (by decide) (by decide) (by decide) (by decide) (by decide) (by decide)),
      (h c _ (mem_uc main_arg13 (by decide))).trans (W11_kept m ρ c main_arg13 (by decide) (by decide) (by decide) (by decide) (by decide) (by decide) (by decide) (by decide) (by decide) (by decide) (by decide))⟩)
    (run_all m ρ)

end Cert.KernelIdeal.Hand

end
-- ==== Proof.LibDot.lean ====
/-
  A plain matrix product read at an index, at the ideal values.

  For dimension numbers of the plain kind (the left operand's axis 1 contracted against the right operand's axis 0, no
  batch axis), the matrix unit's product into a zero accumulator and the host's `dot_general` are both, at the output
  index `(r, c)`, the sum over `k` of `lhs (r, k) * rhs (k, c)`; and a vector laid along every row of a matrix — cast
  to one row and broadcast down the rows in a kernel, broadcast along axis 1 in two steps on the host — reads, at
  `(r, c)`, the vector at `c`.
-/
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.LibDot

open Idealize.ShloMosaic Idealize.ShloMosaic.ValueIdx

/-- The dimension numbers are the plain ones: `[M, K] × [K, N] → [M, N]`, axis 1 against axis 0, no batch axis. -/
structure Plain {M K N : ℕ} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-! ### The operand indices of plain dimension numbers -/

section PlainIndices
variable {M K N : ℕ} {d : DotDims ⟨2, ![M, K]⟩ ⟨2, ![K, N]⟩ ⟨2, ![M, N]⟩}

/-- Plain dimension numbers contract one axis. -/
theorem Plain.rank_contr (hd : Plain d) : d.contr.rank = 1 := by
  rw [d.rank_contr, hd.lc]; rfl

/-- The contracted axis has the shared extent. -/
theorem Plain.size_contr (hd : Plain d) : d.contr.size ⟨0, by rw [hd.rank_contr]; exact Nat.one_pos⟩ = K := by
  have h := d.size_contr 0 (by rw [hd.lc]; exact Nat.one_pos)
  refine h.trans ?_
  have h1 : d.lhsContracting[0]'(by rw [hd.lc]; exact Nat.one_pos) = 1 := by simp [hd.lc]
  rw [h1]; rfl

/-- A coordinate of an index read at two equal positions. -/
theorem coord_val_congr {s : Shape} (j : s.Idx) (p q : ℕ) (hp : p < s.rank) (hq : q < s.rank) (h : p = q) :
    (j ⟨p, hp⟩).val = (j ⟨q, hq⟩).val := by subst h; rfl

/-- The left operand's row coordinate is the output's row coordinate. -/
theorem Plain.lhsIdx_row (hd : Plain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact coord_val_congr j _ _ _ _ (by simp [hd.lb, hd.ln])

/-- The right operand's column coordinate is the output's column coordinate. -/
theorem Plain.rhsIdx_col (hd : Plain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact coord_val_congr j _ _ _ _ (by simp [hd.lb, hd.ln, hd.rn])

/-- At output (r, c) and the contraction position with coordinate k, the left operand is read at (r, k). -/
theorem Plain.lhsIdx_eq (hd : Plain d) (r : Fin M) (c : Fin N) (k : Fin K) :
    d.lhsIdx (ix2 r c) ((contrEquiv1 d K hd.rank_contr hd.size_contr).symm k) = ix2 r k := by
  funext a; apply Fin.ext
  match a with
  | ⟨0, _⟩ => exact hd.lhsIdx_row _ _
  | ⟨1, _⟩ => exact (d.lhsIdx_val_of_single hd.lc _ _).trans (contrEquiv1_symm_val d K hd.rank_contr hd.size_contr k)

/-- At output (r, c) and the contraction position with coordinate k, the right operand is read at (k, c). -/
theorem Plain.rhsIdx_eq (hd : Plain d) (r : Fin M) (c : Fin N) (k : Fin K) :
    d.rhsIdx (ix2 r c) ((contrEquiv1 d K hd.rank_contr hd.size_contr).symm k) = ix2 k c := by
  funext a; apply Fin.ext
  match a with
  | ⟨0, _⟩ => exact (d.rhsIdx_val_of_single hd.rc _ _).trans (contrEquiv1_symm_val d K hd.rank_contr hd.size_contr k)
  | ⟨1, _⟩ => exact hd.rhsIdx_col _ _

end PlainIndices

/-- The contraction sum of plain dimension numbers at the output index `(r, c)` is the sum over the shared axis. -/
theorem plain_sum {M K N : ℕ} {d : DotDims ⟨2, ![M, K]⟩ ⟨2, ![K, N]⟩ ⟨2, ![M, N]⟩} (hd : Plain d)
    (f : (⟨2, ![M, K]⟩ : Shape).Idx → EReal) (g : (⟨2, ![K, N]⟩ : Shape).Idx → EReal) (r : Fin M) (c : Fin N) :
    ∑ k : d.contr.Idx, f (d.lhsIdx (ix2 r c) k) * g (d.rhsIdx (ix2 r c) k) = ∑ k : Fin K, f (ix2 r k) * g (ix2 k c) := by
  rw [← Equiv.sum_comp (contrEquiv1 d K hd.rank_contr hd.size_contr).symm]
  exact Finset.sum_congr rfl fun k _ => by rw [hd.lhsIdx_eq r c k, hd.rhsIdx_eq r c k]

/-- The matrix unit's product into a zero accumulator, read at `(r, c)`. -/
theorem matmul_zero_apply {M K N : ℕ} {φ₁ φ₂ : FTy} {d : DotDims ⟨2, ![M, K]⟩ ⟨2, ![K, N]⟩ ⟨2, ![M, N]⟩} (hd : Plain d)
    (prec : Option ContractPrecision) (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c) = ∑ k : Fin K, lhs (ix2 r k) * rhs (ix2 k c) := by
  exact (Ideal.matmul_constant_zero_apply d prec lhs rhs (ix2 r c)).trans (plain_sum hd lhs rhs r c)

/-- The host's `dot_general`, read at `(r, c)`. -/
theorem dotGeneral_apply {M K N : ℕ} {φ₁ φ₂ : FTy} {d : DotDims ⟨2, ![M, K]⟩ ⟨2, ![K, N]⟩ ⟨2, ![M, N]⟩} (hd : Plain d)
    (prec : Option ContractPrecision) (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  exact (Ideal.dotGeneral_apply d prec _ lhs rhs (ix2 r c)).trans (plain_sum hd lhs rhs r c)

variable {α : Type}

/-- A coordinate below an extent that may be one: when the extent is one the coordinate is zero. -/
theorem coord_eq_ite {n : ℕ} (c : Fin n) : c.val = if n = 1 then 0 else c.val := by
  by_cases hn : n = 1
  · rw [if_pos hn]; have := c.isLt; omega
  · rw [if_neg hn]

/-- A kernel's row vector: `[N]` cast to `[1, N]` and broadcast down `M` rows reads, at `(r, c)`, the vector at `c`. -/
theorem rowVec_kernel_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) := by
  refine (broadcastTo_apply (shapeCast ⟨2, ![1, N]⟩ b h1) h2 (ix2 r c) (ix2 (0 : Fin 1) c) ?_).trans
    (shapeCast_apply b h1 (ix2 (0 : Fin 1) c) (ix1 c) ?_)
  · intro a
    match a with
    | ⟨0, _⟩ => rfl
    | ⟨1, _⟩ => exact coord_eq_ite c
  · rw [Shape.rowMajor_val_one, Shape.rowMajor_val_two]
    show c.val = 0 * N + c.val
    omega

/-- The host's row vector: `[N]` broadcast along axis 1 to `[1, N]`, then along both axes to `[M, N]`, reads, at
    `(r, c)`, the vector at `c`. -/
theorem rowVec_host_apply {M N : ℕ} (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  refine (broadcastInDim_oneRow_apply h2 (broadcastInDim ⟨2, ![1, N]⟩ ![1] h1 b) r c).trans
    (broadcastInDim_apply ![1] h1 b (ix2 (0 : Fin 1) c) (ix1 c) ?_)
  intro a
  match a with
  | ⟨0, _⟩ => exact coord_eq_ite c

end Cert.LibDot

end
-- ==== Proof.Val.V0.lean ====
/-
  The array region 0 leaves, read at an index, at the ideal values: every row block of 10000 edges is the block's rows of
  the edge features times the weights (given transposed) plus the bias along the columns, and the blocks tile the array,
  so entry (e, j) of the result is the sum over k of edge (e, k) * weight (k, j), plus bias j.
-/
import proofs.«118637_j37658273251987_1_alg».proof.Proof.KI.Reg0
import proofs.«118637_j37658273251987_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The product's dimension numbers are the plain ones: axis 1 of the left against axis 0 of the right, no batch axis. -/
theorem plain0 : Cert.LibDot.Plain dot_S10000x128_S128x128_S10000x128_1_0_0_1_n_n := ⟨rfl, rfl, rfl, rfl, rfl, rfl⟩

/-- The body's payload at (r, j), over any three loaded blocks: rounding to the narrower type is the identity at the
    ideal values and so is the cast to the same shape, the product into zero is the sum over the shared axis, and the
    bias laid along every row reads the bias at the column. -/
theorem pay0_apply (x : Vec Ideal S10000x128 .f32) (w : Vec Ideal S128x128 .bf16) (b : Vec Ideal S128 .f32)
    (r : Fin 10000) (j : Fin 128) :
    k0_pay1 (F := Ideal) x w b (ix2 r j) = (∑ k : Fin 128, x (ix2 r k) * w (ix2 k j)) + b (ix1 j) := by
  unfold k0_pay1
  refine (addf_apply _ _ _).trans ?_
  refine congrArg₂ (· + ·) ?_ ?_
  · refine (Cert.LibDot.matmul_zero_apply plain0 none _ _ r j).trans ?_
    rw [shapeCast_self]
    rfl
  · exact Cert.LibDot.rowVec_kernel_apply b _ _ r j

/-- The origin of a matrix and of a vector, as constant functions. -/
theorem origin0_mat : (![0, 0] : Fin 2 → Nat) = fun _ => 0 := funext fun a => by fin_cases a <;> rfl
theorem origin0_vec : (![0] : Fin 1 → Nat) = fun _ => 0 := funext fun a => by fin_cases a; rfl

/-- The whole result as one function of the three entry arrays: at (e, j), row e of the edge features against column
    j of the weights, plus the bias at j. -/
abbrev G0 (a : FVec Ideal S500000x128 .f32) (w : FVec Ideal S128x128 .bf16) (b : FVec Ideal S128 .f32) :
    FVec Ideal S500000x128 .f32 :=
  fun i => (∑ k : Fin 128, a (ix2 (i 0 : Fin 500000) k) * w (ix2 k (i 1 : Fin 128))) + b (ix1 (i 1 : Fin 128))

/-- The block indices, decided over the grid: the edge features' row block moves with the result's, which is the
    point's number; every column block index is 0; the weights and the bias stay at block 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) = t.val :=
  (by decide +kernel : ∀ t : Fin grid0.N, _)

variable (V : (c : Dev nD) → (b : Ref sig .tc) → Buf (Elt Ideal) ((c : Thread nD τ).loc b))

/-- Region 0's arrays as the region finds them, at their literal types. -/
abbrev xin0 (c : Dev nD) : FVec Ideal S500000x128 .f32 := V c main_arg1
abbrev wt0 (c : Dev nD) : FVec Ideal S128x128 .bf16 := V c main_v24
abbrev bias0 (c : Dev nD) : FVec Ideal S128 .f32 := V c main_arg5
/-- The result array after the region's last write-back. -/
abbrev res0 (c : Dev nD) : FVec Ideal S500000x128 .f32 := (dat0 (F := Ideal) V c).arrAt 3 cfg0.N

/-- A block read at an index is its array read where the block puts that index. -/
theorem read0_0 (c : Dev nD) (t : Fin cfg0.N) (y : S10000x128.Idx) :
    iblk0 V c 0 t y = xin0 V c (((cfg0.win 0).blk t).view.emb y) := rfl
theorem read0_1 (c : Dev nD) (t : Fin cfg0.N) (y : S128x128.Idx) :
    iblk0 V c 1 t y = wt0 V c (((cfg0.win 1).blk t).view.emb y) := rfl
theorem read0_2 (c : Dev nD) (t : Fin cfg0.N) (y : S128.Idx) :
    iblk0 V c 2 t y = bias0 V c (((cfg0.win 2).blk t).view.emb y) := rfl

/-- Where a block puts an index: each coordinate is the block index times the block's extent plus the coordinate
    inside the block. For the edge features, (r, k) of the block at a point sits at row e = (the result's row block
    index) × 10000 + r, column k; -/
theorem emb0_0 (t : Fin cfg0.N) (r : Fin 10000) (k : Fin 128) (e : Fin 500000)
    (he : e.val = win0_3.index t (0 : Fin 2) * 10000 + 1 * r.val) :
    ((cfg0.win 0).blk t).view.emb (ix2 r k) = ix2 e k := by
  obtain ⟨e0, e1, e2, e3, e4, e5, e6⟩ := idx_facts0 t
  funext a; apply Fin.ext
  match a with
  | ⟨0, _⟩ => show win0_0.index t (0 : Fin 2) * 10000 + 1 * r.val = e.val; omega
  | ⟨1, _⟩ => show win0_0.index t (1 : Fin 2) * 128 + 1 * k.val = k.val; omega

/-- the weights' block is the whole array, so (k, j) stays (k, j); -/
theorem emb0_1 (t : Fin cfg0.N) (k : Fin 128) (j : Fin 128) :
    ((cfg0.win 1).blk t).view.emb (ix2 k j) = ix2 k j := by
  obtain ⟨e0, e1, e2, e3, e4, e5, e6⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * j.val = j.val; omega

/-- so is the bias's; -/
theorem emb0_2 (t : Fin cfg0.N) (j : Fin 128) :
    ((cfg0.win 2).blk t).view.emb (ix1 j) = ix1 j := by
  obtain ⟨e0, e1, e2, e3, e4, e5, e6⟩ := idx_facts0 t
  funext a; apply Fin.ext
  match a with
  | ⟨0, _⟩ => show win0_2.index t (0 : Fin 1) * 128 + 1 * j.val = j.val; omega

/-- and (r, j) of the result's block sits at row (row block index) × 10000 + r, column j, a row of the array. -/
theorem emb0_3 (t : Fin cfg0.N) (r : Fin 10000) (j : Fin 128) :
    ∃ e : Fin 500000, e.val = win0_3.index t (0 : Fin 2) * 10000 + 1 * r.val
      ∧ ((cfg0.win 3).blk t).view.emb (ix2 r j) = ix2 e j := by
  obtain ⟨e0, e1, e2, e3, e4, e5, e6⟩ := idx_facts0 t
  have ht : t.val < 50 := lt_of_lt_of_eq t.isLt N_0
  refine ⟨⟨win0_3.index t (0 : Fin 2) * 10000 + 1 * r.val, by omega⟩, rfl, ?_⟩
  funext a; apply Fin.ext
  match a with
  | ⟨0, _⟩ => show win0_3.index t (0 : Fin 2) * 10000 + 1 * r.val = win0_3.index t (0 : Fin 2) * 10000 + 1 * r.val; rfl
  | ⟨1, _⟩ => show win0_3.index t (1 : Fin 2) * 128 + 1 * j.val = j.val; omega

/-- The payload of the three blocks at a point, at (r, j), is the whole-array function at the place of (r, j) in the
    array: the same row of the edge features, the same weights and bias. -/
theorem pay0_blocks (c : Dev nD) (t : Fin cfg0.N) (r : Fin 10000) (j : Fin 128) :
    k0_pay1 (F := Ideal) (iblk0 V c 0 t) (iblk0 V c 1 t) (iblk0 V c 2 t) (ix2 r j)
      = G0 (xin0 V c) (wt0 V c) (bias0 V c) (((cfg0.win 3).blk t).view.emb (ix2 r j)) := by
  refine (pay0_apply _ _ _ r j).trans ?_
  obtain ⟨e, he, hemb⟩ := emb0_3 t r j
  rw [hemb]
  show _ = (∑ k : Fin 128, xin0 V c (ix2 e k) * wt0 V c (ix2 k j)) + bias0 V c (ix1 j)
  refine congrArg₂ (· + ·) (Finset.sum_congr rfl fun k _ => congrArg₂ (· * ·) ?_ ?_) ?_
  · exact (read0_0 V c t _).trans (congrArg (xin0 V c) (emb0_0 t r k e he))
  · exact (read0_1 V c t _).trans (congrArg (wt0 V c) (emb0_1 t k j))
  · exact (read0_2 V c t _).trans (congrArg (bias0 V c) (emb0_2 t j))

/-- What a point writes back is its block of the whole-array function. -/
theorem flushed0_eq (c : Dev nD) (t : Fin cfg0.N) :
    (dat0 V c).flushed 3 t = ((cfg0.win 3).blk t).view.read (Elt Ideal) (G0 (xin0 V c) (wt0 V c) (bias0 V c)) := by
  show (cfg0.win 3).cut (grid0.coords t) ((dat0 V c).after 3 t) = _
  rw [after0_3]
  unfold out0_3
  rw [View.canon_unit_zero origin0_mat]
  simp only [View.ld_unit_zero (S := S10000x128) origin0_mat, View.ld_unit_zero (S := S128x128) origin0_mat,
    View.ld_unit_zero (S := S128) origin0_vec]
  funext y
  show k0_pay1 (F := Ideal) (iblk0 V c 0 t) (iblk0 V c 1 t) (iblk0 V c 2 t) y
    = G0 (xin0 V c) (wt0 V c) (bias0 V c) (((cfg0.win 3).blk t).view.emb y)
  obtain ⟨r, j, rfl⟩ : ∃ (r : Fin 10000) (j : Fin 128), y = ix2 r j := ⟨y 0, y 1, eq_ix2 y⟩
  exact pay0_blocks V c t r j

/-- An index of the array is in a point's block iff each coordinate is in the block's range on its axis. -/
theorem mem_blk0 (t : Fin cfg0.N) (i : S500000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v33).slice (win0_3.rect t)).set ↔ _
  rw [View.set_slice_whole, Rect.mem_set_unit]
  exact Iff.rfl

/-- The row blocks tile the array: row e is in the block of point e / 10000. -/
theorem tiles0 (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : (i 0).val / 10000 < cfg0.N := lt_of_lt_of_eq (by omega : (i 0).val / 10000 < 50) N_0.symm
  obtain ⟨e0, e1, e2, e3, e4, e5, e6⟩ := idx_facts0 ⟨(i 0).val / 10000, hN⟩
  have e6' : win0_3.index ⟨(i 0).val / 10000, hN⟩ (0 : Fin 2) = (i 0).val / 10000 := e6
  refine ⟨⟨(i 0).val / 10000, hN⟩, flush0_3 _, ?_⟩
  rw [mem_blk0]
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    omega
  | ⟨1, _⟩ =>
    show win0_3.index ⟨(i 0).val / 10000, hN⟩ (1 : Fin 2) * 128 ≤ (i 1).val
      ∧ (i 1).val < win0_3.index ⟨(i 0).val / 10000, hN⟩ (1 : Fin 2) * 128 + 128
    omega

/-- The array the region leaves is the whole-array function of the entry arrays. -/
theorem res0_eq (c : Dev nD) : res0 V c = G0 (xin0 V c) (wt0 V c) (bias0 V c) :=
  (dat0 (F := Ideal) V c).arrAt_eq_of_cover 3 (G0 (xin0 V c) (wt0 V c) (bias0 V c))
    (fun t _ => flushed0_eq V c t) tiles0

/-- Entry (e, j) of the result. -/
theorem res0_apply (c : Dev nD) (e : Fin 500000) (j : Fin 128) :
    res0 V c (ix2 e j) = (∑ k : Fin 128, xin0 V c (ix2 e k) * wt0 V c (ix2 k j)) + bias0 V c (ix1 j) :=
  congrFun (res0_eq V c) (ix2 e j)

end Cert.KernelIdeal.Hand

end
-- ==== Proof.Val.V1.lean ====
/-
  The array region 1 leaves, read at an index, at the ideal values: every row block of 1000 nodes is tanh of the block's
  rows of (node features + aggregated messages) times the weights (given transposed) plus the bias along the columns,
  and the blocks tile the array.
-/
import proofs.«118637_j37658273251987_1_alg».proof.Proof.KI.Reg1
import proofs.«118637_j37658273251987_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Region 1's arrays as the region finds them, at their literal types. -/
abbrev xa1 (c : Dev nD) : FVec Ideal S25000x128 .f32 := V c main_v22
abbrev xb1 (c : Dev nD) : FVec Ideal S25000x128 .f32 := V c main_v46
abbrev wt1 (c : Dev nD) : FVec Ideal S128x512 .bf16 := V c main_v26
abbrev bias1 (c : Dev nD) : FVec Ideal S512 .f32 := V c main_arg7
/-- The result array after the region's last write-back. -/
abbrev res1 (c : Dev nD) : FVec Ideal S25000x512 .f32 := (dat1 (F := Ideal) V c).arrAt 4 cfg1.N

/-- The kernel's contraction is the plain matrix product: axis 1 of the left against axis 0 of the right. -/
theorem plain_dot1 : Cert.LibDot.Plain dot_S1000x128_S128x512_S1000x512_1_0_0_1_n_n := ⟨rfl, rfl, rfl, rfl, rfl, rfl⟩

/-- One row block's update at an index: tanh of the row of (features + messages) against the weight column plus the
    bias at the column. -/
theorem pay1_apply (x0 x1 : Vec Ideal S1000x128 .f32) (x2 : Vec Ideal S128x512 .bf16) (x3 : Vec Ideal S512 .f32)
    (r : Fin 1000) (j : Fin 512) :
    k1_pay1 (F := Ideal) x0 x1 x2 x3 (ix2 r j)
      = Ideal.tanh ((∑ k : Fin 128, (x0 (ix2 r k) + x1 (ix2 r k)) * x2 (ix2 k j)) + x3 (ix1 j)) := by
  unfold k1_pay1
  simp only [shapeCast_self]
  show Ideal.tanh (_ + _) = _
  refine congrArg Ideal.tanh (congrArg₂ (· + ·) ?_ ?_)
  · exact Cert.LibDot.matmul_zero_apply plain_dot1 none _ _ r j
  · exact Cert.LibDot.rowVec_kernel_apply _ _ _ r j

/-- The same at any index of the block. -/
theorem pay1_at (x0 x1 : Vec Ideal S1000x128 .f32) (x2 : Vec Ideal S128x512 .bf16) (x3 : Vec Ideal S512 .f32)
    (y : S1000x512.Idx) :
    k1_pay1 (F := Ideal) x0 x1 x2 x3 y
      = Ideal.tanh ((∑ k : Fin 128, (x0 (ix2 (y 0) k) + x1 (ix2 (y 0) k)) * x2 (ix2 k (y 1))) + x3 (ix1 (y 1))) :=
  (congrArg (k1_pay1 (F := Ideal) x0 x1 x2 x3) (eq_ix2 y)).trans (pay1_apply x0 x1 x2 x3 (y 0) (y 1))

/-- The zero offsets of the whole-buffer rectangles, as constant functions. -/
theorem orig1_two : (![0, 0] : Fin 2 → Nat) = fun _ => 0 := funext fun a => by fin_cases a <;> rfl
theorem orig1_one : (![0] : Fin 1 → Nat) = fun _ => 0 := funext fun a => by fin_cases a <;> rfl

/-- The node update on whole arrays: entry (n, j) is tanh of row n of (features + messages) against column j of the
    weights plus the bias at j. -/
def upd1 (xa xb : FVec Ideal S25000x128 .f32) (w : FVec Ideal S128x512 .bf16) (b : FVec Ideal S512 .f32) :
    FVec Ideal S25000x512 .f32 :=
  fun i => Ideal.tanh ((∑ k : Fin 128, (xa (ix2 (i 0) k) + xb (ix2 (i 0) k)) * w (ix2 k (i 1))) + b (ix1 (i 1)))

/-- The block index maps over the grid: the two row-blocked inputs move with the output along the rows and sit at
    column block 0; the weights and the bias stay at block 0; the output's row block at point t is t. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (1 : Fin 2) = 0
    ∧ win1_4.index t (0 : Fin 2) ≤ 24 :=
  (by decide +kernel : ∀ t : Fin grid1.N, _)

/-- Every row block is some point's. -/
theorem idx_onto1 : ∀ q : Fin 25, ∃ t : Fin cfg1.N, win1_4.index t = ![q.val, 0] :=
  (by decide +kernel : ∀ q : Fin 25, ∃ t : Fin grid1.N, win1_4.index t = ![q.val, 0])

/-- A features block read inside the block is the array read at the output block's row. -/
theorem read_xa1 (c : Dev nD) (t : Fin cfg1.N) (y : S1000x512.Idx) (k : Fin 128) :
    iblk1 V c 0 t (ix2 (y 0) k) = xa1 V c (ix2 ((((cfg1.win 4).blk t).view.emb y) 0) k) := by
  obtain ⟨e0, e1, e2, e3, e4, e5, e6, e7, e8⟩ := idx_facts1 t
  show V c main_v22 (((cfg1.win 0).blk t).view.emb (ix2 (y 0) k)) = V c main_v22 (ix2 ((((cfg1.win 4).blk t).view.emb y) 0) k)
  refine congrArg (V c main_v22) ?_
  funext a; apply Fin.ext
  match a with
  | ⟨0, _⟩ => show win1_0.index t (0 : Fin 2) * 1000 + 1 * (y 0).val = win1_4.index t (0 : Fin 2) * 1000 + 1 * (y 0).val; omega
  | ⟨1, _⟩ => show win1_0.index t (1 : Fin 2) * 128 + 1 * k.val = k.val; omega

theorem read_xb1 (c : Dev nD) (t : Fin cfg1.N) (y : S1000x512.Idx) (k : Fin 128) :
    iblk1 V c 1 t (ix2 (y 0) k) = xb1 V c (ix2 ((((cfg1.win 4).blk t).view.emb y) 0) k) := by
  obtain ⟨e0, e1, e2, e3, e4, e5, e6, e7, e8⟩ := idx_facts1 t
  show V c main_v46 (((cfg1.win 1).blk t).view.emb (ix2 (y 0) k)) = V c main_v46 (ix2 ((((cfg1.win 4).blk t).view.emb y) 0) k)
  refine congrArg (V c main_v46) ?_
  funext a; apply Fin.ext
  match a with
  | ⟨0, _⟩ => show win1_1.index t (0 : Fin 2) * 1000 + 1 * (y 0).val = win1_4.index t (0 : Fin 2) * 1000 + 1 * (y 0).val; omega
  | ⟨1, _⟩ => show win1_1.index t (1 : Fin 2) * 128 + 1 * k.val = k.val; omega

theorem read_wt1 (c : Dev nD) (t : Fin cfg1.N) (y : S1000x512.Idx) (k : Fin 128) :
    iblk1 V c 2 t (ix2 k (y 1)) = wt1 V c (ix2 k ((((cfg1.win 4).blk t).view.emb y) 1)) := by
  obtain ⟨e0, e1, e2, e3, e4, e5, e6, e7, e8⟩ := idx_facts1 t
  show V c main_v26 (((cfg1.win 2).blk t).view.emb (ix2 k (y 1))) = V c main_v26 (ix2 k ((((cfg1.win 4).blk t).view.emb y) 1))
  refine congrArg (V c main_v26) ?_
  funext a; apply Fin.ext
  match a with
  | ⟨0, _⟩ => show win1_2.index t (0 : Fin 2) * 128 + 1 * k.val = k.val; omega
  | ⟨1, _⟩ => show win1_2.index t (1 : Fin 2) * 512 + 1 * (y 1).val = win1_4.index t (1 : Fin 2) * 512 + 1 * (y 1).val; omega

theorem read_bias1 (c : Dev nD) (t : Fin cfg1.N) (y : S1000x512.Idx) :
    iblk1 V c 3 t (ix1 (y 1)) = bias1 V c (ix1 ((((cfg1.win 4).blk t).view.emb y) 1)) := by
  obtain ⟨e0, e1, e2, e3, e4, e5, e6, e7, e8⟩ := idx_facts1 t
  show V c main_arg7 (((cfg1.win 3).blk t).view.emb (ix1 (y 1))) = V c main_arg7 (ix1 ((((cfg1.win 4).blk t).view.emb y) 1))
  refine congrArg (V c main_arg7) ?_
  funext a; apply Fin.ext
  match a with
  | ⟨0, _⟩ => show win1_3.index t (0 : Fin 1) * 512 + 1 * (y 1).val = win1_4.index t (1 : Fin 2) * 512 + 1 * (y 1).val; omega

set_option maxHeartbeats 200000 in
/-- What point t writes back is block t of the whole-array update. -/
theorem flushed1_eq (c : Dev nD) (t : Fin cfg1.N) :
    (dat1 (F := Ideal) V c).flushed 4 t
      = ((cfg1.win 4).blk t).view.read (Elt Ideal) (upd1 (xa1 V c) (xb1 V c) (wt1 V c) (bias1 V c)) := by
  show (cfg1.win 4).cut (grid1.coords t) ((dat1 V c).after 4 t) = _
  rw [after1_4]
  unfold out1_4
  rw [View.canon_unit_zero orig1_two]
  simp only [View.ld_unit_zero (S := S1000x128) orig1_two, View.ld_unit_zero (S := S128x512) orig1_two, View.ld_unit_zero (S := S512) orig1_one]
  funext y
  refine (pay1_at _ _ _ _ y).trans ?_
  show _ = upd1 (xa1 V c) (xb1 V c) (wt1 V c) (bias1 V c) (((cfg1.win 4).blk t).view.emb y)
  unfold upd1
  simp only [read_xa1, read_xb1, read_wt1, read_bias1]

/-- An index of the array is in point t's block iff each coordinate is in the block's range on its axis. -/
theorem mem_blk1 (t : Fin cfg1.N) (i : S25000x512.Idx) :
    i ∈ ((cfg1.win 4).blk t).view.set ↔ ∀ a : Fin 2, win1_4.index t a * S1000x512.size a ≤ (i a).val ∧ (i a).val < win1_4.index t a * S1000x512.size a + S1000x512.size a := by
  show i ∈ ((View.whole main_v47).slice (win1_4.rect t)).set ↔ _
  rw [View.set_slice_whole, Rect.mem_set_unit]
  exact Iff.rfl

/-- The row blocks tile the array: row n is in block n / 1000. -/
theorem cover1 (i : S25000x512.Idx) : ∃ t : Fin cfg1.N, (cfg1.win 4).flush t = true ∧ i ∈ ((cfg1.win 4).blk t).view.set := by
  have hi0 : (i 0).val < 25000 := (i 0).isLt
  have hi1 : (i 1).val < 512 := (i 1).isLt
  obtain ⟨t, ht⟩ := idx_onto1 ⟨(i 0).val / 1000, by omega⟩
  have q0 : win1_4.index t (0 : Fin 2) = (i 0).val / 1000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 512 ≤ (i 1).val ∧ (i 1).val < win1_4.index t (1 : Fin 2) * 512 + 512; omega

/-- The array the region leaves is the whole-array update of the arrays it found. -/
theorem res1_eq (c : Dev nD) : res1 V c = upd1 (xa1 V c) (xb1 V c) (wt1 V c) (bias1 V c) :=
  (dat1 (F := Ideal) V c).arrAt_eq_of_cover 4 (upd1 (xa1 V c) (xb1 V c) (wt1 V c) (bias1 V c))
    (fun t _ => flushed1_eq V c t) cover1

/-- Entry (n, j) of the result. -/
theorem res1_apply (c : Dev nD) (n : Fin 25000) (j : Fin 512) :
    res1 V c (ix2 n j)
      = Ideal.tanh ((∑ k : Fin 128, (xa1 V c (ix2 n k) + xb1 V c (ix2 n k)) * wt1 V c (ix2 k j)) + bias1 V c (ix1 j)) :=
  congrFun (res1_eq V c) (ix2 n j)

end Cert.KernelIdeal.Hand

end
-- ==== Proof.Spec.lean ====
/-
  What both programs compute, as one function of the fourteen argument arrays, at any float instance: the node features
  normalised column by column (batch statistics, rsqrt of the variance plus epsilon, scale and shift); two rounds of
  message passing — each edge's message is the rectified sum of its source node's features and an affine image of the
  edge's features, the messages are summed into their destination nodes, and a node's new features are tanh of an
  affine image of its old features plus its summed messages —; a final tanh of a linear image; and the three results
  side by side. The affine images are written as the host's dot_general with the transposed weights plus the bias
  along the rows.
-/
import proofs.«118637_j37658273251987_1_alg».proof.ReferenceIdeal
import Idealize.ShloMosaic.PureOps.Ideal

noncomputable section

namespace Cert.Spec

open Cert.ReferenceIdeal Idealize.ShloMosaic

variable [Facts₀]
open Facts₀

variable {F : FTy → Type} [FloatOps F]

/-- Row 0 of the edge index: each edge's source node. -/
def srcRow (ei : Vec F S2x500000 .i32) : Vec F S500000 .i32 :=
  shapeCast S500000 (extractStridedSlice S1x500000 ![0, 0] ei slices_S2x500000_S1x500000_0_0) shapeCasts_S1x500000_S500000
/-- Row 1 of the edge index: each edge's destination node. -/
def dstRow (ei : Vec F S2x500000 .i32) : Vec F S500000 .i32 :=
  shapeCast S500000 (extractStridedSlice S1x500000 ![1, 0] ei slices_S2x500000_S1x500000_1_0) shapeCasts_S1x500000_S500000

/-- The column means of the node features. -/
def colMean (X : Vec F S25000x128 .f32) : Vec F S128 .f32 :=
  Host.divf (Host.reduceAdd X (constant S_ .f32 0#32) reducesTo_S25000x128_S128_d0 h_S_)
    (broadcastInDim S128 ![] bcast_S_S128 (constant S_ .f32 1187205120#32))

/-- The column variances (the mean of the squared deviations; `z` is the correction, zero, the divisor 25000 − z). -/
def colVar (X : Vec F S25000x128 .f32) (z : Vec F S_ .i32) : Vec F S128 .f32 :=
  select
    (broadcastInDim S128 ![] bcast_S_S128
      (cmpf (F := F) CmpFPredicate.ogt (subf (constant S_ .f32 1187205120#32) (sitofp (F := F) .f32 z)) (constant S_ .f32 0#32)))
    (Host.divf
      (Host.reduceAdd
        (mulf
          (subf X
            (broadcastInDim S25000x128 ![0, 1] bcast_S1x128_S25000x128_0_1
              (Host.divf
                (broadcastInDim S1x128 ![1] bcast_S128_S1x128_1
                  (Host.reduceAdd X (constant S_ .f32 0#32) reducesTo_S25000x128_S128_d0 h_S_))
                (broadcastInDim S1x128 ![] bcast_S_S1x128 (constant S_ .f32 1187205120#32)))))
          (subf X
            (broadcastInDim S25000x128 ![0, 1] bcast_S1x128_S25000x128_0_1
              (Host.divf
                (broadcastInDim S1x128 ![1] bcast_S128_S1x128_1
                  (Host.reduceAdd X (constant S_ .f32 0#32) reducesTo_S25000x128_S128_d0 h_S_))
                (broadcastInDim S1x128 ![] bcast_S_S1x128 (constant S_ .f32 1187205120#32))))))
        (constant S_ .f32 0#32) reducesTo_S25000x128_S128_d0 h_S_)
      (broadcastInDim S128 ![] bcast_S_S128
        (subf (constant S_ .f32 1187205120#32) (sitofp (F := F) .f32 z))))
    (broadcastInDim S128 ![] bcast_S_S128 (id (constant S_ .f32 2143289344#32)))

/-- The normalised node features from the features, the scale, the shift, the column means and the column variances. -/
def normed (X : Vec F S25000x128 .f32) (γ β mean var : Vec F S128 .f32) : Vec F S25000x128 .f32 :=
  addf
    (mulf
      (mulf
        (subf X
          (broadcastInDim S25000x128 ![0, 1] bcast_S1x128_S25000x128_0_1
            (broadcastInDim S1x128 ![1] bcast_S128_S1x128_1 mean)))
        (broadcastInDim S25000x128 ![0, 1] bcast_S1x128_S25000x128_0_1
          (broadcastInDim S1x128 ![1] bcast_S128_S1x128_1
            (Host.rsqrt
              (addf var
                (broadcastInDim S128 ![] bcast_S_S128 (constant S_ .f32 925353388#32)))))))
      (broadcastInDim S25000x128 ![0, 1] bcast_S1x128_S25000x128_0_1
        (broadcastInDim S1x128 ![1] bcast_S128_S1x128_1 γ)))
    (broadcastInDim S25000x128 ![0, 1] bcast_S1x128_S25000x128_0_1
      (broadcastInDim S1x128 ![1] bcast_S128_S1x128_1 β))

/-- The normalised node features of the arguments. -/
def x0 (X : Vec F S25000x128 .f32) (γ β : Vec F S128 .f32) : Vec F S25000x128 .f32 :=
  normed X γ β (colMean X) (colVar X (constantI S_ 32 0#32))

/-- The gather's index column: a negative source index counts from the end. -/
def gidx (s : Vec F S500000 .i32) : Vec F S500000x1 .i32 :=
  broadcastInDim S500000x1 ![0] bcast_S500000_S500000x1_0
    (select
      (cmpi CmpIPredicate.slt s (broadcastInDim S500000 ![] bcast_S_S500000 (constantI S_ 32 0#32)))
      (addi s (broadcastInDim S500000 ![] bcast_S_S500000 (constantI S_ 32 25000#32)))
      s)

/-- Round 1: the source nodes' rows, gathered edge by edge. -/
def gath1 (x : Vec F S25000x128 .f32) (s : Vec F S500000 .i32) : Vec F S500000x128 .f32 :=
  Host.gather gather_S25000x128_S500000x1_S500000x128_1_0_n_n_0_1_1128 x (gidx s)
/-- Round 1: the edge features times the transposed weights. -/
def dot1 (E : Vec F S500000x128 .f32) (W : Vec F S128x128 .f32) : Vec F S500000x128 .f32 :=
  Host.dotGeneral dot_S500000x128_S128x128_S500000x128_1_0_0_1_n_n none E (transpose S128x128 [1, 0] W transposes_S128x128_S128x128_1_0)
/-- Round 1: the bias along every row. -/
def row1 (b : Vec F S128 .f32) : Vec F S500000x128 .f32 :=
  broadcastInDim S500000x128 ![0, 1] bcast_S1x128_S500000x128_0_1 (broadcastInDim S1x128 ![1] bcast_S128_S1x128_1 b)
/-- Round 1's edge projection: the edge features times the transposed weights plus the bias along the rows. -/
def lin1 (E : Vec F S500000x128 .f32) (W : Vec F S128x128 .f32) (b : Vec F S128 .f32) : Vec F S500000x128 .f32 :=
  addf (dot1 E W) (row1 b)
/-- Round 1: rectify the messages `u` and add them into their destination nodes' rows of a zero array. -/
def scat1 (d : Vec F S500000 .i32) (u : Vec F S500000x128 .f32) : Vec F S25000x128 .f32 :=
  Host.scatterAdd scatter_S25000x128_S500000x1_S500000x128_1_0_0_1
    (broadcastInDim S25000x128 ![] bcast_S_S25000x128 (constant S_ .f32 0#32))
    (broadcastInDim S500000x1 ![0] bcast_S500000_S500000x1_0 d)
    (maximumf u (broadcastInDim S500000x128 ![] bcast_S_S500000x128 (constant S_ .f32 0#32)))
/-- Round 1's summed messages: (gathered source rows + projected edge features) + bias, rectified, summed per node. -/
def aggr1 (x : Vec F S25000x128 .f32) (s d : Vec F S500000 .i32) (E : Vec F S500000x128 .f32) (W : Vec F S128x128 .f32)
    (b : Vec F S128 .f32) : Vec F S25000x128 .f32 :=
  scat1 d (addf (addf (gath1 x s) (dot1 E W)) (row1 b))

/-- Round 2: the source nodes' rows, gathered edge by edge. -/
def gath2 (x : Vec F S25000x512 .f32) (s : Vec F S500000 .i32) : Vec F S500000x512 .f32 :=
  Host.gather gather_S25000x512_S500000x1_S500000x512_1_0_n_n_0_1_1512 x (gidx s)
/-- Round 2: the edge features times the transposed weights. -/
def dot2 (E : Vec F S500000x128 .f32) (W : Vec F S512x128 .f32) : Vec F S500000x512 .f32 :=
  Host.dotGeneral dot_S500000x128_S128x512_S500000x512_1_0_0_1_n_n none E (transpose S128x512 [1, 0] W transposes_S512x128_S128x512_1_0)
/-- Round 2: the bias along every row. -/
def row2 (b : Vec F S512 .f32) : Vec F S500000x512 .f32 :=
  broadcastInDim S500000x512 ![0, 1] bcast_S1x512_S500000x512_0_1 (broadcastInDim S1x512 ![1] bcast_S512_S1x512_1 b)
/-- Round 2's edge projection. -/
def lin2 (E : Vec F S500000x128 .f32) (W : Vec F S512x128 .f32) (b : Vec F S512 .f32) : Vec F S500000x512 .f32 :=
  addf (dot2 E W) (row2 b)
/-- Round 2: rectify the messages `u` and add them into their destination nodes' rows of a zero array. -/
def scat2 (d : Vec F S500000 .i32) (u : Vec F S500000x512 .f32) : Vec F S25000x512 .f32 :=
  Host.scatterAdd scatter_S25000x512_S500000x1_S500000x512_1_0_0_1
    (broadcastInDim S25000x512 ![] bcast_S_S25000x512 (constant S_ .f32 0#32))
    (broadcastInDim S500000x1 ![0] bcast_S500000_S500000x1_0 d)
    (maximumf u (broadcastInDim S500000x512 ![] bcast_S_S500000x512 (constant S_ .f32 0#32)))
/-- Round 2's summed messages. -/
def aggr2 (x : Vec F S25000x512 .f32) (s d : Vec F S500000 .i32) (E : Vec F S500000x128 .f32) (W : Vec F S512x128 .f32)
    (b : Vec F S512 .f32) : Vec F S25000x512 .f32 :=
  scat2 d (addf (addf (gath2 x s) (dot2 E W)) (row2 b))

/-- Round 1's node update. -/
def upd1 (x a : Vec F S25000x128 .f32) (W : Vec F S512x128 .f32) (b : Vec F S512 .f32) : Vec F S25000x512 .f32 :=
  Host.tanh (addf (Host.dotGeneral dot_S25000x128_S128x512_S25000x512_1_0_0_1_n_n none (addf x a) (transpose S128x512 [1, 0] W transposes_S512x128_S128x512_1_0))
    (broadcastInDim S25000x512 ![0, 1] bcast_S1x512_S25000x512_0_1 (broadcastInDim S1x512 ![1] bcast_S512_S1x512_1 b)))

/-- Round 2's node update. -/
def upd2 (x a : Vec F S25000x512 .f32) (W : Vec F S512x512 .f32) (b : Vec F S512 .f32) : Vec F S25000x512 .f32 :=
  Host.tanh (addf (Host.dotGeneral dot_S25000x512_S512x512_S25000x512_1_0_0_1_n_n none (addf x a) (transpose S512x512 [1, 0] W transposes_S512x512_S512x512_1_0))
    (broadcastInDim S25000x512 ![0, 1] bcast_S1x512_S25000x512_0_1 (broadcastInDim S1x512 ![1] bcast_S512_S1x512_1 b)))

/-- The final projection. -/
def fc (x : Vec F S25000x512 .f32) (W : Vec F S256x512 .f32) : Vec F S25000x256 .f32 :=
  Host.tanh (Host.dotGeneral dot_S25000x512_S512x256_S25000x256_1_0_0_1_n_n none x (transpose S512x256 [1, 0] W transposes_S256x512_S512x256_1_0))

/-- Three results side by side along the columns. -/
def side3 (x1 x2 : Vec F S25000x512 .f32) (x3 : Vec F S25000x256 .f32) : Vec F S25000x1280 .f32 :=
  concatenate S25000x1280 1 [⟨S25000x512, x1⟩, ⟨S25000x512, x2⟩, ⟨S25000x256, x3⟩] concatenates_S25000x512_S25000x512_S25000x256_S25000x1280_d1

/-- The first round's node features. -/
def x1 (X : Vec F S25000x128 .f32) (E : Vec F S500000x128 .f32) (γ β : Vec F S128 .f32) (W4 : Vec F S128x128 .f32) (b5 : Vec F S128 .f32)
    (W6 : Vec F S512x128 .f32) (b7 : Vec F S512 .f32) (ei : Vec F S2x500000 .i32) : Vec F S25000x512 .f32 :=
  upd1 (x0 X γ β) (aggr1 (x0 X γ β) (srcRow ei) (dstRow ei) E W4 b5) W6 b7

/-- The second round's node features, from the first round's. -/
def x2 (y : Vec F S25000x512 .f32) (E : Vec F S500000x128 .f32) (W8 : Vec F S512x128 .f32) (b9 : Vec F S512 .f32)
    (W10 : Vec F S512x512 .f32) (b11 : Vec F S512 .f32) (ei : Vec F S2x500000 .i32) : Vec F S25000x512 .f32 :=
  upd2 y (aggr2 y (srcRow ei) (dstRow ei) E W8 b9) W10 b11

/-- THE RESULT as one function of the fourteen arguments. -/
def result (X : Vec F S25000x128 .f32) (E : Vec F S500000x128 .f32) (γ β : Vec F S128 .f32) (W4 : Vec F S128x128 .f32) (b5 : Vec F S128 .f32)
    (W6 : Vec F S512x128 .f32) (b7 : Vec F S512 .f32) (W8 : Vec F S512x128 .f32) (b9 : Vec F S512 .f32)
    (W10 : Vec F S512x512 .f32) (b11 : Vec F S512 .f32) (W12 : Vec F S256x512 .f32) (ei : Vec F S2x500000 .i32) : Vec F S25000x1280 .f32 :=
  side3 (x1 X E γ β W4 b5 W6 b7 ei) (x2 (x1 X E γ β W4 b5 W6 b7 ei) E W8 b9 W10 b11 ei)
    (fc (x2 (x1 X E γ β W4 b5 W6 b7 ei) E W8 b9 W10 b11 ei) W12)

end Cert.Spec

end
-- ==== Proof.Bridge.Algebra.lean ====
/-
  The five places where the kernel and the reference compute one value by two routes, at the ideal values. The kernel
  multiplies a row block by the transposed weights on the matrix unit, adds the bias row (and applies tanh) inside a
  pallas_call; the reference takes the host's dot_general with the transposed weights, adds the bias broadcast along
  the rows (and applies tanh). Entry by entry both are the same sum over the contracted axis, so a result array that
  reads, at every (row, column), as that sum IS the reference's expression. Changing the float format is the identity.
-/
import proofs.«118637_j37658273251987_1_alg».proof.Proof.Spec
import proofs.«118637_j37658273251987_1_alg».proof.Proof.LibDot
import Idealize.ShloMosaic.Lib.ValueIdx
import Idealize.ShloMosaic.PureOps.Ideal.Laws

noncomputable section

namespace Cert.Bridge

open Cert.ReferenceIdeal Idealize.ShloMosaic Idealize.ShloMosaic.ValueIdx

variable [Facts₀]
open Facts₀

/-- Rounding to the narrower format is stated for formats ordered by width. -/
abbrev HB : Prop := FTy.bits .bf16 < FTy.bits .f32

/-- A result that reads, at (e, j), the sum over k of X (e, k) * (W transposed, rounded) (k, j) plus b j is the host's
    dot_general of X with W transposed, plus b along the rows. -/
theorem lin1_eq (res : FVec Ideal S500000x128 .f32) (X : FVec Ideal S500000x128 .f32) (W : FVec Ideal S128x128 .f32) (b : FVec Ideal S128 .f32) (hb : HB)
    (h : ∀ (e : Fin 500000) (j : Fin 128), res (ix2 e j)
      = (∑ k : Fin 128, X (ix2 e k) * (truncf .bf16 (transpose S128x128 [1, 0] W transposes_S128x128_S128x128_1_0) hb : FVec Ideal S128x128 .bf16) (ix2 k j)) + b (ix1 j)) :
    res = Spec.lin1 (F := Ideal) X W b := by
  funext i
  obtain ⟨e, j, rfl⟩ : ∃ (e : Fin 500000) (j : Fin 128), i = ix2 e j := ⟨i 0, i 1, eq_ix2 i⟩
  rw [h e j]
  unfold Spec.lin1 Spec.dot1 Spec.row1
  show _ = _ + _
  refine congrArg₂ (· + ·) ?_ ?_
  · exact (Cert.LibDot.dotGeneral_apply (d := dot_S500000x128_S128x128_S500000x128_1_0_0_1_n_n) ⟨rfl, rfl, rfl, rfl, rfl, rfl⟩ none X
      (transpose S128x128 [1, 0] W transposes_S128x128_S128x128_1_0) e j).symm
  · exact (Cert.LibDot.rowVec_host_apply b _ _ e j).symm

/-- A result that reads, at (e, j), the sum over k of X (e, k) * (W transposed, rounded) (k, j) plus b j is the host's
    dot_general of X with W transposed, plus b along the rows. -/
theorem lin2_eq (res : FVec Ideal S500000x512 .f32) (X : FVec Ideal S500000x128 .f32) (W : FVec Ideal S512x128 .f32) (b : FVec Ideal S512 .f32) (hb : HB)
    (h : ∀ (e : Fin 500000) (j : Fin 512), res (ix2 e j)
      = (∑ k : Fin 128, X (ix2 e k) * (truncf .bf16 (transpose S128x512 [1, 0] W transposes_S512x128_S128x512_1_0) hb : FVec Ideal S128x512 .bf16) (ix2 k j)) + b (ix1 j)) :
    res = Spec.lin2 (F := Ideal) X W b := by
  funext i
  obtain ⟨e, j, rfl⟩ : ∃ (e : Fin 500000) (j : Fin 512), i = ix2 e j := ⟨i 0, i 1, eq_ix2 i⟩
  rw [h e j]
  unfold Spec.lin2 Spec.dot2 Spec.row2
  show _ = _ + _
  refine congrArg₂ (· + ·) ?_ ?_
  · exact (Cert.LibDot.dotGeneral_apply (d := dot_S500000x128_S128x512_S500000x512_1_0_0_1_n_n) ⟨rfl, rfl, rfl, rfl, rfl, rfl⟩ none X
      (transpose S128x512 [1, 0] W transposes_S512x128_S128x512_1_0) e j).symm
  · exact (Cert.LibDot.rowVec_host_apply b _ _ e j).symm

/-- A result that reads, at (n, j), tanh of the sum over k of (x + a) (n, k) * (W transposed, rounded) (k, j) plus b j is
    the host's tanh of the dot_general of x + a with W transposed, plus b along the rows. -/
theorem upd1_eq (res : FVec Ideal S25000x512 .f32) (x a : FVec Ideal S25000x128 .f32) (W : FVec Ideal S512x128 .f32) (b : FVec Ideal S512 .f32) (hb : HB)
    (h : ∀ (n : Fin 25000) (j : Fin 512), res (ix2 n j)
      = Ideal.tanh ((∑ k : Fin 128, (x (ix2 n k) + a (ix2 n k)) * (truncf .bf16 (transpose S128x512 [1, 0] W transposes_S512x128_S128x512_1_0) hb : FVec Ideal S128x512 .bf16) (ix2 k j)) + b (ix1 j))) :
    res = Spec.upd1 (F := Ideal) x a W b := by
  funext i
  obtain ⟨n, j, rfl⟩ : ∃ (n : Fin 25000) (j : Fin 512), i = ix2 n j := ⟨i 0, i 1, eq_ix2 i⟩
  rw [h n j]
  unfold Spec.upd1
  show _ = Ideal.tanh (_ + _)
  refine congrArg Ideal.tanh (congrArg₂ (· + ·) ?_ ?_)
  · exact (Cert.LibDot.dotGeneral_apply (d := dot_S25000x128_S128x512_S25000x512_1_0_0_1_n_n) ⟨rfl, rfl, rfl, rfl, rfl, rfl⟩ none (addf x a)
      (transpose S128x512 [1, 0] W transposes_S512x128_S128x512_1_0) n j).symm
  · exact (Cert.LibDot.rowVec_host_apply b _ _ n j).symm

/-- A result that reads, at (n, j), tanh of the sum over k of (x + a) (n, k) * (W transposed, rounded) (k, j) plus b j is
    the host's tanh of the dot_general of x + a with W transposed, plus b along the rows. -/
theorem upd2_eq (res : FVec Ideal S25000x512 .f32) (x a : FVec Ideal S25000x512 .f32) (W : FVec Ideal S512x512 .f32) (b : FVec Ideal S512 .f32) (hb : HB)
    (h : ∀ (n : Fin 25000) (j : Fin 512), res (ix2 n j)
      = Ideal.tanh ((∑ k : Fin 512, (x (ix2 n k) + a (ix2 n k)) * (truncf .bf16 (transpose S512x512 [1, 0] W transposes_S512x512_S512x512_1_0) hb : FVec Ideal S512x512 .bf16) (ix2 k j)) + b (ix1 j))) :
    res = Spec.upd2 (F := Ideal) x a W b := by
  funext i
  obtain ⟨n, j, rfl⟩ : ∃ (n : Fin 25000) (j : Fin 512), i = ix2 n j := ⟨i 0, i 1, eq_ix2 i⟩
  rw [h n j]
  unfold Spec.upd2
  show _ = Ideal.tanh (_ + _)
  refine congrArg Ideal.tanh (congrArg₂ (· + ·) ?_ ?_)
  · exact (Cert.LibDot.dotGeneral_apply (d := dot_S25000x512_S512x512_S25000x512_1_0_0_1_n_n) ⟨rfl, rfl, rfl, rfl, rfl, rfl⟩ none (addf x a)
      (transpose S512x512 [1, 0] W transposes_S512x512_S512x512_1_0) n j).symm
  · exact (Cert.LibDot.rowVec_host_apply b _ _ n j).symm

/-- A result that reads, at (n, j), tanh of the sum over k of x (n, k) * (W transposed, rounded) (k, j) is the host's tanh of
    the dot_general of x with W transposed. -/
theorem fc_eq (res : FVec Ideal S25000x256 .f32) (x : FVec Ideal S25000x512 .f32) (W : FVec Ideal S256x512 .f32) (hb : HB)
    (h : ∀ (n : Fin 25000) (j : Fin 256), res (ix2 n j)
      = Ideal.tanh (∑ k : Fin 512, x (ix2 n k) * (truncf .bf16 (transpose S512x256 [1, 0] W transposes_S256x512_S512x256_1_0) hb : FVec Ideal S512x256 .bf16) (ix2 k j))) :
    res = Spec.fc (F := Ideal) x W := by
  funext i
  obtain ⟨n, j, rfl⟩ : ∃ (n : Fin 25000) (j : Fin 256), i = ix2 n j := ⟨i 0, i 1, eq_ix2 i⟩
  rw [h n j]
  unfold Spec.fc
  show _ = Ideal.tanh _
  refine congrArg Ideal.tanh ?_
  exact (Cert.LibDot.dotGeneral_apply (d := dot_S25000x512_S512x256_S25000x256_1_0_0_1_n_n) ⟨rfl, rfl, rfl, rfl, rfl, rfl⟩ none x
    (transpose S512x256 [1, 0] W transposes_S256x512_S512x256_1_0) n j).symm

/-- Addition of three arrays entry by entry re-associates (addition of extended reals is associative). -/
theorem addf_assoc {s : Shape} (g d b : FVec Ideal s .f32) : addf g (addf d b) = addf (addf g d) b := by
  funext i
  show g i + (d i + b i) = g i + d i + b i
  exact (add_assoc _ _ _).symm

end Cert.Bridge

end
-- ==== Proof.KI.ChainA.lean ====
/-
  The idealized kernel's buffers at the ideal values, from the launch to the end of the first round of message passing, each
  as its function of the argument arrays: the host stretches before region 0 compute the edge index rows, the normalised
  node features and the transposed, rounded weights; region 0 leaves the first edge projection; the next stretch gathers,
  adds, rectifies and sums the messages; region 1 leaves the first round's node features.
-/
import proofs.«118637_j37658273251987_1_alg».proof.Proof.KI.Keep
import proofs.«118637_j37658273251987_1_alg».proof.Proof.Val.V0
import proofs.«118637_j37658273251987_1_alg».proof.Proof.Val.V1
import proofs.«118637_j37658273251987_1_alg».proof.Proof.Spec
import proofs.«118637_j37658273251987_1_alg».proof.Proof.Bridge.Algebra
import proofs.«118637_j37658273251987_1_alg».proof.Proof.Gen.ReferenceIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- An argument array is as launched at region 0's entry: no host stretch before it writes an argument. -/
theorem W1_arg (c : Dev nD) (r : Ref sig .tc) (h1 : r ∉ hostOps0_W) : W1 m ρ c r = m ((c : Thread nD τ).loc r) :=
  W1_of m ρ c r h1
theorem W2_arg (c : Dev nD) (r : Ref sig .tc) (h1 : r ∉ hostOps0_W) (h2 : r ∉ hostOps0_1_W) : W2 m ρ c r = m ((c : Thread nD τ).loc r) :=
  (W2_of m ρ c r h2).trans (W1_arg m ρ c r h1)
theorem W3_arg (c : Dev nD) (r : Ref sig .tc) (h1 : r ∉ hostOps0_W) (h2 : r ∉ hostOps0_1_W) (h3 : r ∉ hostOps0_2_W) :
    W3 m ρ c r = m ((c : Thread nD τ).loc r) :=
  (W3_of m ρ c r h3).trans (W2_arg m ρ c r h1 h2)

/-- The edge index rows after the first host stretches. -/
theorem W3_v1 (c : Dev nD) : W3 m ρ c main_v1 = Spec.srcRow (m ((c : Thread nD τ).loc main_arg13)) := by
  refine (W3_of m ρ c main_v1 (by decide)).trans ?_
  refine (W2_of m ρ c main_v1 (by decide)).trans ?_
  show StableHlo.after hostOps0 (W0 m ρ c) (Proc.devRef .tc main_v1) = _
  after_results_simp
  rfl
theorem W3_v3 (c : Dev nD) : W3 m ρ c main_v3 = Spec.dstRow (m ((c : Thread nD τ).loc main_arg13)) := by
  refine (W3_of m ρ c main_v3 (by decide)).trans ?_
  refine (W2_of m ρ c main_v3 (by decide)).trans ?_
  show StableHlo.after hostOps0 (W0 m ρ c) (Proc.devRef .tc main_v3) = _
  after_results_simp
  rfl

/-- The column means after the first stretch. -/
theorem W1_v6 (c : Dev nD) : W1 m ρ c main_v6 = Spec.colMean (m ((c : Thread nD τ).loc main_arg0)) := by
  show StableHlo.after hostOps0 (W0 m ρ c) (Proc.devRef .tc main_v6) = _
  after_results_simp
  rfl
/-- The variance's correction, zero. -/
theorem W1_c (c : Dev nD) : W1 m ρ c main_c = constantI S_ 32 0#32 := by
  show StableHlo.after hostOps0 (W0 m ρ c) (Proc.devRef .tc main_c) = _
  after_results_simp

set_option maxHeartbeats 1000000 in
/-- The column variances after the second stretch. -/
theorem W2_v7 (c : Dev nD) : W2 m ρ c main_v7 = Spec.colVar (m ((c : Thread nD τ).loc main_arg0)) (constantI S_ 32 0#32) := by
  show StableHlo.after hostOps0_1 (W1 m ρ c) (Proc.devRef .tc main_v7) = _
  after_results_simp
  simp only [StableHlo.TRef.ofBuf, StableHlo.TRef.toBuf, cast_eq]
  rfl

set_option maxHeartbeats 1000000 in
/-- The normalised node features. -/
theorem W3_v22 (c : Dev nD) : W3 m ρ c main_v22 = Spec.x0 (m ((c : Thread nD τ).loc main_arg0)) (m ((c : Thread nD τ).loc main_arg2)) (m ((c : Thread nD τ).loc main_arg3)) := by
  show StableHlo.after hostOps0_2 (W2 m ρ c) (Proc.devRef .tc main_v22) = _
  after_results_simp
  simp only [StableHlo.TRef.ofBuf, StableHlo.TRef.toBuf, cast_eq]
  rfl

/-- The five weight arrays, transposed and rounded to the narrower format. -/
theorem W3_v24 (c : Dev nD) : W3 m ρ c main_v24 = truncf (F := Ideal) .bf16 (transpose S128x128 [1, 0] (m ((c : Thread nD τ).loc main_arg4)) transposes_S128x128_S128x128_1_0) bitsLt_bf16_f32 := by
  show StableHlo.after hostOps0_2 (W2 m ρ c) (Proc.devRef .tc main_v24) = _
  after_results_simp
theorem W3_v26 (c : Dev nD) : W3 m ρ c main_v26 = truncf (F := Ideal) .bf16 (transpose S128x512 [1, 0] (m ((c : Thread nD τ).loc main_arg6)) transposes_S512x128_S128x512_1_0) bitsLt_bf16_f32 := by
  show StableHlo.after hostOps0_2 (W2 m ρ c) (Proc.devRef .tc main_v26) = _
  after_results_simp
theorem W3_v28 (c : Dev nD) : W3 m ρ c main_v28 = truncf (F := Ideal) .bf16 (transpose S128x512 [1, 0] (m ((c : Thread nD τ).loc main_arg8)) transposes_S512x128_S128x512_1_0) bitsLt_bf16_f32 := by
  show StableHlo.after hostOps0_2 (W2 m ρ c) (Proc.devRef .tc main_v28) = _
  after_results_simp
theorem W3_v30 (c : Dev nD) : W3 m ρ c main_v30 = truncf (F := Ideal) .bf16 (transpose S512x512 [1, 0] (m ((c : Thread nD τ).loc main_arg10)) transposes_S512x512_S512x512_1_0) bitsLt_bf16_f32 := by
  show StableHlo.after hostOps0_2 (W2 m ρ c) (Proc.devRef .tc main_v30) = _
  after_results_simp
theorem W3_v32 (c : Dev nD) : W3 m ρ c main_v32 = truncf (F := Ideal) .bf16 (transpose S512x256 [1, 0] (m ((c : Thread nD τ).loc main_arg12)) transposes_S256x512_S512x256_1_0) bitsLt_bf16_f32 := by
  show StableHlo.after hostOps0_2 (W2 m ρ c) (Proc.devRef .tc main_v32) = _
  after_results_simp

/-- Region 0 leaves the first edge projection. -/
theorem W4_v33 (c : Dev nD) : W4 m ρ c main_v33 = Spec.lin1 (m ((c : Thread nD τ).loc main_arg1)) (m ((c : Thread nD τ).loc main_arg4)) (m ((c : Thread nD τ).loc main_arg5)) := by
  refine (W4_out m ρ c).trans (Cert.Bridge.lin1_eq (res0 (V3 m ρ) c) _ _ _ bitsLt_bf16_f32 fun e j => ?_)
  refine (res0_apply (V3 m ρ) c e j).trans ?_
  have hx : xin0 (V3 m ρ) c = m ((c : Thread nD τ).loc main_arg1) := W3_arg m ρ c main_arg1 (by decide) (by decide) (by decide)
  have hw : wt0 (V3 m ρ) c = truncf (F := Ideal) .bf16 (transpose S128x128 [1, 0] (m ((c : Thread nD τ).loc main_arg4)) transposes_S128x128_S128x128_1_0) bitsLt_bf16_f32 := W3_v24 m ρ c
  have hb : bias0 (V3 m ρ) c = m ((c : Thread nD τ).loc main_arg5) := W3_arg m ρ c main_arg5 (by decide) (by decide) (by decide)
  rw [hx, hw, hb]

/-- Adding the gathered rows to the projection plus the bias is adding the bias last. -/
theorem aggr1_split (x : Vec Ideal S25000x128 .f32) (s d : Vec Ideal S500000 .i32) (E : Vec Ideal S500000x128 .f32)
    (W : Vec Ideal S128x128 .f32) (b : Vec Ideal S128 .f32) :
    Spec.aggr1 (F := Ideal) x s d E W b
      = Spec.scat1 (F := Ideal) d (addf (F := Ideal) (s := S500000x128) (φ := .f32) (Spec.gath1 (F := Ideal) x s) (Spec.lin1 (F := Ideal) E W b)) := by
  unfold Spec.aggr1 Spec.lin1
  rw [Cert.Bridge.addf_assoc]

set_option maxHeartbeats 1000000 in
/-- The first round's summed messages. -/
theorem W5_v46 (c : Dev nD) : W5 m ρ c main_v46
    = Spec.aggr1 (Spec.x0 (m ((c : Thread nD τ).loc main_arg0)) (m ((c : Thread nD τ).loc main_arg2)) (m ((c : Thread nD τ).loc main_arg3))) (Spec.srcRow (m ((c : Thread nD τ).loc main_arg13))) (Spec.dstRow (m ((c : Thread nD τ).loc main_arg13))) (m ((c : Thread nD τ).loc main_arg1)) (m ((c : Thread nD τ).loc main_arg4)) (m ((c : Thread nD τ).loc main_arg5)) := by
  show StableHlo.after hostOps1 (W4 m ρ c) (Proc.devRef .tc main_v46) = _
  after_results_simp
  rw [(W4_keep m ρ c main_v3 (by decide)).trans (W3_v3 m ρ c), (W4_keep m ρ c main_v22 (by decide)).trans (W3_v22 m ρ c),
    (W4_keep m ρ c main_v1 (by decide)).trans (W3_v1 m ρ c), W4_v33 m ρ c, aggr1_split]
  rfl

set_option maxHeartbeats 1000000 in
/-- Region 1 leaves the first round's node features. -/
theorem W6_v47 (c : Dev nD) : W6 m ρ c main_v47 = Spec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) := by
  unfold Spec.x1
  refine (W6_out m ρ c).trans (Cert.Bridge.upd1_eq (res1 (V5 m ρ) c) _ _ _ _ bitsLt_bf16_f32 fun n j => ?_)
  refine (res1_apply (V5 m ρ) c n j).trans ?_
  have hxa : xa1 (V5 m ρ) c = _ := (W5_of m ρ c main_v22 (by decide)).trans ((W4_keep m ρ c main_v22 (by decide)).trans (W3_v22 m ρ c))
  have hxb : xb1 (V5 m ρ) c = _ := W5_v46 m ρ c
  have hw : wt1 (V5 m ρ) c = _ := (W5_of m ρ c main_v26 (by decide)).trans ((W4_keep m ρ c main_v26 (by decide)).trans (W3_v26 m ρ c))
  have hb : bias1 (V5 m ρ) c = _ := (W5_of m ρ c main_arg7 (by decide)).trans ((W4_keep m ρ c main_arg7 (by decide)).trans (W3_arg m ρ c main_arg7 (by decide) (by decide) (by decide)))
  rw [hxa, hxb, hw, hb]

end Cert.KernelIdeal.Hand

end
-- ==== Proof.Val.V2.lean ====
/-
  The array region 2 leaves, read at an index, at the ideal values: every row block of 5000 edges is the block's rows of
  the edge features times the weights (given transposed) plus the bias along the columns, and the blocks tile the array,
  so entry (e, j) of the result is the sum over k of edge (e, k) * weight (k, j), plus bias j.
-/
import proofs.«118637_j37658273251987_1_alg».proof.Proof.KI.Reg2
import proofs.«118637_j37658273251987_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The product's dimension numbers are the plain ones: axis 1 of the left against axis 0 of the right, no batch axis. -/
theorem plain2 : Cert.LibDot.Plain dot_S5000x128_S128x512_S5000x512_1_0_0_1_n_n := ⟨rfl, rfl, rfl, rfl, rfl, rfl⟩

/-- The body's payload at (r, j), over any three loaded blocks: rounding to the narrower type is the identity at the
    ideal values and so is the cast to the same shape, the product into zero is the sum over the shared axis, and the
    bias laid along every row reads the bias at the column. -/
theorem pay2_apply (x : Vec Ideal S5000x128 .f32) (w : Vec Ideal S128x512 .bf16) (b : Vec Ideal S512 .f32)
    (r : Fin 5000) (j : Fin 512) :
    k2_pay1 (F := Ideal) x w b (ix2 r j) = (∑ k : Fin 128, x (ix2 r k) * w (ix2 k j)) + b (ix1 j) := by
  unfold k2_pay1
  refine (addf_apply _ _ _).trans ?_
  refine congrArg₂ (· + ·) ?_ ?_
  · refine (Cert.LibDot.matmul_zero_apply plain2 none _ _ r j).trans ?_
    rw [shapeCast_self]
    rfl
  · exact Cert.LibDot.rowVec_kernel_apply b _ _ r j

/-- The origin of a matrix and of a vector, as constant functions. -/
theorem origin2_mat : (![0, 0] : Fin 2 → Nat) = fun _ => 0 := funext fun a => by fin_cases a <;> rfl
theorem origin2_vec : (![0] : Fin 1 → Nat) = fun _ => 0 := funext fun a => by fin_cases a; rfl

/-- The whole result as one function of the three entry arrays: at (e, j), row e of the edge features against column
    j of the weights, plus the bias at j. -/
abbrev G2 (a : FVec Ideal S500000x128 .f32) (w : FVec Ideal S128x512 .bf16) (b : FVec Ideal S512 .f32) :
    FVec Ideal S500000x512 .f32 :=
  fun i => (∑ k : Fin 128, a (ix2 (i 0 : Fin 500000) k) * w (ix2 k (i 1 : Fin 512))) + b (ix1 (i 1 : Fin 512))

/-- The block indices, decided over the grid: the edge features' row block moves with the result's, which is the
    point's number; every column block index is 0; the weights and the bias stay at block 0. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) = t.val :=
  (by decide +kernel : ∀ t : Fin grid2.N, _)

variable (V : (c : Dev nD) → (b : Ref sig .tc) → Buf (Elt Ideal) ((c : Thread nD τ).loc b))

/-- Region 2's arrays as the region finds them, at their literal types. -/
abbrev xin2 (c : Dev nD) : FVec Ideal S500000x128 .f32 := V c main_arg1
abbrev wt2 (c : Dev nD) : FVec Ideal S128x512 .bf16 := V c main_v28
abbrev bias2 (c : Dev nD) : FVec Ideal S512 .f32 := V c main_arg9
/-- The result array after the region's last write-back. -/
abbrev res2 (c : Dev nD) : FVec Ideal S500000x512 .f32 := (dat2 (F := Ideal) V c).arrAt 3 cfg2.N

/-- A block read at an index is its array read where the block puts that index. -/
theorem read2_0 (c : Dev nD) (t : Fin cfg2.N) (y : S5000x128.Idx) :
    iblk2 V c 0 t y = xin2 V c (((cfg2.win 0).blk t).view.emb y) := rfl
theorem read2_1 (c : Dev nD) (t : Fin cfg2.N) (y : S128x512.Idx) :
    iblk2 V c 1 t y = wt2 V c (((cfg2.win 1).blk t).view.emb y) := rfl
theorem read2_2 (c : Dev nD) (t : Fin cfg2.N) (y : S512.Idx) :
    iblk2 V c 2 t y = bias2 V c (((cfg2.win 2).blk t).view.emb y) := rfl

/-- Where a block puts an index: each coordinate is the block index times the block's extent plus the coordinate
    inside the block. For the edge features, (r, k) of the block at a point sits at row e = (the result's row block
    index) × 5000 + r, column k; -/
theorem emb2_0 (t : Fin cfg2.N) (r : Fin 5000) (k : Fin 128) (e : Fin 500000)
    (he : e.val = win2_3.index t (0 : Fin 2) * 5000 + 1 * r.val) :
    ((cfg2.win 0).blk t).view.emb (ix2 r k) = ix2 e k := by
  obtain ⟨e0, e1, e2, e3, e4, e5, e6⟩ := idx_facts2 t
  funext a; apply Fin.ext
  match a with
  | ⟨0, _⟩ => show win2_0.index t (0 : Fin 2) * 5000 + 1 * r.val = e.val; omega
  | ⟨1, _⟩ => show win2_0.index t (1 : Fin 2) * 128 + 1 * k.val = k.val; omega

/-- the weights' block is the whole array, so (k, j) stays (k, j); -/
theorem emb2_1 (t : Fin cfg2.N) (k : Fin 128) (j : Fin 512) :
    ((cfg2.win 1).blk t).view.emb (ix2 k j) = ix2 k j := by
  obtain ⟨e0, e1, e2, e3, e4, e5, e6⟩ := idx_facts2 t
  funext a; apply Fin.ext
  match a with
  | ⟨0, _⟩ => show win2_1.index t (0 : Fin 2) * 128 + 1 * k.val = k.val; omega
  | ⟨1, _⟩ => show win2_1.index t (1 : Fin 2) * 512 + 1 * j.val = j.val; omega

/-- so is the bias's; -/
theorem emb2_2 (t : Fin cfg2.N) (j : Fin 512) :
    ((cfg2.win 2).blk t).view.emb (ix1 j) = ix1 j := by
  obtain ⟨e0, e1, e2, e3, e4, e5, e6⟩ := idx_facts2 t
  funext a; apply Fin.ext
  match a with
  | ⟨0, _⟩ => show win2_2.index t (0 : Fin 1) * 512 + 1 * j.val = j.val; omega

/-- and (r, j) of the result's block sits at row (row block index) × 5000 + r, column j, a row of the array. -/
theorem emb2_3 (t : Fin cfg2.N) (r : Fin 5000) (j : Fin 512) :
    ∃ e : Fin 500000, e.val = win2_3.index t (0 : Fin 2) * 5000 + 1 * r.val
      ∧ ((cfg2.win 3).blk t).view.emb (ix2 r j) = ix2 e j := by
  obtain ⟨e0, e1, e2, e3, e4, e5, e6⟩ := idx_facts2 t
  have ht : t.val < 100 := lt_of_lt_of_eq t.isLt N_2
  refine ⟨⟨win2_3.index t (0 : Fin 2) * 5000 + 1 * r.val, by omega⟩, rfl, ?_⟩
  funext a; apply Fin.ext
  match a with
  | ⟨0, _⟩ => show win2_3.index t (0 : Fin 2) * 5000 + 1 * r.val = win2_3.index t (0 : Fin 2) * 5000 + 1 * r.val; rfl
  | ⟨1, _⟩ => show win2_3.index t (1 : Fin 2) * 512 + 1 * j.val = j.val; omega

/-- The payload of the three blocks at a point, at (r, j), is the whole-array function at the place of (r, j) in the
    array: the same row of the edge features, the same weights and bias. -/
theorem pay2_blocks (c : Dev nD) (t : Fin cfg2.N) (r : Fin 5000) (j : Fin 512) :
    k2_pay1 (F := Ideal) (iblk2 V c 0 t) (iblk2 V c 1 t) (iblk2 V c 2 t) (ix2 r j)
      = G2 (xin2 V c) (wt2 V c) (bias2 V c) (((cfg2.win 3).blk t).view.emb (ix2 r j)) := by
  refine (pay2_apply _ _ _ r j).trans ?_
  obtain ⟨e, he, hemb⟩ := emb2_3 t r j
  rw [hemb]
  show _ = (∑ k : Fin 128, xin2 V c (ix2 e k) * wt2 V c (ix2 k j)) + bias2 V c (ix1 j)
  refine congrArg₂ (· + ·) (Finset.sum_congr rfl fun k _ => congrArg₂ (· * ·) ?_ ?_) ?_
  · exact (read2_0 V c t _).trans (congrArg (xin2 V c) (emb2_0 t r k e he))
  · exact (read2_1 V c t _).trans (congrArg (wt2 V c) (emb2_1 t k j))
  · exact (read2_2 V c t _).trans (congrArg (bias2 V c) (emb2_2 t j))

/-- What a point writes back is its block of the whole-array function. -/
theorem flushed2_eq (c : Dev nD) (t : Fin cfg2.N) :
    (dat2 V c).flushed 3 t = ((cfg2.win 3).blk t).view.read (Elt Ideal) (G2 (xin2 V c) (wt2 V c) (bias2 V c)) := by
  show (cfg2.win 3).cut (grid2.coords t) ((dat2 V c).after 3 t) = _
  rw [after2_3]
  unfold out2_3
  rw [View.canon_unit_zero origin2_mat]
  simp only [View.ld_unit_zero (S := S5000x128) origin2_mat, View.ld_unit_zero (S := S128x512) origin2_mat,
    View.ld_unit_zero (S := S512) origin2_vec]
  funext y
  show k2_pay1 (F := Ideal) (iblk2 V c 0 t) (iblk2 V c 1 t) (iblk2 V c 2 t) y
    = G2 (xin2 V c) (wt2 V c) (bias2 V c) (((cfg2.win 3).blk t).view.emb y)
  obtain ⟨r, j, rfl⟩ : ∃ (r : Fin 5000) (j : Fin 512), y = ix2 r j := ⟨y 0, y 1, eq_ix2 y⟩
  exact pay2_blocks V c t r j

/-- An index of the array is in a point's block iff each coordinate is in the block's range on its axis. -/
theorem mem_blk2 (t : Fin cfg2.N) (i : S500000x512.Idx) :
    i ∈ ((cfg2.win 3).blk t).view.set ↔ ∀ a : Fin 2, win2_3.index t a * S5000x512.size a ≤ (i a).val
      ∧ (i a).val < win2_3.index t a * S5000x512.size a + S5000x512.size a := by
  show i ∈ ((View.whole main_v48).slice (win2_3.rect t)).set ↔ _
  rw [View.set_slice_whole, Rect.mem_set_unit]
  exact Iff.rfl

/-- The row blocks tile the array: row e is in the block of point e / 5000. -/
theorem tiles2 (i : S500000x512.Idx) :
    ∃ t : Fin cfg2.N, (cfg2.win 3).flush t = true ∧ i ∈ ((cfg2.win 3).blk t).view.set := by
  have hi0 : (i 0).val < 500000 := (i 0).isLt
  have hi1 : (i 1).val < 512 := (i 1).isLt
  have hN : (i 0).val / 5000 < cfg2.N := lt_of_lt_of_eq (by omega : (i 0).val / 5000 < 100) N_2.symm
  obtain ⟨e0, e1, e2, e3, e4, e5, e6⟩ := idx_facts2 ⟨(i 0).val / 5000, hN⟩
  have e6' : win2_3.index ⟨(i 0).val / 5000, hN⟩ (0 : Fin 2) = (i 0).val / 5000 := e6
  refine ⟨⟨(i 0).val / 5000, hN⟩, flush2_3 _, ?_⟩
  rw [mem_blk2]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 512 ≤ (i 1).val
      ∧ (i 1).val < win2_3.index ⟨(i 0).val / 5000, hN⟩ (1 : Fin 2) * 512 + 512
    omega

/-- The array the region leaves is the whole-array function of the entry arrays. -/
theorem res2_eq (c : Dev nD) : res2 V c = G2 (xin2 V c) (wt2 V c) (bias2 V c) :=
  (dat2 (F := Ideal) V c).arrAt_eq_of_cover 3 (G2 (xin2 V c) (wt2 V c) (bias2 V c))
    (fun t _ => flushed2_eq V c t) tiles2

/-- Entry (e, j) of the result. -/
theorem res2_apply (c : Dev nD) (e : Fin 500000) (j : Fin 512) :
    res2 V c (ix2 e j) = (∑ k : Fin 128, xin2 V c (ix2 e k) * wt2 V c (ix2 k j)) + bias2 V c (ix1 j) :=
  congrFun (res2_eq V c) (ix2 e j)

end Cert.KernelIdeal.Hand

end
-- ==== Proof.Val.V3.lean ====
/-
  The array region 3 leaves, read at an index, at the ideal values: every row block of 1000 nodes is tanh of the block's
  rows of (node features + aggregated messages) times the weights (given transposed) plus the bias along the columns,
  and the blocks tile the array.
-/
import proofs.«118637_j37658273251987_1_alg».proof.Proof.KI.Reg3
import proofs.«118637_j37658273251987_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Region 3's arrays as the region finds them, at their literal types. -/
abbrev xa3 (c : Dev nD) : FVec Ideal S25000x512 .f32 := V c main_v47
abbrev xb3 (c : Dev nD) : FVec Ideal S25000x512 .f32 := V c main_v61
abbrev wt3 (c : Dev nD) : FVec Ideal S512x512 .bf16 := V c main_v30
abbrev bias3 (c : Dev nD) : FVec Ideal S512 .f32 := V c main_arg11
/-- The result array after the region's last write-back. -/
abbrev res3 (c : Dev nD) : FVec Ideal S25000x512 .f32 := (dat3 (F := Ideal) V c).arrAt 4 cfg3.N

/-- The kernel's contraction is the plain matrix product: axis 1 of the left against axis 0 of the right. -/
theorem plain_dot3 : Cert.LibDot.Plain dot_S1000x512_S512x512_S1000x512_1_0_0_1_n_n := ⟨rfl, rfl, rfl, rfl, rfl, rfl⟩

/-- One row block's update at an index: tanh of the row of (features + messages) against the weight column plus the
    bias at the column. -/
theorem pay3_apply (x0 x1 : Vec Ideal S1000x512 .f32) (x2 : Vec Ideal S512x512 .bf16) (x3 : Vec Ideal S512 .f32)
    (r : Fin 1000) (j : Fin 512) :
    k3_pay1 (F := Ideal) x0 x1 x2 x3 (ix2 r j)
      = Ideal.tanh ((∑ k : Fin 512, (x0 (ix2 r k) + x1 (ix2 r k)) * x2 (ix2 k j)) + x3 (ix1 j)) := by
  unfold k3_pay1
  simp only [shapeCast_self]
  show Ideal.tanh (_ + _) = _
  refine congrArg Ideal.tanh (congrArg₂ (· + ·) ?_ ?_)
  · exact Cert.LibDot.matmul_zero_apply plain_dot3 none _ _ r j
  · exact Cert.LibDot.rowVec_kernel_apply _ _ _ r j

/-- The same at any index of the block. -/
theorem pay3_at (x0 x1 : Vec Ideal S1000x512 .f32) (x2 : Vec Ideal S512x512 .bf16) (x3 : Vec Ideal S512 .f32)
    (y : S1000x512.Idx) :
    k3_pay1 (F := Ideal) x0 x1 x2 x3 y
      = Ideal.tanh ((∑ k : Fin 512, (x0 (ix2 (y 0) k) + x1 (ix2 (y 0) k)) * x2 (ix2 k (y 1))) + x3 (ix1 (y 1))) :=
  (congrArg (k3_pay1 (F := Ideal) x0 x1 x2 x3) (eq_ix2 y)).trans (pay3_apply x0 x1 x2 x3 (y 0) (y 1))

/-- The zero offsets of the whole-buffer rectangles, as constant functions. -/
theorem orig3_two : (![0, 0] : Fin 2 → Nat) = fun _ => 0 := funext fun a => by fin_cases a <;> rfl
theorem orig3_one : (![0] : Fin 1 → Nat) = fun _ => 0 := funext fun a => by fin_cases a <;> rfl

/-- The node update on whole arrays: entry (n, j) is tanh of row n of (features + messages) against column j of the
    weights plus the bias at j. -/
def upd3 (xa xb : FVec Ideal S25000x512 .f32) (w : FVec Ideal S512x512 .bf16) (b : FVec Ideal S512 .f32) :
    FVec Ideal S25000x512 .f32 :=
  fun i => Ideal.tanh ((∑ k : Fin 512, (xa (ix2 (i 0) k) + xb (ix2 (i 0) k)) * w (ix2 k (i 1))) + b (ix1 (i 1)))

/-- The block index maps over the grid: the two row-blocked inputs move with the output along the rows and sit at
    column block 0; the weights and the bias stay at block 0; the output's row block at point t is t. -/
theorem idx_facts3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = 0
    ∧ win3_3.index t (0 : Fin 1) = 0
    ∧ win3_4.index t (1 : Fin 2) = 0
    ∧ win3_4.index t (0 : Fin 2) ≤ 24 :=
  (by decide +kernel : ∀ t : Fin grid3.N, _)

/-- Every row block is some point's. -/
theorem idx_onto3 : ∀ q : Fin 25, ∃ t : Fin cfg3.N, win3_4.index t = ![q.val, 0] :=
  (by decide +kernel : ∀ q : Fin 25, ∃ t : Fin grid3.N, win3_4.index t = ![q.val, 0])

/-- A features block read inside the block is the array read at the output block's row. -/
theorem read_xa3 (c : Dev nD) (t : Fin cfg3.N) (y : S1000x512.Idx) (k : Fin 512) :
    iblk3 V c 0 t (ix2 (y 0) k) = xa3 V c (ix2 ((((cfg3.win 4).blk t).view.emb y) 0) k) := by
  obtain ⟨e0, e1, e2, e3, e4, e5, e6, e7, e8⟩ := idx_facts3 t
  show V c main_v47 (((cfg3.win 0).blk t).view.emb (ix2 (y 0) k)) = V c main_v47 (ix2 ((((cfg3.win 4).blk t).view.emb y) 0) k)
  refine congrArg (V c main_v47) ?_
  funext a; apply Fin.ext
  match a with
  | ⟨0, _⟩ => show win3_0.index t (0 : Fin 2) * 1000 + 1 * (y 0).val = win3_4.index t (0 : Fin 2) * 1000 + 1 * (y 0).val; omega
  | ⟨1, _⟩ => show win3_0.index t (1 : Fin 2) * 512 + 1 * k.val = k.val; omega

theorem read_xb3 (c : Dev nD) (t : Fin cfg3.N) (y : S1000x512.Idx) (k : Fin 512) :
    iblk3 V c 1 t (ix2 (y 0) k) = xb3 V c (ix2 ((((cfg3.win 4).blk t).view.emb y) 0) k) := by
  obtain ⟨e0, e1, e2, e3, e4, e5, e6, e7, e8⟩ := idx_facts3 t
  show V c main_v61 (((cfg3.win 1).blk t).view.emb (ix2 (y 0) k)) = V c main_v61 (ix2 ((((cfg3.win 4).blk t).view.emb y) 0) k)
  refine congrArg (V c main_v61) ?_
  funext a; apply Fin.ext
  match a with
  | ⟨0, _⟩ => show win3_1.index t (0 : Fin 2) * 1000 + 1 * (y 0).val = win3_4.index t (0 : Fin 2) * 1000 + 1 * (y 0).val; omega
  | ⟨1, _⟩ => show win3_1.index t (1 : Fin 2) * 512 + 1 * k.val = k.val; omega

theorem read_wt3 (c : Dev nD) (t : Fin cfg3.N) (y : S1000x512.Idx) (k : Fin 512) :
    iblk3 V c 2 t (ix2 k (y 1)) = wt3 V c (ix2 k ((((cfg3.win 4).blk t).view.emb y) 1)) := by
  obtain ⟨e0, e1, e2, e3, e4, e5, e6, e7, e8⟩ := idx_facts3 t
  show V c main_v30 (((cfg3.win 2).blk t).view.emb (ix2 k (y 1))) = V c main_v30 (ix2 k ((((cfg3.win 4).blk t).view.emb y) 1))
  refine congrArg (V c main_v30) ?_
  funext a; apply Fin.ext
  match a with
  | ⟨0, _⟩ => show win3_2.index t (0 : Fin 2) * 512 + 1 * k.val = k.val; omega
  | ⟨1, _⟩ => show win3_2.index t (1 : Fin 2) * 512 + 1 * (y 1).val = win3_4.index t (1 : Fin 2) * 512 + 1 * (y 1).val; omega

theorem read_bias3 (c : Dev nD) (t : Fin cfg3.N) (y : S1000x512.Idx) :
    iblk3 V c 3 t (ix1 (y 1)) = bias3 V c (ix1 ((((cfg3.win 4).blk t).view.emb y) 1)) := by
  obtain ⟨e0, e1, e2, e3, e4, e5, e6, e7, e8⟩ := idx_facts3 t
  show V c main_arg11 (((cfg3.win 3).blk t).view.emb (ix1 (y 1))) = V c main_arg11 (ix1 ((((cfg3.win 4).blk t).view.emb y) 1))
  refine congrArg (V c main_arg11) ?_
  funext a; apply Fin.ext
  match a with
  | ⟨0, _⟩ => show win3_3.index t (0 : Fin 1) * 512 + 1 * (y 1).val = win3_4.index t (1 : Fin 2) * 512 + 1 * (y 1).val; omega

set_option maxHeartbeats 200000 in
/-- What point t writes back is block t of the whole-array update. -/
theorem flushed3_eq (c : Dev nD) (t : Fin cfg3.N) :
    (dat3 (F := Ideal) V c).flushed 4 t
      = ((cfg3.win 4).blk t).view.read (Elt Ideal) (upd3 (xa3 V c) (xb3 V c) (wt3 V c) (bias3 V c)) := by
  show (cfg3.win 4).cut (grid3.coords t) ((dat3 V c).after 4 t) = _
  rw [after3_4]
  unfold out3_4
  rw [View.canon_unit_zero orig3_two]
  simp only [View.ld_unit_zero (S := S1000x512) orig3_two, View.ld_unit_zero (S := S512x512) orig3_two, View.ld_unit_zero (S := S512) orig3_one]
  funext y
  refine (pay3_at _ _ _ _ y).trans ?_
  show _ = upd3 (xa3 V c) (xb3 V c) (wt3 V c) (bias3 V c) (((cfg3.win 4).blk t).view.emb y)
  unfold upd3
  simp only [read_xa3, read_xb3, read_wt3, read_bias3]

/-- An index of the array is in point t's block iff each coordinate is in the block's range on its axis. -/
theorem mem_blk3 (t : Fin cfg3.N) (i : S25000x512.Idx) :
    i ∈ ((cfg3.win 4).blk t).view.set ↔ ∀ a : Fin 2, win3_4.index t a * S1000x512.size a ≤ (i a).val ∧ (i a).val < win3_4.index t a * S1000x512.size a + S1000x512.size a := by
  show i ∈ ((View.whole main_v62).slice (win3_4.rect t)).set ↔ _
  rw [View.set_slice_whole, Rect.mem_set_unit]
  exact Iff.rfl

/-- The row blocks tile the array: row n is in block n / 1000. -/
theorem cover3 (i : S25000x512.Idx) : ∃ t : Fin cfg3.N, (cfg3.win 4).flush t = true ∧ i ∈ ((cfg3.win 4).blk t).view.set := by
  have hi0 : (i 0).val < 25000 := (i 0).isLt
  have hi1 : (i 1).val < 512 := (i 1).isLt
  obtain ⟨t, ht⟩ := idx_onto3 ⟨(i 0).val / 1000, by omega⟩
  have q0 : win3_4.index t (0 : Fin 2) = (i 0).val / 1000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 1000 ≤ (i 0).val ∧ (i 0).val < win3_4.index t (0 : Fin 2) * 1000 + 1000; omega
  | ⟨1, _⟩ => show win3_4.index t (1 : Fin 2) * 512 ≤ (i 1).val ∧ (i 1).val < win3_4.index t (1 : Fin 2) * 512 + 512; omega

/-- The array the region leaves is the whole-array update of the arrays it found. -/
theorem res3_eq (c : Dev nD) : res3 V c = upd3 (xa3 V c) (xb3 V c) (wt3 V c) (bias3 V c) :=
  (dat3 (F := Ideal) V c).arrAt_eq_of_cover 4 (upd3 (xa3 V c) (xb3 V c) (wt3 V c) (bias3 V c))
    (fun t _ => flushed3_eq V c t) cover3

/-- Entry (n, j) of the result. -/
theorem res3_apply (c : Dev nD) (n : Fin 25000) (j : Fin 512) :
    res3 V c (ix2 n j)
      = Ideal.tanh ((∑ k : Fin 512, (xa3 V c (ix2 n k) + xb3 V c (ix2 n k)) * wt3 V c (ix2 k j)) + bias3 V c (ix1 j)) :=
  congrFun (res3_eq V c) (ix2 n j)

end Cert.KernelIdeal.Hand

end
-- ==== Proof.Val.V4.lean ====
/-
  The array region 4 leaves, read at an index, at the ideal values: every row block of 1000 nodes is tanh of the block's
  rows of the node features times the weights (given transposed), and the blocks tile the array.
-/
import proofs.«118637_j37658273251987_1_alg».proof.Proof.KI.Reg4
import proofs.«118637_j37658273251987_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Region 4's arrays as the region finds them, at their literal types. -/
abbrev xin4 (c : Dev nD) : FVec Ideal S25000x512 .f32 := V c main_v62
abbrev wt4 (c : Dev nD) : FVec Ideal S512x256 .bf16 := V c main_v32
/-- The result array after the region's last write-back. -/
abbrev res4 (c : Dev nD) : FVec Ideal S25000x256 .f32 := (dat4 (F := Ideal) V c).arrAt 2 cfg4.N

set_option maxHeartbeats 400000 in
/-- The block's payload at (r, j): tanh of row r of the features against column j of the weights. -/
theorem pay4_apply (x : Vec Ideal S1000x512 .f32) (w : Vec Ideal S512x256 .bf16) (r : Fin 1000) (j : Fin 256) :
    k4_pay1 (F := Ideal) x w (ix2 r j) = Ideal.tanh (∑ k : Fin 512, x (ix2 r k) * w (ix2 k j)) := by
  unfold k4_pay1
  simp only [shapeCast_self]
  show Ideal.tanh (matmul (F := Ideal) dot_S1000x512_S512x256_S1000x256_1_0_0_1_n_n none (truncf .bf16 x bitsLt_bf16_f32) w (constant S1000x256 .f32 0x00000000#32) (ix2 r j)) = _
  refine congrArg Ideal.tanh ?_
  exact Cert.LibDot.matmul_zero_apply (M := 1000) (K := 512) (N := 256) (φ₁ := .bf16) (φ₂ := .bf16)
    (d := dot_S1000x512_S512x256_S1000x256_1_0_0_1_n_n) ⟨rfl, rfl, rfl, rfl, rfl, rfl⟩ none
    (truncf (F := Ideal) .bf16 x bitsLt_bf16_f32 : FVec Ideal S1000x512 .bf16) (w : FVec Ideal S512x256 .bf16) r j

theorem zero_offsets2 : (![0, 0] : Fin 2 → Nat) = fun _ => 0 := funext fun a => by fin_cases a <;> rfl

/-- The whole projected array as one function of the features and the weights. -/
abbrev proj4 (a : FVec Ideal S25000x512 .f32) (b : FVec Ideal S512x256 .bf16) : FVec Ideal S25000x256 .f32 :=
  fun i => Ideal.tanh (∑ k : Fin 512, a (ix2 (i 0 : Fin 25000) k) * b (ix2 k (i 1 : Fin 256)))

/-- The block indices over the grid: point t takes row block t of the features and of the result; the weights stay whole. -/
theorem block_indices4 : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 400000 in
/-- What point t writes back is row block t of the projected array. -/
theorem flushed4_eq (c : Dev nD) (t : Fin cfg4.N) :
    (dat4 (F := Ideal) V c).flushed 2 t = ((cfg4.win 2).blk t).view.read (Elt Ideal) (proj4 (xin4 V c) (wt4 V c)) := by
  show (cfg4.win 2).cut (grid4.coords t) ((dat4 V c).after 2 t) = _
  rw [after4_2]
  unfold out4_2
  rw [View.canon_unit_zero zero_offsets2]
  simp only [View.ld_unit_zero (S := S1000x512) zero_offsets2, View.ld_unit_zero (S := S512x256) zero_offsets2]
  obtain ⟨e0, e1, e2, e3, e4, e5⟩ := block_indices4 t
  funext y
  obtain ⟨r, j, rfl⟩ : ∃ (r : Fin 1000) (j : Fin 256), y = ix2 r j := ⟨y 0, y 1, ValueIdx.eq_ix2 y⟩
  show k4_pay1 (F := Ideal) (iblk4 V c 0 t) (iblk4 V c 1 t) (ix2 r j) = proj4 (xin4 V c) (wt4 V c) (((cfg4.win 2).blk t).view.emb (ix2 r j))
  refine (pay4_apply _ _ r j).trans ?_
  refine congrArg Ideal.tanh (Finset.sum_congr rfl fun k _ => ?_)
  have hx : iblk4 V c 0 t (ix2 r k) = xin4 V c (ix2 ((((cfg4.win 2).blk t).view.emb (ix2 r j)) 0 : Fin 25000) k) := by
    show xin4 V c (((cfg4.win 0).blk t).view.emb (ix2 r k)) = _
    refine congrArg (xin4 V c) ?_
    funext a; apply Fin.ext
    match a with
    | ⟨0, _⟩ => show win4_0.index t (0 : Fin 2) * 1000 + 1 * r.val = win4_2.index t (0 : Fin 2) * 1000 + 1 * r.val; omega
    | ⟨1, _⟩ => show win4_0.index t (1 : Fin 2) * 512 + 1 * k.val = k.val; omega
  have hw : iblk4 V c 1 t (ix2 k j) = wt4 V c (ix2 k ((((cfg4.win 2).blk t).view.emb (ix2 r j)) 1 : Fin 256)) := by
    show wt4 V c (((cfg4.win 1).blk t).view.emb (ix2 k j)) = _
    refine congrArg (wt4 V c) ?_
    funext a; apply Fin.ext
    match a with
    | ⟨0, _⟩ => show win4_1.index t (0 : Fin 2) * 512 + 1 * k.val = k.val; omega
    | ⟨1, _⟩ => show win4_1.index t (1 : Fin 2) * 256 + 1 * j.val = win4_2.index t (1 : Fin 2) * 256 + 1 * j.val; omega
  rw [hx, hw]

/-- An index of the result is in point t's block iff each coordinate is in the block's range on its axis. -/
theorem mem_blk4 (t : Fin cfg4.N) (i : S25000x256.Idx) :
    i ∈ ((cfg4.win 2).blk t).view.set ↔ ∀ a : Fin 2, win4_2.index t a * S1000x256.size a ≤ (i a).val ∧ (i a).val < win4_2.index t a * S1000x256.size a + S1000x256.size a := by
  show i ∈ ((View.whole main_v63).slice (win4_2.rect t)).set ↔ _
  rw [View.set_slice_whole, Rect.mem_set_unit]
  exact Iff.rfl

/-- Row e of the result lies in the block of point e / 1000. -/
theorem cover4 (i : S25000x256.Idx) : ∃ t : Fin cfg4.N, (cfg4.win 2).flush t = true ∧ i ∈ ((cfg4.win 2).blk t).view.set := by
  have hi0 : (i 0).val < 25000 := (i 0).isLt
  have hi1 : (i 1).val < 256 := (i 1).isLt
  have ht : (i 0).val / 1000 < cfg4.N := by rw [show cfg4.N = 25 from N_4]; omega
  obtain ⟨e0, e1, e2, e3, e4, e5⟩ := block_indices4 ⟨(i 0).val / 1000, ht⟩
  have e4' : win4_2.index ⟨(i 0).val / 1000, ht⟩ (0 : Fin 2) = (i 0).val / 1000 := e4
  refine ⟨⟨(i 0).val / 1000, ht⟩, flush4_2 _, ?_⟩
  rw [mem_blk4]
  intro a
  match a with
  | ⟨0, _⟩ => show win4_2.index ⟨(i 0).val / 1000, ht⟩ (0 : Fin 2) * 1000 ≤ (i 0).val ∧ (i 0).val < win4_2.index ⟨(i 0).val / 1000, ht⟩ (0 : Fin 2) * 1000 + 1000; omega
  | ⟨1, _⟩ => show win4_2.index ⟨(i 0).val / 1000, ht⟩ (1 : Fin 2) * 256 ≤ (i 1).val ∧ (i 1).val < win4_2.index ⟨(i 0).val / 1000, ht⟩ (1 : Fin 2) * 256 + 256; omega

/-- Entry (n, j) of the result. -/
theorem res4_apply (c : Dev nD) (n : Fin 25000) (j : Fin 256) :
    res4 V c (ix2 n j) = Ideal.tanh (∑ k : Fin 512, xin4 V c (ix2 n k) * wt4 V c (ix2 k j)) := by
  have h := (dat4 (F := Ideal) V c).arrAt_eq_of_cover 2 (proj4 (xin4 V c) (wt4 V c)) (fun t _ => flushed4_eq V c t) cover4
  exact congrFun h (ix2 n j)

end Cert.KernelIdeal.Hand

end
-- ==== Proof.LibNary.lean ====
/-
  The result of a host operation over a literal family of THREE references (a concatenate of three operands), with each
  operand's contents at its own reference, so that a fold of host operations can go on being read through the operands.
-/
import Idealize.ShloMosaic.Lib.StableHlo.Run

noncomputable section

namespace Cert.LibNary

open Idealize.ShloMosaic Idealize.ShloMosaic.StableHlo

variable {τ : Topo} {sig : RefSig} {Val : EltTy → Type}

/-- An operation over the three references `x a b` writes, at its result reference, its function of the three operands'
    contents, each read at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary

end
-- ==== Proof.KI.ChainB.lean ====
/-
  The idealized kernel's buffers at the ideal values, from the end of the first round of message passing to the return, each
  as its function of the argument arrays: region 2 leaves the second edge projection; the next stretch gathers, adds,
  rectifies and sums the second round's messages; region 3 leaves the second round's node features, region 4 the final
  projection, and the last operation lays the three results side by side.
-/
import proofs.«118637_j37658273251987_1_alg».proof.Proof.KI.ChainA
import proofs.«118637_j37658273251987_1_alg».proof.Proof.Val.V2
import proofs.«118637_j37658273251987_1_alg».proof.Proof.Val.V3
import proofs.«118637_j37658273251987_1_alg».proof.Proof.Val.V4
import proofs.«118637_j37658273251987_1_alg».proof.Proof.LibNary
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- A buffer that neither region 0, the stretch after it nor region 1 writes is at the end of region 1 as region 0 found it. -/
theorem W6_from3 (c : Dev nD) (r : Ref sig .tc) (h4 : r ≠ main_v33) (h5 : r ∉ hostOps1_W) (h6 : r ≠ main_v47) :
    W6 m ρ c r = W3 m ρ c r :=
  (W6_keep m ρ c r h6).trans <| (W5_of m ρ c r h5).trans (W4_keep m ρ c r h4)

/-- A buffer that nothing up to the end of region 1 writes holds its launch contents there. -/
theorem W6_launch (c : Dev nD) (r : Ref sig .tc) (h1 : r ∉ hostOps0_W) (h2 : r ∉ hostOps0_1_W) (h3 : r ∉ hostOps0_2_W)
    (h4 : r ≠ main_v33) (h5 : r ∉ hostOps1_W) (h6 : r ≠ main_v47) : W6 m ρ c r = m ((c : Thread nD τ).loc r) :=
  (W6_from3 m ρ c r h4 h5 h6).trans <| (W3_of m ρ c r h3).trans <| (W2_of m ρ c r h2).trans <| (W1_of m ρ c r h1)

/-- A buffer that neither region 2 nor the stretch after it writes is at region 3's entry as at the end of region 1. -/
theorem W8_from6 (c : Dev nD) (r : Ref sig .tc) (h7 : r ≠ main_v48) (h8 : r ∉ hostOps3_W) : W8 m ρ c r = W6 m ρ c r :=
  (W8_of m ρ c r h8).trans (W7_keep m ρ c r h7)

set_option maxHeartbeats 100000 in
/-- Region 2 leaves the second edge projection. -/
theorem W7_v48 (c : Dev nD) : W7 m ρ c main_v48 = Spec.lin2 (m ((c : Thread nD τ).loc main_arg1)) (m ((c : Thread nD τ).loc main_arg8)) (m ((c : Thread nD τ).loc main_arg9)) := by
  refine (W7_out m ρ c).trans (Cert.Bridge.lin2_eq (res2 (V6 m ρ) c) _ _ _ bitsLt_bf16_f32 fun e j => ?_)
  have hx : xin2 (V6 m ρ) c = m ((c : Thread nD τ).loc main_arg1) :=
    W6_launch m ρ c main_arg1 (by decide) (by decide) (by decide) (by decide) (by decide) (by decide)
  have hw : wt2 (V6 m ρ) c = truncf .bf16 (transpose S128x512 [1, 0] (m ((c : Thread nD τ).loc main_arg8)) transposes_S512x128_S128x512_1_0) bitsLt_bf16_f32 :=
    (W6_from3 m ρ c main_v28 (by decide) (by decide) (by decide)).trans (W3_v28 m ρ c)
  have hb : bias2 (V6 m ρ) c = m ((c : Thread nD τ).loc main_arg9) :=
    W6_launch m ρ c main_arg9 (by decide) (by decide) (by decide) (by decide) (by decide) (by decide)
  refine (res2_apply (V6 m ρ) c e j).trans ?_
  rw [hx, hw, hb]

set_option maxHeartbeats 200000 in
/-- The second round's summed messages. -/
theorem W8_v61 (c : Dev nD) : W8 m ρ c main_v61
    = Spec.aggr2 (Spec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13))) (Spec.srcRow (m ((c : Thread nD τ).loc main_arg13))) (Spec.dstRow (m ((c : Thread nD τ).loc main_arg13))) (m ((c : Thread nD τ).loc main_arg1)) (m ((c : Thread nD τ).loc main_arg8)) (m ((c : Thread nD τ).loc main_arg9)) := by
  have hs : W7 m ρ c main_v1 = Spec.srcRow (m ((c : Thread nD τ).loc main_arg13)) :=
    (W7_keep m ρ c main_v1 (by decide)).trans ((W6_from3 m ρ c main_v1 (by decide) (by decide) (by decide)).trans (W3_v1 m ρ c))
  have hd : W7 m ρ c main_v3 = Spec.dstRow (m ((c : Thread nD τ).loc main_arg13)) :=
    (W7_keep m ρ c main_v3 (by decide)).trans ((W6_from3 m ρ c main_v3 (by decide) (by decide) (by decide)).trans (W3_v3 m ρ c))
  have hx := (W7_keep m ρ c main_v47 (by decide)).trans (W6_v47 m ρ c)
  have hl := W7_v48 m ρ c
  show StableHlo.after hostOps3 (W7 m ρ c) (Proc.devRef .tc main_v61) = _
  after_results_simp
  rw [hs, hd, hx, hl]
  unfold Spec.aggr2 Spec.scat2 Spec.gath2 Spec.gidx Spec.lin2
  rw [← Cert.Bridge.addf_assoc]
  rfl

set_option maxHeartbeats 200000 in
/-- Region 3 leaves the second round's node features. -/
theorem W9_v62 (c : Dev nD) : W9 m ρ c main_v62 = Spec.x2 (Spec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg13)) := by
  have hxa : xa3 (V8 m ρ) c = _ := (W8_from6 m ρ c main_v47 (by decide) (by decide)).trans (W6_v47 m ρ c)
  have hxb : xb3 (V8 m ρ) c = _ := W8_v61 m ρ c
  have hw : wt3 (V8 m ρ) c = _ :=
    (W8_from6 m ρ c main_v30 (by decide) (by decide)).trans ((W6_from3 m ρ c main_v30 (by decide) (by decide) (by decide)).trans (W3_v30 m ρ c))
  have hb : bias3 (V8 m ρ) c = m ((c : Thread nD τ).loc main_arg11) :=
    (W8_from6 m ρ c main_arg11 (by decide) (by decide)).trans
      (W6_launch m ρ c main_arg11 (by decide) (by decide) (by decide) (by decide) (by decide) (by decide))
  unfold Spec.x2
  refine (W9_out m ρ c).trans (Cert.Bridge.upd2_eq (res3 (V8 m ρ) c) _ _ _ _ bitsLt_bf16_f32 fun n j => ?_)
  refine (res3_apply (V8 m ρ) c n j).trans ?_
  rw [hxa, hxb, hw, hb]

set_option maxHeartbeats 200000 in
/-- Region 4 leaves the final projection. -/
theorem W10_v63 (c : Dev nD) : W10 m ρ c main_v63 = Spec.fc (Spec.x2 (Spec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg13))) (m ((c : Thread nD τ).loc main_arg12)) := by
  have hx : xin4 (V9 m ρ) c = _ := W9_v62 m ρ c
  have hw : wt4 (V9 m ρ) c = _ :=
    (W9_keep m ρ c main_v32 (by decide)).trans ((W8_from6 m ρ c main_v32 (by decide) (by decide)).trans
      ((W6_from3 m ρ c main_v32 (by decide) (by decide) (by decide)).trans (W3_v32 m ρ c)))
  refine (W10_out m ρ c).trans (Cert.Bridge.fc_eq (res4 (V9 m ρ) c) _ _ bitsLt_bf16_f32 fun n j => ?_)
  refine (res4_apply (V9 m ρ) c n j).trans ?_
  rw [hx, hw]

set_option maxHeartbeats 200000 in
/-- THE RESULT: the kernel's result array at the end is the specification's function of the fourteen arguments. -/
theorem W11_v64 (c : Dev nD) : W11 m ρ c main_v64
    = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h1 : W10 m ρ c main_v47 = _ :=
    (W10_keep m ρ c main_v47 (by decide)).trans ((W9_keep m ρ c main_v47 (by decide)).trans
      ((W8_from6 m ρ c main_v47 (by decide) (by decide)).trans (W6_v47 m ρ c)))
  have h2 : W10 m ρ c main_v62 = _ := (W10_keep m ρ c main_v62 (by decide)).trans (W9_v62 m ρ c)
  have h3 := W10_v63 m ρ c
  show StableHlo.after hostOps5 (W10 m ρ c) (Proc.devRef .tc main_v64) = _
  simp only [StableHlo.after_cons, StableHlo.after_nil]
  rw [Cert.LibNary.nary3_result, h1, h2, h3]
  rfl

end Cert.KernelIdeal.Hand

end
-- ==== Proof.Ref.Ops.lean ====
/-
  The reference program's @main as a line of host operations.

  @main is a straight line of host operations once every function call is replaced, at its call site, by the
  callee's operations over that call's buffers. The line is listed here in order, 110 operations in 7 pieces,
  a piece ending right after the @main value(s) %22, %39, %46, %63, %70, %73; the last piece is the rest.
-/
import proofs.«118637_j37658273251987_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Piece A: 48 operations, %0 … %22. -/
abbrev opsA : List (HloOp τ sig (Elt F)) :=
  [ StableHlo.unary main_arg13 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg13 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000,
    StableHlo.nullary main_cst (constant S_ .f32 0x00000000#32),
    StableHlo.binary main_arg0 main_cst main_v4 ((fun x v => Host.reduceAdd x v reducesTo_S25000x128_S128_d0 h_S_) : (⟨S25000x128, .f32⟩ : BufTy).Contents (Elt F) → (⟨S_, .f32⟩ : BufTy).Contents (Elt F) → (⟨S128, .f32⟩ : BufTy).Contents (Elt F)),
    StableHlo.nullary main_cst_0 (constant S_ .f32 0x46C35000#32),
    StableHlo.unary main_cst_0 main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S25000x128, .f32⟩) (.of main_call0_cst : StableHlo.TRef sig ⟨S_, .f32⟩) (.of main_call0_v0 : StableHlo.TRef sig ⟨S128, .f32⟩) (fun x v => Host.reduceAdd x v reducesTo_S25000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x46C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S25000x128, .f32⟩) (broadcastInDim S25000x128 ![0, 1] bcast_S1x128_S25000x128_0_1),
    StableHlo.TRef.binary (.of main_arg0 : StableHlo.TRef sig ⟨S25000x128, .f32⟩) (.of main_call0_v4 : StableHlo.TRef sig ⟨S25000x128, .f32⟩) (.of main_call0_v5 : StableHlo.TRef sig ⟨S25000x128, .f32⟩) subf,
    StableHlo.TRef.binary (.of main_call0_v5 : StableHlo.TRef sig ⟨S25000x128, .f32⟩) (.of main_call0_v5 : StableHlo.TRef sig ⟨S25000x128, .f32⟩) (.of main_call0_v6 : StableHlo.TRef sig ⟨S25000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S25000x128, .f32⟩) (.of main_call0_cst_2 : StableHlo.TRef sig ⟨S_, .f32⟩) (.of main_call0_v9 : StableHlo.TRef sig ⟨S128, .f32⟩) (fun x v => Host.reduceAdd x v reducesTo_S25000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v7 : StableHlo.TRef sig ⟨S128, .f32⟩) (fun p a b => select (broadcastInDim S128 ![] bcast_S_S128 p) a b),
    StableHlo.unary main_v6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S25000x128 ![0, 1] bcast_S1x128_S25000x128_0_1 : (⟨S1x128, .f32⟩ : BufTy).Contents (Elt F) → (⟨S25000x128, .f32⟩ : BufTy).Contents (Elt F)),
    StableHlo.binary main_arg0 main_v9 main_v10 (subf : (⟨S25000x128, .f32⟩ : BufTy).Contents (Elt F) → (⟨S25000x128, .f32⟩ : BufTy).Contents (Elt F) → (⟨S25000x128, .f32⟩ : BufTy).Contents (Elt F)),
    StableHlo.nullary main_cst_1 (constant S_ .f32 0x3727C5AC#32),
    StableHlo.unary main_cst_1 main_v11 (broadcastInDim S128 ![] bcast_S_S128 : (⟨S_, .f32⟩ : BufTy).Contents (Elt F) → (⟨S128, .f32⟩ : BufTy).Contents (Elt F)),
    StableHlo.binary main_v7 main_v11 main_v12 (addf : (⟨S128, .f32⟩ : BufTy).Contents (Elt F) → (⟨S128, .f32⟩ : BufTy).Contents (Elt F) → (⟨S128, .f32⟩ : BufTy).Contents (Elt F)),
    StableHlo.unary main_v12 main_v13 (Host.rsqrt : (⟨S128, .f32⟩ : BufTy).Contents (Elt F) → (⟨S128, .f32⟩ : BufTy).Contents (Elt F)),
    StableHlo.unary main_v13 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S25000x128 ![0, 1] bcast_S1x128_S25000x128_0_1 : (⟨S1x128, .f32⟩ : BufTy).Contents (Elt F) → (⟨S25000x128, .f32⟩ : BufTy).Contents (Elt F)),
    StableHlo.binary main_v10 main_v15 main_v16 (mulf : (⟨S25000x128, .f32⟩ : BufTy).Contents (Elt F) → (⟨S25000x128, .f32⟩ : BufTy).Contents (Elt F) → (⟨S25000x128, .f32⟩ : BufTy).Contents (Elt F)),
    StableHlo.unary main_arg2 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S25000x128 ![0, 1] bcast_S1x128_S25000x128_0_1 : (⟨S1x128, .f32⟩ : BufTy).Contents (Elt F) → (⟨S25000x128, .f32⟩ : BufTy).Contents (Elt F)),
    StableHlo.binary main_v16 main_v18 main_v19 (mulf : (⟨S25000x128, .f32⟩ : BufTy).Contents (Elt F) → (⟨S25000x128, .f32⟩ : BufTy).Contents (Elt F) → (⟨S25000x128, .f32⟩ : BufTy).Contents (Elt F)),
    StableHlo.unary main_arg3 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S25000x128 ![0, 1] bcast_S1x128_S25000x128_0_1 : (⟨S1x128, .f32⟩ : BufTy).Contents (Elt F) → (⟨S25000x128, .f32⟩ : BufTy).Contents (Elt F)),
    StableHlo.binary main_v19 main_v21 main_v22 (addf : (⟨S25000x128, .f32⟩ : BufTy).Contents (Elt F) → (⟨S25000x128, .f32⟩ : BufTy).Contents (Elt F) → (⟨S25000x128, .f32⟩ : BufTy).Contents (Elt F)) ]

/-- Piece B: 22 operations, %c_2 … %39. -/
abbrev opsB : List (HloOp τ sig (Elt F)) :=
  [ StableHlo.nullary main_c_2 (constantI S_ 32 0#32),
    StableHlo.unary main_c_2 main_v23 (broadcastInDim S500000 ![] bcast_S_S500000 : (⟨S_, .i32⟩ : BufTy).Contents (Elt F) → (⟨S500000, .i32⟩ : BufTy).Contents (Elt F)),
    StableHlo.binary main_v1 main_v23 main_v24 (cmpi .slt : (⟨S500000, .i32⟩ : BufTy).Contents (Elt F) → (⟨S500000, .i32⟩ : BufTy).Contents (Elt F) → (⟨S500000, .i1⟩ : BufTy).Contents (Elt F)),
    StableHlo.nullary main_c_3 (constantI S_ 32 25000#32),
    StableHlo.unary main_c_3 main_v25 (broadcastInDim S500000 ![] bcast_S_S500000 : (⟨S_, .i32⟩ : BufTy).Contents (Elt F) → (⟨S500000, .i32⟩ : BufTy).Contents (Elt F)),
    StableHlo.binary main_v1 main_v25 main_v26 (addi : (⟨S500000, .i32⟩ : BufTy).Contents (Elt F) → (⟨S500000, .i32⟩ : BufTy).Contents (Elt F) → (⟨S500000, .i32⟩ : BufTy).Contents (Elt F)),
    StableHlo.ternary main_v24 main_v26 main_v1 main_v27 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v27 main_v28 (broadcastInDim S500000x1 ![0] bcast_S500000_S500000x1_0 : (⟨S500000, .i32⟩ : BufTy).Contents (Elt F) → (⟨S500000x1, .i32⟩ : BufTy).Contents (Elt F)),
    StableHlo.binary main_v22 main_v28 main_v29 ((fun x i => Host.gather gather_S25000x128_S500000x1_S500000x128_1_0_n_n_0_1_1128 x i) : (⟨S25000x128, .f32⟩ : BufTy).Contents (Elt F) → (⟨S500000x1, .i32⟩ : BufTy).Contents (Elt F) → (⟨S500000x128, .f32⟩ : BufTy).Contents (Elt F)),
    StableHlo.unary main_arg4 main_v30 ((transpose S128x128 [1, 0] · transposes_S128x128_S128x128_1_0) : (⟨S128x128, .f32⟩ : BufTy).Contents (Elt F) → (⟨S128x128, .f32⟩ : BufTy).Contents (Elt F)),
    StableHlo.binary main_arg1 main_v30 main_v31 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.binary main_v29 main_v31 main_v32 (addf : (⟨S500000x128, .f32⟩ : BufTy).Contents (Elt F) → (⟨S500000x128, .f32⟩ : BufTy).Contents (Elt F) → (⟨S500000x128, .f32⟩ : BufTy).Contents (Elt F)),
    StableHlo.unary main_arg5 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S500000x128 ![0, 1] bcast_S1x128_S500000x128_0_1 : (⟨S1x128, .f32⟩ : BufTy).Contents (Elt F) → (⟨S500000x128, .f32⟩ : BufTy).Contents (Elt F)),
    StableHlo.binary main_v32 main_v34 main_v35 (addf : (⟨S500000x128, .f32⟩ : BufTy).Contents (Elt F) → (⟨S500000x128, .f32⟩ : BufTy).Contents (Elt F) → (⟨S500000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S500000x128, .f32⟩) (broadcastInDim S500000x128 ![] bcast_S_S500000x128),
    StableHlo.TRef.binary (.of main_v35 : StableHlo.TRef sig ⟨S500000x128, .f32⟩) (.of main_call1_v0 : StableHlo.TRef sig ⟨S500000x128, .f32⟩) (.of main_v36 : StableHlo.TRef sig ⟨S500000x128, .f32⟩) maximumf,
    StableHlo.nullary main_cst_4 (constant S_ .f32 0x00000000#32),
    StableHlo.unary main_cst_4 main_v37 (broadcastInDim S25000x128 ![] bcast_S_S25000x128 : (⟨S_, .f32⟩ : BufTy).Contents (Elt F) → (⟨S25000x128, .f32⟩ : BufTy).Contents (Elt F)),
    StableHlo.unary main_v3 main_v38 (broadcastInDim S500000x1 ![0] bcast_S500000_S500000x1_0 : (⟨S500000, .i32⟩ : BufTy).Contents (Elt F) → (⟨S500000x1, .i32⟩ : BufTy).Contents (Elt F)),
    StableHlo.ternary main_v37 main_v38 main_v36 main_v39 ((fun x i u => Host.scatterAdd scatter_S25000x128_S500000x1_S500000x128_1_0_0_1 x i u) : (⟨S25000x128, .f32⟩ : BufTy).Contents (Elt F) → (⟨S500000x1, .i32⟩ : BufTy).Contents (Elt F) → (⟨S500000x128, .f32⟩ : BufTy).Contents (Elt F) → (⟨S25000x128, .f32⟩ : BufTy).Contents (Elt F)) ]

/-- Piece C: 7 operations, %40 … %46. -/
abbrev opsC : List (HloOp τ sig (Elt F)) :=
  [ StableHlo.binary main_v22 main_v39 main_v40 (addf : (⟨S25000x128, .f32⟩ : BufTy).Contents (Elt F) → (⟨S25000x128, .f32⟩ : BufTy).Contents (Elt F) → (⟨S25000x128, .f32⟩ : BufTy).Contents (Elt F)),
    StableHlo.unary main_arg6 main_v41 ((transpose S128x512 [1, 0] · transposes_S512x128_S128x512_1_0) : (⟨S512x128, .f32⟩ : BufTy).Contents (Elt F) → (⟨S128x512, .f32⟩ : BufTy).Contents (Elt F)),
    StableHlo.binary main_v40 main_v41 main_v42 ((fun l r => Host.dotGeneral dot_S25000x128_S128x512_S25000x512_1_0_0_1_n_n none l r) : (⟨S25000x128, .f32⟩ : BufTy).Contents (Elt F) → (⟨S128x512, .f32⟩ : BufTy).Contents (Elt F) → (⟨S25000x512, .f32⟩ : BufTy).Contents (Elt F)),
    StableHlo.unary main_arg7 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S25000x512 ![0, 1] bcast_S1x512_S25000x512_0_1 : (⟨S1x512, .f32⟩ : BufTy).Contents (Elt F) → (⟨S25000x512, .f32⟩ : BufTy).Contents (Elt F)),
    StableHlo.binary main_v42 main_v44 main_v45 (addf : (⟨S25000x512, .f32⟩ : BufTy).Contents (Elt F) → (⟨S25000x512, .f32⟩ : BufTy).Contents (Elt F) → (⟨S25000x512, .f32⟩ : BufTy).Contents (Elt F)),
    StableHlo.unary main_v45 main_v46 (Host.tanh : (⟨S25000x512, .f32⟩ : BufTy).Contents (Elt F) → (⟨S25000x512, .f32⟩ : BufTy).Contents (Elt F)) ]

/-- Piece D: 22 operations, %c_5 … %63. -/
abbrev opsD : List (HloOp τ sig (Elt F)) :=
  [ StableHlo.nullary main_c_5 (constantI S_ 32 0#32),
    StableHlo.unary main_c_5 main_v47 (broadcastInDim S500000 ![] bcast_S_S500000 : (⟨S_, .i32⟩ : BufTy).Contents (Elt F) → (⟨S500000, .i32⟩ : BufTy).Contents (Elt F)),
    StableHlo.binary main_v1 main_v47 main_v48 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 25000#32),
    StableHlo.unary main_c_6 main_v49 (broadcastInDim S500000 ![] bcast_S_S500000 : (⟨S_, .i32⟩ : BufTy).Contents (Elt F) → (⟨S500000, .i32⟩ : BufTy).Contents (Elt F)),
    StableHlo.binary main_v1 main_v49 main_v50 (addi : (⟨S500000, .i32⟩ : BufTy).Contents (Elt F) → (⟨S500000, .i32⟩ : BufTy).Contents (Elt F) → (⟨S500000, .i32⟩ : BufTy).Contents (Elt F)),
    StableHlo.ternary main_v48 main_v50 main_v1 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v51 main_v52 (broadcastInDim S500000x1 ![0] bcast_S500000_S500000x1_0 : (⟨S500000, .i32⟩ : BufTy).Contents (Elt F) → (⟨S500000x1, .i32⟩ : BufTy).Contents (Elt F)),
    StableHlo.binary main_v46 main_v52 main_v53 ((fun x i => Host.gather gather_S25000x512_S500000x1_S500000x512_1_0_n_n_0_1_1512 x i) : (⟨S25000x512, .f32⟩ : BufTy).Contents (Elt F) → (⟨S500000x1, .i32⟩ : BufTy).Contents (Elt F) → (⟨S500000x512, .f32⟩ : BufTy).Contents (Elt F)),
    StableHlo.unary main_arg8 main_v54 ((transpose S128x512 [1, 0] · transposes_S512x128_S128x512_1_0) : (⟨S512x128, .f32⟩ : BufTy).Contents (Elt F) → (⟨S128x512, .f32⟩ : BufTy).Contents (Elt F)),
    StableHlo.binary main_arg1 main_v54 main_v55 ((fun l r => Host.dotGeneral dot_S500000x128_S128x512_S500000x512_1_0_0_1_n_n none l r) : (⟨S500000x128, .f32⟩ : BufTy).Contents (Elt F) → (⟨S128x512, .f32⟩ : BufTy).Contents (Elt F) → (⟨S500000x512, .f32⟩ : BufTy).Contents (Elt F)),
    StableHlo.binary main_v53 main_v55 main_v56 (addf : (⟨S500000x512, .f32⟩ : BufTy).Contents (Elt F) → (⟨S500000x512, .f32⟩ : BufTy).Contents (Elt F) → (⟨S500000x512, .f32⟩ : BufTy).Contents (Elt F)),
    StableHlo.unary main_arg9 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S500000x512 ![0, 1] bcast_S1x512_S500000x512_0_1 : (⟨S1x512, .f32⟩ : BufTy).Contents (Elt F) → (⟨S500000x512, .f32⟩ : BufTy).Contents (Elt F)),
    StableHlo.binary main_v56 main_v58 main_v59 (addf : (⟨S500000x512, .f32⟩ : BufTy).Contents (Elt F) → (⟨S500000x512, .f32⟩ : BufTy).Contents (Elt F) → (⟨S500000x512, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S500000x512, .f32⟩) (broadcastInDim S500000x512 ![] bcast_S_S500000x512),
    StableHlo.TRef.binary (.of main_v59 : StableHlo.TRef sig ⟨S500000x512, .f32⟩) (.of main_call2_v0 : StableHlo.TRef sig ⟨S500000x512, .f32⟩) (.of main_v60 : StableHlo.TRef sig ⟨S500000x512, .f32⟩) maximumf,
    StableHlo.nullary main_cst_7 (constant S_ .f32 0x00000000#32),
    StableHlo.unary main_cst_7 main_v61 (broadcastInDim S25000x512 ![] bcast_S_S25000x512 : (⟨S_, .f32⟩ : BufTy).Contents (Elt F) → (⟨S25000x512, .f32⟩ : BufTy).Contents (Elt F)),
    StableHlo.unary main_v3 main_v62 (broadcastInDim S500000x1 ![0] bcast_S500000_S500000x1_0 : (⟨S500000, .i32⟩ : BufTy).Contents (Elt F) → (⟨S500000x1, .i32⟩ : BufTy).Contents (Elt F)),
    StableHlo.ternary main_v61 main_v62 main_v60 main_v63 ((fun x i u => Host.scatterAdd scatter_S25000x512_S500000x1_S500000x512_1_0_0_1 x i u) : (⟨S25000x512, .f32⟩ : BufTy).Contents (Elt F) → (⟨S500000x1, .i32⟩ : BufTy).Contents (Elt F) → (⟨S500000x512, .f32⟩ : BufTy).Contents (Elt F) → (⟨S25000x512, .f32⟩ : BufTy).Contents (Elt F)) ]

/-- Piece E: 7 operations, %64 … %70. -/
abbrev opsE : List (HloOp τ sig (Elt F)) :=
  [ StableHlo.binary main_v46 main_v63 main_v64 (addf : (⟨S25000x512, .f32⟩ : BufTy).Contents (Elt F) → (⟨S25000x512, .f32⟩ : BufTy).Contents (Elt F) → (⟨S25000x512, .f32⟩ : BufTy).Contents (Elt F)),
    StableHlo.unary main_arg10 main_v65 ((transpose S512x512 [1, 0] · transposes_S512x512_S512x512_1_0) : (⟨S512x512, .f32⟩ : BufTy).Contents (Elt F) → (⟨S512x512, .f32⟩ : BufTy).Contents (Elt F)),
    StableHlo.binary main_v64 main_v65 main_v66 ((fun l r => Host.dotGeneral dot_S25000x512_S512x512_S25000x512_1_0_0_1_n_n none l r) : (⟨S25000x512, .f32⟩ : BufTy).Contents (Elt F) → (⟨S512x512, .f32⟩ : BufTy).Contents (Elt F) → (⟨S25000x512, .f32⟩ : BufTy).Contents (Elt F)),
    StableHlo.unary main_arg11 main_v67 (broadcastInDim S1x512 ![1] bcast_S512_S1x512_1 : (⟨S512, .f32⟩ : BufTy).Contents (Elt F) → (⟨S1x512, .f32⟩ : BufTy).Contents (Elt F)),
    StableHlo.unary main_v67 main_v68 (broadcastInDim S25000x512 ![0, 1] bcast_S1x512_S25000x512_0_1 : (⟨S1x512, .f32⟩ : BufTy).Contents (Elt F) → (⟨S25000x512, .f32⟩ : BufTy).Contents (Elt F)),
    StableHlo.binary main_v66 main_v68 main_v69 (addf : (⟨S25000x512, .f32⟩ : BufTy).Contents (Elt F) → (⟨S25000x512, .f32⟩ : BufTy).Contents (Elt F) → (⟨S25000x512, .f32⟩ : BufTy).Contents (Elt F)),
    StableHlo.unary main_v69 main_v70 (Host.tanh : (⟨S25000x512, .f32⟩ : BufTy).Contents (Elt F) → (⟨S25000x512, .f32⟩ : BufTy).Contents (Elt F)) ]

/-- Piece F: 3 operations, %71 … %73. -/
abbrev opsF : List (HloOp τ sig (Elt F)) :=
  [ StableHlo.unary main_arg12 main_v71 ((transpose S512x256 [1, 0] · transposes_S256x512_S512x256_1_0) : (⟨S256x512, .f32⟩ : BufTy).Contents (Elt F) → (⟨S512x256, .f32⟩ : BufTy).Contents (Elt F)),
    StableHlo.binary main_v70 main_v71 main_v72 ((fun l r => Host.dotGeneral dot_S25000x512_S512x256_S25000x256_1_0_0_1_n_n none l r) : (⟨S25000x512, .f32⟩ : BufTy).Contents (Elt F) → (⟨S512x256, .f32⟩ : BufTy).Contents (Elt F) → (⟨S25000x256, .f32⟩ : BufTy).Contents (Elt F)),
    StableHlo.unary main_v72 main_v73 (Host.tanh : (⟨S25000x256, .f32⟩ : BufTy).Contents (Elt F) → (⟨S25000x256, .f32⟩ : BufTy).Contents (Elt F)) ]

/-- Piece G: 1 operations, %74 … %74. -/
abbrev opsG : List (HloOp τ sig (Elt F)) :=
  [ StableHlo.nary ![main_v46, main_v70, main_v73] main_v74 (fun u => concatenate S25000x1280 1 [⟨S25000x512, u 0⟩, ⟨S25000x512, u 1⟩, ⟨S25000x256, u 2⟩] concatenates_S25000x512_S25000x512_S25000x256_S25000x1280_d1) ]

/-- @main's 110 host operations in program order, every call inlined at its call site. -/
abbrev ops : List (HloOp τ sig (Elt F)) := opsA ++ opsB ++ opsC ++ opsD ++ opsE ++ opsF ++ opsG

end Cert.ReferenceIdeal.Hand

end
-- ==== Proof.Ref.Run.lean ====
/-
  The reference program's run.

  The reference's @main equals its line of host operations run in order (the calls unfolded at their call sites, the
  sequencing re-associated: definitional); no buffer or semaphore of the signature is scoped; every operation of the
  line touches TensorCore buffers only. So every weakly fair execution of @main ends with each buffer at the fold of
  the line over the launch contents.
-/
import proofs.«118637_j37658273251987_1_alg».proof.Proof.Ref.Ops
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main is the line: both sides are one chain of operation steps once the calls are unfolded and the sequencing
    re-associated, which is definitional. -/
theorem main_eq (c : Dev nD) : main (F := F) c = seq ops := by chain_rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-! Each operation's buffers are TensorCore references: per piece, the fact each operation's builder carries, in order. -/

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub .., nullary_bufs_sub ..,
    -- the variance, its select last
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    -- centre, scale, weight, shift
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., binary_bufs_sub ..,
    unary_bufs_sub .., unary_bufs_sub .., binary_bufs_sub ..,
    -- the rectifier
    nullary_bufs_sub .., unary_bufs_sub .., binary_bufs_sub ..,
    nullary_bufs_sub .., unary_bufs_sub .., unary_bufs_sub .., ternary_bufs_sub ..⟩

theorem opsC_sub : (opsC : List (HloOp τ sig (Elt F))).Forall fun op => op.bufs ⊆ tcRefs τ sig :=
  ⟨binary_bufs_sub .., unary_bufs_sub .., binary_bufs_sub .., unary_bufs_sub .., unary_bufs_sub .., binary_bufs_sub ..,
    unary_bufs_sub ..⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., binary_bufs_sub ..,
    unary_bufs_sub .., unary_bufs_sub .., binary_bufs_sub ..,
    -- the rectifier
    nullary_bufs_sub .., unary_bufs_sub .., binary_bufs_sub ..,
    nullary_bufs_sub .., unary_bufs_sub .., unary_bufs_sub .., ternary_bufs_sub ..⟩

theorem opsE_sub : (opsE : List (HloOp τ sig (Elt F))).Forall fun op => op.bufs ⊆ tcRefs τ sig :=
  ⟨binary_bufs_sub .., unary_bufs_sub .., binary_bufs_sub .., unary_bufs_sub .., unary_bufs_sub .., binary_bufs_sub ..,
    unary_bufs_sub ..⟩

theorem opsF_sub : (opsF : List (HloOp τ sig (Elt F))).Forall fun op => op.bufs ⊆ tcRefs τ sig :=
  ⟨unary_bufs_sub .., binary_bufs_sub .., unary_bufs_sub ..⟩

theorem opsG_sub : (opsG : List (HloOp τ sig (Elt F))).Forall fun op => op.bufs ⊆ tcRefs τ sig :=
  nary_bufs_sub ..

/-- A property of every member of two lists holds of every member of their concatenation. -/
theorem forall_append_of {α : Type} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

/-- Every operation of the line touches TensorCore buffers only. -/
theorem ops_sub : (ops : List (HloOp τ sig (Elt F))).Forall fun op => op.bufs ⊆ tcRefs τ sig :=
  forall_append_of (forall_append_of (forall_append_of (forall_append_of (forall_append_of
    (forall_append_of opsA_sub opsB_sub) opsC_sub) opsD_sub) opsE_sub) opsF_sub) opsG_sub

/-- On every device, for any float values, from any memory with zero counters: every weakly fair execution of @main
    terminates with each TensorCore buffer at the fold of the line over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Chain.lean ====
/-
  The reference's fold of host operations read back: its result buffer holds the specification's function of the
  fourteen argument buffers, and no operation writes an argument buffer.
-/
import proofs.«118637_j37658273251987_1_alg».proof.Proof.Ref.Run
import proofs.«118637_j37658273251987_1_alg».proof.Proof.Spec
import proofs.«118637_j37658273251987_1_alg».proof.Proof.LibNary

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-! ### Each piece read back: the buffer it is cut after, as the specification's function of what the piece reads -/

set_option maxHeartbeats 1000000 in
/-- Piece A leaves the edges' source nodes in the first index row's buffer. -/
theorem opsA_v1 (U : Valuation τ sig (Elt F)) :
    after opsA U (Proc.devRef .tc main_v1) = Spec.srcRow (U (Proc.devRef .tc main_arg13)) := by
  after_results_simp
  rfl

set_option maxHeartbeats 1000000 in
/-- Piece A leaves the edges' destination nodes in the second index row's buffer. -/
theorem opsA_v3 (U : Valuation τ sig (Elt F)) :
    after opsA U (Proc.devRef .tc main_v3) = Spec.dstRow (U (Proc.devRef .tc main_arg13)) := by
  after_results_simp
  rfl

set_option maxHeartbeats 1000000 in
/-- Piece A leaves the normalised node features: mean and variance column by column, centre, scale, weight, shift. -/
theorem opsA_v22 (U : Valuation τ sig (Elt F)) :
    after opsA U (Proc.devRef .tc main_v22)
      = Spec.x0 (U (Proc.devRef .tc main_arg0)) (U (Proc.devRef .tc main_arg2)) (U (Proc.devRef .tc main_arg3)) := by
  after_results_simp
  rfl

set_option maxHeartbeats 1000000 in
/-- Piece B leaves round 1's summed messages. -/
theorem opsB_v39 (U : Valuation τ sig (Elt F)) :
    after opsB U (Proc.devRef .tc main_v39)
      = Spec.aggr1 (U (Proc.devRef .tc main_v22)) (U (Proc.devRef .tc main_v1)) (U (Proc.devRef .tc main_v3))
          (U (Proc.devRef .tc main_arg1)) (U (Proc.devRef .tc main_arg4)) (U (Proc.devRef .tc main_arg5)) := by
  after_results_simp
  rfl

set_option maxHeartbeats 1000000 in
/-- Piece C leaves round 1's node update. -/
theorem opsC_v46 (U : Valuation τ sig (Elt F)) :
    after opsC U (Proc.devRef .tc main_v46)
      = Spec.upd1 (U (Proc.devRef .tc main_v22)) (U (Proc.devRef .tc main_v39)) (U (Proc.devRef .tc main_arg6))
          (U (Proc.devRef .tc main_arg7)) := by
  after_results_simp
  rfl

set_option maxHeartbeats 1000000 in
/-- Piece D leaves round 2's summed messages. -/
theorem opsD_v63 (U : Valuation τ sig (Elt F)) :
    after opsD U (Proc.devRef .tc main_v63)
      = Spec.aggr2 (U (Proc.devRef .tc main_v46)) (U (Proc.devRef .tc main_v1)) (U (Proc.devRef .tc main_v3))
          (U (Proc.devRef .tc main_arg1)) (U (Proc.devRef .tc main_arg8)) (U (Proc.devRef .tc main_arg9)) := by
  after_results_simp
  rfl

set_option maxHeartbeats 1000000 in
/-- Piece E leaves round 2's node update. -/
theorem opsE_v70 (U : Valuation τ sig (Elt F)) :
    after opsE U (Proc.devRef .tc main_v70)
      = Spec.upd2 (U (Proc.devRef .tc main_v46)) (U (Proc.devRef .tc main_v63)) (U (Proc.devRef .tc main_arg10))
          (U (Proc.devRef .tc main_arg11)) := by
  after_results_simp
  rfl

set_option maxHeartbeats 1000000 in
/-- Piece F leaves the final projection. -/
theorem opsF_v73 (U : Valuation τ sig (Elt F)) :
    after opsF U (Proc.devRef .tc main_v73) = Spec.fc (U (Proc.devRef .tc main_v70)) (U (Proc.devRef .tc main_arg12)) := by
  after_results_simp
  rfl

set_option maxHeartbeats 1000000 in
/-- Piece G leaves the three results side by side. -/
theorem opsG_v74 (U : Valuation τ sig (Elt F)) :
    after opsG U (Proc.devRef .tc main_v74)
      = Spec.side3 (U (Proc.devRef .tc main_v46)) (U (Proc.devRef .tc main_v70)) (U (Proc.devRef .tc main_v73)) := by
  simp only [after_cons, after_nil]
  rw [Cert.LibNary.nary3_result]
  rfl

/-! ### What each piece writes, and so what it keeps -/

/-- The buffers piece A writes, in order. -/
abbrev wA : List (Ref sig .tc) :=
  [main_v0, main_v1, main_v2, main_v3, main_cst, main_v4, main_cst_0, main_v5, main_v6, main_c,
    main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4, main_call0_call0_v0, main_call0_call0_v1, main_v7,
    main_v8, main_v9, main_v10, main_cst_1, main_v11, main_v12, main_v13, main_v14, main_v15, main_v16, main_v17, main_v18,
    main_v19, main_v20, main_v21, main_v22]
/-- The buffers piece B writes. -/
abbrev wB : List (Ref sig .tc) :=
  [main_c_2, main_v23, main_v24, main_c_3, main_v25, main_v26, main_v27, main_v28, main_v29, main_v30, main_v31, main_v32,
    main_v33, main_v34, main_v35, main_call1_cst, main_call1_v0, main_v36, main_cst_4, main_v37, main_v38, main_v39]
/-- The buffers piece C writes. -/
abbrev wC : List (Ref sig .tc) := [main_v40, main_v41, main_v42, main_v43, main_v44, main_v45, main_v46]
/-- The buffers piece D writes. -/
abbrev wD : List (Ref sig .tc) :=
  [main_c_5, main_v47, main_v48, main_c_6, main_v49, main_v50, main_v51, main_v52, main_v53, main_v54, main_v55, main_v56,
    main_v57, main_v58, main_v59, main_call2_cst, main_call2_v0, main_v60, main_cst_7, main_v61, main_v62, main_v63]
/-- The buffers piece E writes. -/
abbrev wE : List (Ref sig .tc) := [main_v64, main_v65, main_v66, main_v67, main_v68, main_v69, main_v70]
/-- The buffers piece F writes. -/
abbrev wF : List (Ref sig .tc) := [main_v71, main_v72, main_v73]
/-- The buffer piece G writes. -/
abbrev wG : List (Ref sig .tc) := [main_v74]

/-- A reference of a list, as a device buffer, is in the list's image. -/
theorem devRef_mem_of_mem {W : List (Ref sig .tc)} {y : Ref sig .tc} (h : y ∈ W) :
    (Proc.devRef (τ := τ) .tc y) ∈ W.map (Proc.devRef (τ := τ) .tc) := List.mem_map_of_mem h

set_option maxHeartbeats 1000000 in
theorem opsA_writes : (opsA : List (HloOp τ sig (Elt F))).Forall fun op => op.writes ⊆ (wA.map (Proc.devRef (τ := τ) .tc)).toFinset := by
  simp only [List.Forall, nullary_writes, unary_writes, binary_writes, ternary_writes, reshape_writes,
    Finset.singleton_subset_iff, List.mem_toFinset]
  repeat' apply And.intro
  all_goals exact devRef_mem_of_mem (by decide)

set_option maxHeartbeats 1000000 in
theorem opsB_writes : (opsB : List (HloOp τ sig (Elt F))).Forall fun op => op.writes ⊆ (wB.map (Proc.devRef (τ := τ) .tc)).toFinset := by
  simp only [List.Forall, nullary_writes, unary_writes, binary_writes, ternary_writes,
    Finset.singleton_subset_iff, List.mem_toFinset]
  repeat' apply And.intro
  all_goals exact devRef_mem_of_mem (by decide)

set_option maxHeartbeats 1000000 in
theorem opsC_writes : (opsC : List (HloOp τ sig (Elt F))).Forall fun op => op.writes ⊆ (wC.map (Proc.devRef (τ := τ) .tc)).toFinset := by
  simp only [List.Forall, unary_writes, binary_writes, Finset.singleton_subset_iff, List.mem_toFinset]
  repeat' apply And.intro
  all_goals exact devRef_mem_of_mem (by decide)

set_option maxHeartbeats 1000000 in
theorem opsD_writes : (opsD : List (HloOp τ sig (Elt F))).Forall fun op => op.writes ⊆ (wD.map (Proc.devRef (τ := τ) .tc)).toFinset := by
  simp only [List.Forall, nullary_writes, unary_writes, binary_writes, ternary_writes,
    Finset.singleton_subset_iff, List.mem_toFinset]
  repeat' apply And.intro
  all_goals exact devRef_mem_of_mem (by decide)

set_option maxHeartbeats 1000000 in
theorem opsE_writes : (opsE : List (HloOp τ sig (Elt F))).Forall fun op => op.writes ⊆ (wE.map (Proc.devRef (τ := τ) .tc)).toFinset := by
  simp only [List.Forall, unary_writes, binary_writes, Finset.singleton_subset_iff, List.mem_toFinset]
  repeat' apply And.intro
  all_goals exact devRef_mem_of_mem (by decide)

set_option maxHeartbeats 1000000 in
theorem opsF_writes : (opsF : List (HloOp τ sig (Elt F))).Forall fun op => op.writes ⊆ (wF.map (Proc.devRef (τ := τ) .tc)).toFinset := by
  simp only [List.Forall, unary_writes, binary_writes, Finset.singleton_subset_iff, List.mem_toFinset]
  repeat' apply And.intro
  all_goals exact devRef_mem_of_mem (by decide)

set_option maxHeartbeats 1000000 in
theorem opsG_writes : (opsG : List (HloOp τ sig (Elt F))).Forall fun op => op.writes ⊆ (wG.map (Proc.devRef (τ := τ) .tc)).toFinset := by
  simp only [List.Forall, nary_writes, Finset.singleton_subset_iff, List.mem_toFinset]
  exact devRef_mem_of_mem (by decide)

/-! A piece keeps every buffer it does not write. -/

theorem opsA_keep (U : Valuation τ sig (Elt F)) {r : Ref sig .tc} (h : r ∉ wA) :
    after opsA U (Proc.devRef .tc r) = U (Proc.devRef .tc r) := after_of_writes_sub opsA U opsA_writes h
theorem opsB_keep (U : Valuation τ sig (Elt F)) {r : Ref sig .tc} (h : r ∉ wB) :
    after opsB U (Proc.devRef .tc r) = U (Proc.devRef .tc r) := after_of_writes_sub opsB U opsB_writes h
theorem opsC_keep (U : Valuation τ sig (Elt F)) {r : Ref sig .tc} (h : r ∉ wC) :
    after opsC U (Proc.devRef .tc r) = U (Proc.devRef .tc r) := after_of_writes_sub opsC U opsC_writes h
theorem opsD_keep (U : Valuation τ sig (Elt F)) {r : Ref sig .tc} (h : r ∉ wD) :
    after opsD U (Proc.devRef .tc r) = U (Proc.devRef .tc r) := after_of_writes_sub opsD U opsD_writes h
theorem opsE_keep (U : Valuation τ sig (Elt F)) {r : Ref sig .tc} (h : r ∉ wE) :
    after opsE U (Proc.devRef .tc r) = U (Proc.devRef .tc r) := after_of_writes_sub opsE U opsE_writes h
theorem opsF_keep (U : Valuation τ sig (Elt F)) {r : Ref sig .tc} (h : r ∉ wF) :
    after opsF U (Proc.devRef .tc r) = U (Proc.devRef .tc r) := after_of_writes_sub opsF U opsF_writes h
theorem opsG_keep (U : Valuation τ sig (Elt F)) {r : Ref sig .tc} (h : r ∉ wG) :
    after opsG U (Proc.devRef .tc r) = U (Proc.devRef .tc r) := after_of_writes_sub opsG U opsG_writes h

/-- The whole line keeps every buffer no piece writes. -/
theorem ops_keep (V : Valuation τ sig (Elt F)) {r : Ref sig .tc}
    (h : r ∉ wA ∧ r ∉ wB ∧ r ∉ wC ∧ r ∉ wD ∧ r ∉ wE ∧ r ∉ wF ∧ r ∉ wG) :
    after ops V (Proc.devRef .tc r) = V (Proc.devRef .tc r) := by
  obtain ⟨hA, hB, hC, hD, hE, hF, hG⟩ := h
  simp only [ops, after_concat]
  rw [opsG_keep _ hG, opsF_keep _ hF, opsE_keep _ hE, opsD_keep _ hD, opsC_keep _ hC, opsB_keep _ hB, opsA_keep _ hA]

/-- THE RESULT: after all of @main's operations the result buffer is the specification's function of the arguments. -/
theorem ref_result (V : Valuation τ sig (Elt F)) :
    after ops V (Proc.devRef .tc main_v74)
      = Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops, after_concat]
  -- the concatenation, of what piece F left
  rw [opsG_v74]
  -- the final projection; the two node updates kept
  rw [opsF_v73, opsF_keep _ (r := main_v46) (by decide), opsF_keep _ (r := main_v70) (by decide)]
  -- round 2's update
  rw [opsE_v70, opsE_keep _ (r := main_v46) (by decide), opsE_keep _ (r := main_arg12) (by decide)]
  -- round 2's summed messages
  rw [opsD_v63, opsD_keep _ (r := main_v46) (by decide), opsD_keep _ (r := main_arg10) (by decide),
    opsD_keep _ (r := main_arg11) (by decide), opsD_keep _ (r := main_arg12) (by decide)]
  -- round 1's update
  rw [opsC_v46, opsC_keep _ (r := main_v1) (by decide), opsC_keep _ (r := main_v3) (by decide),
    opsC_keep _ (r := main_arg1) (by decide), opsC_keep _ (r := main_arg8) (by decide), opsC_keep _ (r := main_arg9) (by decide),
    opsC_keep _ (r := main_arg10) (by decide), opsC_keep _ (r := main_arg11) (by decide), opsC_keep _ (r := main_arg12) (by decide)]
  -- round 1's summed messages
  rw [opsB_v39, opsB_keep _ (r := main_v22) (by decide), opsB_keep _ (r := main_v1) (by decide), opsB_keep _ (r := main_v3) (by decide),
    opsB_keep _ (r := main_arg1) (by decide), opsB_keep _ (r := main_arg6) (by decide), opsB_keep _ (r := main_arg7) (by decide),
    opsB_keep _ (r := main_arg8) (by decide), opsB_keep _ (r := main_arg9) (by decide), opsB_keep _ (r := main_arg10) (by decide),
    opsB_keep _ (r := main_arg11) (by decide), opsB_keep _ (r := main_arg12) (by decide)]
  -- the normalised features and the two index rows
  rw [opsA_v22, opsA_v1, opsA_v3, opsA_keep _ (r := main_arg1) (by decide), opsA_keep _ (r := main_arg4) (by decide),
    opsA_keep _ (r := main_arg5) (by decide), opsA_keep _ (r := main_arg6) (by decide), opsA_keep _ (r := main_arg7) (by decide),
    opsA_keep _ (r := main_arg8) (by decide), opsA_keep _ (r := main_arg9) (by decide), opsA_keep _ (r := main_arg10) (by decide),
    opsA_keep _ (r := main_arg11) (by decide), opsA_keep _ (r := main_arg12) (by decide)]
  rfl

/-- No operation writes an argument buffer. -/
theorem ref_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13) := by
  exact ⟨ops_keep V (by decide), ops_keep V (by decide), ops_keep V (by decide), ops_keep V (by decide), ops_keep V (by decide),
    ops_keep V (by decide), ops_keep V (by decide), ops_keep V (by decide), ops_keep V (by decide), ops_keep V (by decide),
    ops_keep V (by decide), ops_keep V (by decide), ops_keep V (by decide), ops_keep V (by decide)⟩

end Cert.ReferenceIdeal.Hand

end
-- ==== Proof.lean ====
/-
  The certificate's claim: the printed kernel and its idealization run to the end, fault nowhere and leave their
  fourteen argument arrays unchanged; so does the idealized reference; the idealization rewrote nothing; and at the
  ideal values, run from memories that agree on the arguments, the idealized kernel and the idealized reference end
  with the same result array.

  The kernel's program is five pallas_calls among stretches of host operations. Each call is a pipeline over row
  blocks whose body loads its blocks whole, multiplies on the matrix unit into a zero accumulator, adds a bias row
  (and applies tanh) and stores the block whole; the five bodies' triples, the pipelines' proof data and the run of
  @main over them give, at any float instance, every unscoped buffer's contents at the return as a fold through
  @main. Read at the ideal values, each call's result array is, entry by entry, the sum over the contracted axis that
  the host's dot_general with the transposed weights computes; rounding to the narrower float format is the identity
  there; and the one re-association between the two programs, (gathered + projected) + bias against gathered +
  (projected + bias), is associativity of addition on the extended reals. Everything else — the batch normalisation,
  the gathers, the rectifier, the scatter-adds, the concatenation — is the same host operation on both sides, applied
  to equal operands. So both programs end at one function of the arguments (`Cert.Spec.result`).
-/
import proofs.«118637_j37658273251987_1_alg».proof.Defs
import proofs.«118637_j37658273251987_1_alg».proof.Proof.K.Keep
import proofs.«118637_j37658273251987_1_alg».proof.Proof.KI.ChainB
import proofs.«118637_j37658273251987_1_alg».proof.Proof.Ref.Chain
import proofs.«118637_j37658273251987_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

/-- The printed kernel runs to the end and leaves its arguments unchanged. -/
theorem frame_k : Cert.frame_Kernel := fun m ρ _ => Cert.Kernel.Hand.frame_run m ρ

/-- So does its idealization. -/
theorem frame_ki : Cert.frame_KernelIdeal := fun m ρ _ => Cert.KernelIdeal.Hand.frame_run m ρ

/-- The reference is a straight line of host operations, none of which writes an argument. -/
theorem frame_r : Cert.frame_ReferenceIdeal := fun m ρ _ =>
  (θ_run Cert.ReferenceIdeal.defs _ _).mono (fun r h c => by
    obtain ⟨e0, e1, e2, e3, e4, e5, e6, e7, e8, e9, e10, e11, e12, e13⟩ := Cert.ReferenceIdeal.Hand.ref_args (F := Ideal) (StableHlo.launchContents m c)
    exact ⟨(h c Cert.ReferenceIdeal.main_arg0).trans e0, (h c Cert.ReferenceIdeal.main_arg1).trans e1, (h c Cert.ReferenceIdeal.main_arg2).trans e2, (h c Cert.ReferenceIdeal.main_arg3).trans e3, (h c Cert.ReferenceIdeal.main_arg4).trans e4, (h c Cert.ReferenceIdeal.main_arg5).trans e5, (h c Cert.ReferenceIdeal.main_arg6).trans e6, (h c Cert.ReferenceIdeal.main_arg7).trans e7, (h c Cert.ReferenceIdeal.main_arg8).trans e8, (h c Cert.ReferenceIdeal.main_arg9).trans e9, (h c Cert.ReferenceIdeal.main_arg10).trans e10, (h c Cert.ReferenceIdeal.main_arg11).trans e11, (h c Cert.ReferenceIdeal.main_arg12).trans e12, (h c Cert.ReferenceIdeal.main_arg13).trans e13⟩)
    (Cert.ReferenceIdeal.Hand.run_fold (F := Ideal) m ρ)

/-- At the ideal values both programs end with the specification's function of the arguments in their result array. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v64 (by decide))).trans (Cert.KernelIdeal.Hand.W11_v64 m ρ c)
    · exact ⟨(h c _ (Cert.KernelIdeal.Hand.mem_uc Cert.KernelIdeal.main_arg0 (by decide))).trans (Cert.KernelIdeal.Hand.W11_kept m ρ c Cert.KernelIdeal.main_arg0 (by decide) (by decide) (by decide) (by decide) (by decide) (by decide) (by decide) (by decide) (by decide) (by decide) (by decide)),
        (h c _ (Cert.KernelIdeal.Hand.mem_uc Cert.KernelIdeal.main_arg1 (by decide))).trans (Cert.KernelIdeal.Hand.W11_kept m ρ c Cert.KernelIdeal.main_arg1 (by decide) (by decide) (by decide) (by decide) (by decide) (by decide) (by decide) (by decide) (by decide) (by decide) (by decide)),
        (h c _ (Cert.KernelIdeal.Hand.mem_uc Cert.KernelIdeal.main_arg2 (by decide))).trans (Cert.KernelIdeal.Hand.W11_kept m ρ c Cert.KernelIdeal.main_arg2 (by decide) (by decide) (by decide) (by decide) (by decide) (by decide) (by decide) (by decide) (by decide) (by decide) (by decide)),
        (h c _ (Cert.KernelIdeal.Hand.mem_uc Cert.KernelIdeal.main_arg3 (by decide))).trans (Cert.KernelIdeal.Hand.W11_kept m ρ c Cert.KernelIdeal.main_arg3 (by decide) (by decide) (by decide) (by decide) (by decide) (by decide) (by decide) (by decide) (by decide) (by decide) (by decide)),
        (h c _ (Cert.KernelIdeal.Hand.mem_uc Cert.KernelIdeal.main_arg4 (by decide))).trans (Cert.KernelIdeal.Hand.W11_kept m ρ c Cert.KernelIdeal.main_arg4 (by decide) (by decide) (by decide) (by decide) (by decide) (by decide) (by decide) (by decide) (by decide) (by decide) (by decide)),
        (h c _ (Cert.KernelIdeal.Hand.mem_uc Cert.KernelIdeal.main_arg5 (by decide))).trans (Cert.KernelIdeal.Hand.W11_kept m ρ c Cert.KernelIdeal.main_arg5 (by decide) (by decide) (by decide) (by decide) (by decide) (by decide) (by decide) (by decide) (by decide) (by decide) (by decide)),
        (h c _ (Cert.KernelIdeal.Hand.mem_uc Cert.KernelIdeal.main_arg6 (by decide))).trans (Cert.KernelIdeal.Hand.W11_kept m ρ c Cert.KernelIdeal.main_arg6 (by decide) (by decide) (by decide) (by decide) (by decide) (by decide) (by decide) (by decide) (by decide) (by decide) (by decide)),
        (h c _ (Cert.KernelIdeal.Hand.mem_uc Cert.KernelIdeal.main_arg7 (by decide))).trans (Cert.KernelIdeal.Hand.W11_kept m ρ c Cert.KernelIdeal.main_arg7 (by decide) (by decide) (by decide) (by decide) (by decide) (by decide) (by decide) (by decide) (by decide) (by decide) (by decide)),
        (h c _ (Cert.KernelIdeal.Hand.mem_uc Cert.KernelIdeal.main_arg8 (by decide))).trans (Cert.KernelIdeal.Hand.W11_kept m ρ c Cert.KernelIdeal.main_arg8 (by decide) (by decide) (by decide) (by decide) (by decide) (by decide) (by decide) (by decide) (by decide) (by decide) (by decide)),
        (h c _ (Cert.KernelIdeal.Hand.mem_uc Cert.KernelIdeal.main_arg9 (by decide))).trans (Cert.KernelIdeal.Hand.W11_kept m ρ c Cert.KernelIdeal.main_arg9 (by decide) (by decide) (by decide) (by decide) (by decide) (by decide) (by decide) (by decide) (by decide) (by decide) (by decide)),
        (h c _ (Cert.KernelIdeal.Hand.mem_uc Cert.KernelIdeal.main_arg10 (by decide))).trans (Cert.KernelIdeal.Hand.W11_kept m ρ c Cert.KernelIdeal.main_arg10 (by decide) (by decide) (by decide) (by decide) (by decide) (by decide) (by decide) (by decide) (by decide) (by decide) (by decide)),
        (h c _ (Cert.KernelIdeal.Hand.mem_uc Cert.KernelIdeal.main_arg11 (by decide))).trans (Cert.KernelIdeal.Hand.W11_kept m ρ c Cert.KernelIdeal.main_arg11 (by decide) (by decide) (by decide) (by decide) (by decide) (by decide) (by decide) (by decide) (by decide) (by decide) (by decide)),
        (h c _ (Cert.KernelIdeal.Hand.mem_uc Cert.KernelIdeal.main_arg12 (by decide))).trans (Cert.KernelIdeal.Hand.W11_kept m ρ c Cert.KernelIdeal.main_arg12 (by decide) (by decide) (by decide) (by decide) (by decide) (by decide) (by decide) (by decide) (by decide) (by decide) (by decide)),
        (h c _ (Cert.KernelIdeal.Hand.mem_uc Cert.KernelIdeal.main_arg13 (by decide))).trans (Cert.KernelIdeal.Hand.W11_kept m ρ c Cert.KernelIdeal.main_arg13 (by decide) (by decide) (by decide) (by decide) (by decide) (by decide) (by decide) (by decide) (by decide) (by decide) (by decide))⟩
  · refine (θ_run Cert.ReferenceIdeal.defs _ _).mono (fun r h c => ⟨?_, ?_⟩) (Cert.ReferenceIdeal.Hand.run_fold (F := Ideal) m' ρ')
    · refine ((h c Cert.ReferenceIdeal.main_v74).trans (Cert.ReferenceIdeal.Hand.ref_result (F := Ideal) (StableHlo.launchContents m' c))).trans ?_
      show Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    · obtain ⟨e0, e1, e2, e3, e4, e5, e6, e7, e8, e9, e10, e11, e12, e13⟩ := Cert.ReferenceIdeal.Hand.ref_args (F := Ideal) (StableHlo.launchContents m' c)
      exact ⟨(h c Cert.ReferenceIdeal.main_arg0).trans e0, (h c Cert.ReferenceIdeal.main_arg1).trans e1, (h c Cert.ReferenceIdeal.main_arg2).trans e2, (h c Cert.ReferenceIdeal.main_arg3).trans e3, (h c Cert.ReferenceIdeal.main_arg4).trans e4, (h c Cert.ReferenceIdeal.main_arg5).trans e5, (h c Cert.ReferenceIdeal.main_arg6).trans e6, (h c Cert.ReferenceIdeal.main_arg7).trans e7, (h c Cert.ReferenceIdeal.main_arg8).trans e8, (h c Cert.ReferenceIdeal.main_arg9).trans e9, (h c Cert.ReferenceIdeal.main_arg10).trans e10, (h c Cert.ReferenceIdeal.main_arg11).trans e11, (h c Cert.ReferenceIdeal.main_arg12).trans e12, (h c Cert.ReferenceIdeal.main_arg13).trans e13⟩

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
